-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S11008x2048 : Shape := ⟨2, ![11008, 2048]⟩
abbrev S4096x5504 : Shape := ⟨2, ![4096, 5504]⟩
abbrev S11008x64 : Shape := ⟨2, ![11008, 64]⟩
abbrev S4096x172 : Shape := ⟨2, ![4096, 172]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S4096x172 : S_.BroadcastsInDim S4096x172 (![] : Fin 0 → Fin S4096x172.rank)
  reducesTo_S4096x172_S_d0_1 : S4096x172.ReducesTo [0, 1] S_

variable [Facts]

def fn_part1 {F : FTy → Type} [FloatOps F] (main_arg7 : FVec F S11008x64 .f32) (main_arg8 : FVec F S4096x172 .f32) (main_arg9 : FVec F S4096x172 .f32) (main_v13 : IVec S_ 1) (main_v16 : IVec S11008x64 1) : IVec S_ 1 :=
  let main_c_5 : IVec S_ 1 := constantI S_ 1 1#1
  let main_v17 : IVec S_ 1 := (fun x v => Host.reduce IntOp.andi x v reducesTo_S11008x64_S_d0_1 h_S_) main_v16 main_c_5
  let main_v18 : IVec S_ 1 := andi main_v13 main_v17
  let main_v19 : FVec F S11008x64 .f32 := Host.absf main_arg7
  let main_cst_6 : FVec F S_ .f32 := constant S_ .f32 0x7F800000#32
  let main_v20 : FVec F S11008x64 .f32 := broadcastInDim S11008x64 ![] bcast_S_S11008x64 main_cst_6
  let main_v21 : IVec S11008x64 1 := cmpf .olt main_v19 main_v20
  let main_c_7 : IVec S_ 1 := constantI S_ 1 1#1
  let main_v22 : IVec S_ 1 := (fun x v => Host.reduce IntOp.andi x v reducesTo_S11008x64_S_d0_1 h_S_) main_v21 main_c_7
  let main_v23 : IVec S_ 1 := andi main_v18 main_v22
  let main_v24 : FVec F S4096x172 .f32 := Host.absf main_arg8
  let main_cst_8 : FVec F S_ .f32 := constant S_ .f32 0x7F800000#32
  let main_v25 : FVec F S4096x172 .f32 := broadcastInDim S4096x172 ![] bcast_S_S4096x172 main_cst_8
  let main_v26 : IVec S4096x172 1 := cmpf .olt main_v24 main_v25
  let main_c_9 : IVec S_ 1 := constantI S_ 1 1#1
  let main_v27 : IVec S_ 1 := (fun x v => Host.reduce IntOp.andi x v reducesTo_S4096x172_S_d0_1 h_S_) main_v26 main_c_9
  let main_v28 : IVec S_ 1 := andi main_v23 main_v27
  let main_v29 : FVec F S4096x172 .f32 := Host.absf main_arg9
  let main_cst_10 : FVec F S_ .f32 := constant S_ .f32 0x7F800000#32
  let main_v30 : FVec F S4096x172 .f32 := broadcastInDim S4096x172 ![] bcast_S_S4096x172 main_cst_10
  let main_v31 : IVec S4096x172 1 := cmpf .olt main_v29 main_v30
  let main_c_11 : IVec S_ 1 := constantI S_ 1 1#1
  let main_v32 : IVec S_ 1 := (fun x v => Host.reduce IntOp.andi x v reducesTo_S4096x172_S_d0_1 h_S_) main_v31 main_c_11
  let main_v33 : IVec S_ 1 := andi main_v28 main_v32
  main_v33

def fn {F : FTy → Type} [FloatOps F] (main_arg0 : FVec F S4x1024x4096 .f32) (main_arg1 : IVec S11008x2048 32) (main_arg2 : IVec S11008x2048 32) (main_arg3 : IVec S4096x5504 32) (main_arg4 : FVec F S11008x64 .f32) (main_arg5 : FVec F S11008x64 .f32) (main_arg6 : FVec F S11008x64 .f32) (main_arg7 : FVec F S11008x64 .f32) (main_arg8 : FVec F S4096x172 .f32) (main_arg9 : FVec F S4096x172 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S11008x64 .f32 := Host.absf main_arg4
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S11008x64 .f32 := Host.absf main_arg5
  let main_cst_2 : FVec F S_ .f32 := constant S_ .f32 0x7F800000#32
  let main_v10 : FVec F S11008x64 .f32 := broadcastInDim S11008x64 ![] bcast_S_S11008x64 main_cst_2
  let main_v11 : IVec S11008x64 1 := cmpf .olt main_v9 main_v10
  let main_c_3 : IVec S_ 1 := constantI S_ 1 1#1
  let main_v12 : IVec S_ 1 := (fun x v => Host.reduce IntOp.andi x v reducesTo_S11008x64_S_d0_1 h_S_) main_v11 main_c_3
  let main_v13 : IVec S_ 1 := andi main_v8 main_v12
  let main_v14 : FVec F S11008x64 .f32 := Host.absf main_arg6
  let main_cst_4 : FVec F S_ .f32 := constant S_ .f32 0x7F800000#32
  let main_v15 : FVec F S11008x64 .f32 := broadcastInDim S11008x64 ![] bcast_S_S11008x64 main_cst_4
  let main_v16 : IVec S11008x64 1 := cmpf .olt main_v14 main_v15
  fn_part1 (F := F) main_arg7 main_arg8 main_arg9 main_v13 main_v16
-- ==== Kernel.lean ====
abbrev S4x1024x4096 : Shape := ⟨3, ![4, 1024, 4096]⟩
abbrev S11008x2048 : Shape := ⟨2, ![11008, 2048]⟩
abbrev S4096x5504 : Shape := ⟨2, ![4096, 5504]⟩
abbrev S11008x64 : Shape := ⟨2, ![11008, 64]⟩
abbrev S4096x172 : Shape := ⟨2, ![4096, 172]⟩
abbrev S4096x4096 : Shape := ⟨2, ![4096, 4096]⟩
abbrev S4096x2048x2 : Shape := ⟨3, ![4096, 2048, 2]⟩
abbrev S4096x2048x1 : Shape := ⟨3, ![4096, 2048, 1]⟩
abbrev S4096x2048 : Shape := ⟨2, ![4096, 2048]⟩
abbrev S2048 : Shape := ⟨1, ![2048]⟩
abbrev S_ : Shape := ⟨0, ![]⟩
abbrev S64 : Shape := ⟨1, ![64]⟩
abbrev S1x2048 : Shape := ⟨2, ![1, 2048]⟩
abbrev S64x1 : Shape := ⟨2, ![64, 1]⟩
abbrev S64x2048 : Shape := ⟨2, ![64, 2048]⟩
abbrev S4096x11008 : Shape := ⟨2, ![4096, 11008]⟩
abbrev S256x2048 : Shape := ⟨2, ![256, 2048]⟩
abbrev S128x2048 : Shape := ⟨2, ![128, 2048]⟩
abbrev S128x64 : Shape := ⟨2, ![128, 64]⟩
abbrev S256x128 : Shape := ⟨2, ![256, 128]⟩
abbrev S4096x5504x2 : Shape := ⟨3, ![4096, 5504, 2]⟩
abbrev S4096x5504x1 : Shape := ⟨3, ![4096, 5504, 1]⟩
abbrev S5504 : Shape := ⟨1, ![5504]⟩
abbrev S172 : Shape := ⟨1, ![172]⟩
abbrev S1x5504 : Shape := ⟨2, ![1, 5504]⟩
abbrev S172x1 : Shape := ⟨2, ![172, 1]⟩
abbrev S172x5504 : Shape := ⟨2, ![172, 5504]⟩
abbrev S256x5504 : Shape := ⟨2, ![256, 5504]⟩
abbrev S128x5504 : Shape := ⟨2, ![128, 5504]⟩
abbrev S128x172 : Shape := ⟨2, ![128, 172]⟩

abbrev nBuf : Space → Nat
  | .hbm => 76
  | .vmem => 32
  | .smem => 0
  | _ => 0

abbrev bufTy : (tb : Table) → Fin (tcTables nBuf tb) → BufTy
  | .hbm, ⟨0, _⟩ => ⟨S4x1024x4096, .f32⟩
  | .hbm, ⟨1, _⟩ => ⟨S11008x2048, .i32⟩
  | .hbm, ⟨2, _⟩ => ⟨S11008x2048, .i32⟩
  | .hbm, ⟨3, _⟩ => ⟨S4096x5504, .i32⟩
  | .hbm, ⟨4, _⟩ => ⟨S11008x64, .f32⟩
  | .hbm, ⟨5, _⟩ => ⟨S11008x64, .f32⟩
  | .hbm, ⟨6, _⟩ => ⟨S11008x64, .f32⟩
  | .hbm, ⟨7, _⟩ => ⟨S11008x64, .f32⟩
  | .hbm, ⟨8, _⟩ => ⟨S4096x172, .f32⟩
  | .hbm, ⟨9, _⟩ => ⟨S4096x172, .f32⟩
  | .hbm, ⟨10, _⟩ => ⟨S4096x4096, .f32⟩
  | .hbm, ⟨11, _⟩ => ⟨S4096x2048x2, .f32⟩
  | .hbm, ⟨12, _⟩ => ⟨S4096x2048x1, .f32⟩
  | .hbm, ⟨13, _⟩ => ⟨S4096x2048, .f32⟩
  | .hbm, ⟨14, _⟩ => ⟨S4096x2048x1, .f32⟩
  | .hbm, ⟨15, _⟩ => ⟨S4096x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S64, .i32⟩
  | .hbm, ⟨36, _⟩ => ⟨S1x2048, .i32⟩
  | .hbm, ⟨37, _⟩ => ⟨S64x1, .i32⟩
  | .hbm, ⟨38, _⟩ => ⟨S64x2048, .i32⟩
  | .hbm, ⟨39, _⟩ => ⟨S64x2048, .i32⟩
  | .hbm, ⟨40, _⟩ => ⟨S64x2048, .i1⟩
  | .hbm, ⟨41, _⟩ => ⟨S64x2048, .f32⟩
  | .hbm, ⟨42, _⟩ => ⟨S4096x11008, .bf16⟩
  | .hbm, ⟨43, _⟩ => ⟨S4096x5504x2, .bf16⟩
  | .hbm, ⟨44, _⟩ => ⟨S4096x5504x1, .bf16⟩
  | .hbm, ⟨45, _⟩ => ⟨S4096x5504, .bf16⟩
  | .hbm, ⟨46, _⟩ => ⟨S4096x5504x1, .bf16⟩
  | .hbm, ⟨47, _⟩ => ⟨S4096x5504, .bf16⟩
  | .hbm, ⟨48, _⟩ => ⟨S5504, .i32⟩
  | .hbm, ⟨49, _⟩ => ⟨S_, .i32⟩
  | .hbm, ⟨50, _⟩ => ⟨S_, .i32⟩
  | .hbm, ⟨51, _⟩ => ⟨S5504, .i32⟩
  | .hbm, ⟨52, _⟩ => ⟨S5504, .i32⟩
  | .hbm, ⟨53, _⟩ => ⟨S5504, .i32⟩
  | .hbm, ⟨54, _⟩ => ⟨S_, .i32⟩
  | .hbm, ⟨55, _⟩ => ⟨S5504, .i32⟩
  | .hbm, ⟨56, _⟩ => ⟨S5504, .i1⟩
  | .hbm, ⟨57, _⟩ => ⟨S5504, .i32⟩
  | .hbm, ⟨58, _⟩ => ⟨S5504, .i32⟩
  | .hbm, ⟨59, _⟩ => ⟨S_, .i32⟩
  | .hbm, ⟨60, _⟩ => ⟨S5504, .i32⟩
  | .hbm, ⟨61, _⟩ => ⟨S5504, .i1⟩
  | .hbm, ⟨62, _⟩ => ⟨S5504, .i1⟩
  | .hbm, ⟨63, _⟩ => ⟨S_, .i32⟩
  | .hbm, ⟨64, _⟩ => ⟨S5504, .i32⟩
  | .hbm, ⟨65, _⟩ => ⟨S5504, .i32⟩
  | .hbm, ⟨66, _⟩ => ⟨S5504, .i32⟩
  | .hbm, ⟨67, _⟩ => ⟨S172, .i32⟩
  | .hbm, ⟨68, _⟩ => ⟨S1x5504, .i32⟩
  | .hbm, ⟨69, _⟩ => ⟨S172x1, .i32⟩
  | .hbm, ⟨70, _⟩ => ⟨S172x5504, .i32⟩
  | .hbm, ⟨71, _⟩ => ⟨S172x5504, .i32⟩
  | .hbm, ⟨72, _⟩ => ⟨S172x5504, .i1⟩
  | .hbm, ⟨73, _⟩ => ⟨S172x5504, .f32⟩
  | .hbm, ⟨74, _⟩ => ⟨S4096x4096, .f32⟩
  | .hbm, ⟨75, _⟩ => ⟨S4x1024x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S128x2048, .i32⟩
  | .local _ .vmem, ⟨5, _⟩ => ⟨S128x2048, .i32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x2048, .i32⟩
  | .local _ .vmem, ⟨11, _⟩ => ⟨S128x2048, .i32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S64x2048, .f32⟩
  | .local _ .vmem, ⟨17, _⟩ => ⟨S256x128, .bf16⟩
  | .local _ .vmem, ⟨18, _⟩ => ⟨S256x128, .bf16⟩
  | .local _ .vmem, ⟨19, _⟩ => ⟨S256x5504, .bf16⟩
  | .local _ .vmem, ⟨20, _⟩ => ⟨S256x5504, .bf16⟩
  | .local _ .vmem, ⟨21, _⟩ => ⟨S256x5504, .bf16⟩
  | .local _ .vmem, ⟨22, _⟩ => ⟨S256x5504, .bf16⟩
  | .local _ .vmem, ⟨23, _⟩ => ⟨S128x5504, .i32⟩
  | .local _ .vmem, ⟨24, _⟩ => ⟨S128x5504, .i32⟩
  | .local _ .vmem, ⟨25, _⟩ => ⟨S128x172, .f32⟩
  | .local _ .vmem, ⟨26, _⟩ => ⟨S128x172, .f32⟩
  | .local _ .vmem, ⟨27, _⟩ => ⟨S128x172, .f32⟩
  | .local _ .vmem, ⟨28, _⟩ => ⟨S128x172, .f32⟩
  | .local _ .vmem, ⟨29, _⟩ => ⟨S172x5504, .f32⟩
  | .local _ .vmem, ⟨30, _⟩ => ⟨S256x128, .f32⟩
  | .local _ .vmem, ⟨31, _⟩ => ⟨S256x128, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x5504 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x5504 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x5504 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x172 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x172 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S172x5504 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x1024x4096_S4096x4096 : S4x1024x4096.ShapeCasts S4096x4096
  shapeCasts_S4096x4096_S4096x2048x2 : S4096x4096.ShapeCasts S4096x2048x2
  slices_S4096x2048x2_S4096x2048x1_0_0_0 : S4096x2048x2.Slices ![0, 0, 0] S4096x2048x1
  shapeCasts_S4096x2048x1_S4096x2048 : S4096x2048x1.ShapeCasts S4096x2048
  slices_S4096x2048x2_S4096x2048x1_0_0_1 : S4096x2048x2.Slices ![0, 0, 1] S4096x2048x1
  bcast_S_S2048 : S_.BroadcastsInDim S2048 (![] : Fin 0 → Fin S2048.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S128x64_S128x64_0_0 : ∀ a, (![0, 0] : Fin 2 → Nat) a + S128x64.size a ≤ S128x64.size a
  h_S128x64 : 0 < S128x64.numel
  inb_S128x2048_S128x2048_0_0 : ∀ a, (![0, 0] : Fin 2 → Nat) a + S128x2048.size a ≤ S128x2048.size a
  h_S128x2048 : 0 < S128x2048.numel
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  shapeCasts_S4096x11008_S4096x5504x2 : S4096x11008.ShapeCasts S4096x5504x2
  slices_S4096x5504x2_S4096x5504x1_0_0_0 : S4096x5504x2.Slices ![0, 0, 0] S4096x5504x1
  shapeCasts_S4096x5504x1_S4096x5504 : S4096x5504x1.ShapeCasts S4096x5504
  slices_S4096x5504x2_S4096x5504x1_0_0_1 : S4096x5504x2.Slices ![0, 0, 1] S4096x5504x1
  bcast_S_S5504 : S_.BroadcastsInDim S5504 (![] : Fin 0 → Fin S5504.rank)
  bcast_S5504_S1x5504_1 : S5504.BroadcastsInDim S1x5504 (![1] : Fin 1 → Fin S1x5504.rank)
  bcast_S172_S172x1_0 : S172.BroadcastsInDim S172x1 (![0] : Fin 1 → Fin S172x1.rank)
  bcast_S1x5504_S172x5504_0_1 : S1x5504.BroadcastsInDim S172x5504 (![0, 1] : Fin 2 → Fin S172x5504.rank)
  bcast_S172x1_S172x5504_0_1 : S172x1.BroadcastsInDim S172x5504 (![0, 1] : Fin 2 → Fin S172x5504.rank)
  inb_S256x5504_S256x5504_0_0 : ∀ a, (![0, 0] : Fin 2 → Nat) a + S256x5504.size a ≤ S256x5504.size a
  h_S256x5504 : 0 < S256x5504.numel
  shapeCasts_S256x5504_S256x5504 : S256x5504.ShapeCasts S256x5504
  inb_S172x5504_S172x5504_0_0 : ∀ a, (![0, 0] : Fin 2 → Nat) a + S172x5504.size a ≤ S172x5504.size a
  h_S172x5504 : 0 < S172x5504.numel
  shapeCasts_S172x5504_S172x5504 : S172x5504.ShapeCasts S172x5504
  inb_S128x172_S128x172_0_0 : ∀ a, (![0, 0] : Fin 2 → Nat) a + S128x172.size a ≤ S128x172.size a
  h_S128x172 : 0 < S128x172.numel
  inb_S128x5504_S128x5504_0_0 : ∀ a, (![0, 0] : Fin 2 → Nat) a + S128x5504.size a ≤ S128x5504.size a
  h_S128x5504 : 0 < S128x5504.numel
  shapeCasts_S4096x4096_S4x1024x4096 : S4096x4096.ShapeCasts S4x1024x4096
  dot_S128x64_S64x2048_S128x2048_1_0_0_1_n_n_wf : DotDims.WF S128x64 S64x2048 S128x2048 [1] [0] [0] [1] [] []
  dot_S256x2048_S128x2048_S256x128_1_1_0_0_n_n_wf : DotDims.WF S256x2048 S128x2048 S256x128 [1] [1] [0] [0] [] []
  dot_S128x172_S172x5504_S128x5504_1_0_0_1_n_n_wf : DotDims.WF S128x172 S172x5504 S128x5504 [1] [0] [0] [1] [] []
  dot_S256x5504_S128x5504_S256x128_1_1_0_0_n_n_wf : DotDims.WF S256x5504 S128x5504 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S11008x2048.size a
  hwx0_2 : ∀ i : grid0.Coords, EltTy.bits .i32 = 32 ∨ (Rect.block (s := S11008x2048) S128x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S11008x64.size a
  hwx0_3 : ∀ i : grid0.Coords, EltTy.bits .f32 = 32 ∨ (Rect.block (s := S11008x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S11008x64.size a
  hwx0_4 : ∀ i : grid0.Coords, EltTy.bits .f32 = 32 ∨ (Rect.block (s := S11008x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S11008x2048.size a
  hwx0_5 : ∀ i : grid0.Coords, EltTy.bits .i32 = 32 ∨ (Rect.block (s := S11008x2048) S128x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S11008x64.size a
  hwx0_6 : ∀ i : grid0.Coords, EltTy.bits .f32 = 32 ∨ (Rect.block (s := S11008x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S11008x64.size a
  hwx0_7 : ∀ i : grid0.Coords, EltTy.bits .f32 = 32 ∨ (Rect.block (s := S11008x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S64x2048.size a
  hwx0_8 : ∀ i : grid0.Coords, EltTy.bits .f32 = 32 ∨ (Rect.block (s := S64x2048) S64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x11008.size a
  hwx0_9 : ∀ i : grid0.Coords, EltTy.bits .bf16 = 32 ∨ (Rect.block (s := S4096x11008) S256x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x5504.size a ≤ S4096x5504.size a
  hwx1_0 : ∀ i : grid1.Coords, EltTy.bits .bf16 = 32 ∨ (Rect.block (s := S4096x5504) S256x5504.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x5504.size a ≤ S4096x5504.size a
  hwx1_1 : ∀ i : grid1.Coords, EltTy.bits .bf16 = 32 ∨ (Rect.block (s := S4096x5504) S256x5504.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x5504.size a ≤ S4096x5504.size a
  hwx1_2 : ∀ i : grid1.Coords, EltTy.bits .i32 = 32 ∨ (Rect.block (s := S4096x5504) S128x5504.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x172.size a ≤ S4096x172.size a
  hwx1_3 : ∀ i : grid1.Coords, EltTy.bits .f32 = 32 ∨ (Rect.block (s := S4096x172) S128x172.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x172.size a ≤ S4096x172.size a
  hwx1_4 : ∀ i : grid1.Coords, EltTy.bits .f32 = 32 ∨ (Rect.block (s := S4096x172) S128x172.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S172x5504.size a ≤ S172x5504.size a
  hwx1_5 : ∀ i : grid1.Coords, EltTy.bits .f32 = 32 ∨ (Rect.block (s := S172x5504) S172x5504.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S4096x4096.size a
  hwx1_6 : ∀ i : grid1.Coords, EltTy.bits .f32 = 32 ∨ (Rect.block (s := S4096x4096) S256x128.size (cc1_transform_6 i) (hinb1_6 i)).WholeWords (EltTy.packing .f32)

variable [Facts₀]

def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf
def dot_S128x172_S172x5504_S128x5504_1_0_0_1_n_n : DotDims S128x172 S172x5504 S128x5504 where
  lhsContracting := [1]
  rhsContracting := [0]
  lhsNonContracting := [0]
  rhsNonContracting := [1]
  lhsBatch := []
  rhsBatch := []
  wf := dot_S128x172_S172x5504_S128x5504_1_0_0_1_n_n_wf
def dot_S256x5504_S128x5504_S256x128_1_1_0_0_n_n : DotDims S256x5504 S128x5504 S256x128 where
  lhsContracting := [1]
  rhsContracting := [1]
  lhsNonContracting := [0]
  rhsNonContracting := [0]
  lhsBatch := []
  rhsBatch := []
  wf := dot_S256x5504_S128x5504_S256x128_1_1_0_0_n_n_wf

abbrev win0_0 : Pipeline.Window sig grid0 :=
  Pipeline.Window.ofSpec (Memref.whole main_v3) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14) S64x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18) S256x5504.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S256x5504.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x5504.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x172.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x172.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S172x5504.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x1024x4096 : Shape := ⟨3, ![4, 1024, 4096]⟩
abbrev S11008x2048 : Shape := ⟨2, ![11008, 2048]⟩
abbrev S4096x5504 : Shape := ⟨2, ![4096, 5504]⟩
abbrev S11008x64 : Shape := ⟨2, ![11008, 64]⟩
abbrev S4096x172 : Shape := ⟨2, ![4096, 172]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x64x64 : Shape := ⟨3, ![11008, 64, 64]⟩
abbrev S11008x64x1 : Shape := ⟨3, ![11008, 64, 1]⟩
abbrev S4096x5504x1 : Shape := ⟨3, ![4096, 5504, 1]⟩
abbrev S4096x5504x2 : Shape := ⟨3, ![4096, 5504, 2]⟩
abbrev S4096x11008 : Shape := ⟨2, ![4096, 11008]⟩
abbrev S4096x172x64 : Shape := ⟨3, ![4096, 172, 64]⟩
abbrev S4096x172x1 : Shape := ⟨3, ![4096, 172, 1]⟩
abbrev S4x1024x11008 : Shape := ⟨3, ![4, 1024, 11008]⟩

abbrev nBuf : Space → Nat
  | .hbm => 89
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S11008x2048, .i32⟩
  | .hbm, ⟨2, _⟩ => ⟨S11008x2048, .i32⟩
  | .hbm, ⟨3, _⟩ => ⟨S4096x5504, .i32⟩
  | .hbm, ⟨4, _⟩ => ⟨S11008x64, .f32⟩
  | .hbm, ⟨5, _⟩ => ⟨S11008x64, .f32⟩
  | .hbm, ⟨6, _⟩ => ⟨S11008x64, .f32⟩
  | .hbm, ⟨7, _⟩ => ⟨S11008x64, .f32⟩
  | .hbm, ⟨8, _⟩ => ⟨S4096x172, .f32⟩
  | .hbm, ⟨9, _⟩ => ⟨S4096x172, .f32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i32⟩
  | .hbm, ⟨19, _⟩ => ⟨S11008x2048x1, .i32⟩
  | .hbm, ⟨20, _⟩ => ⟨S11008x2048x1, .i32⟩
  | .hbm, ⟨21, _⟩ => ⟨S11008x2048x2, .i32⟩
  | .hbm, ⟨22, _⟩ => ⟨S11008x4096, .i32⟩
  | .hbm, ⟨23, _⟩ => ⟨S11008x4096, .f32⟩
  | .hbm, ⟨24, _⟩ => ⟨S11008x64x64, .f32⟩
  | .hbm, ⟨25, _⟩ => ⟨S11008x64x1, .f32⟩
  | .hbm, ⟨26, _⟩ => ⟨S11008x64x64, .f32⟩
  | .hbm, ⟨27, _⟩ => ⟨S11008x64x64, .f32⟩
  | .hbm, ⟨28, _⟩ => ⟨S11008x64x1, .f32⟩
  | .hbm, ⟨29, _⟩ => ⟨S11008x64x64, .f32⟩
  | .hbm, ⟨30, _⟩ => ⟨S11008x64x64, .f32⟩
  | .hbm, ⟨31, _⟩ => ⟨S11008x4096, .f32⟩
  | .hbm, ⟨32, _⟩ => ⟨S_, .i32⟩
  | .hbm, ⟨33, _⟩ => ⟨S11008x2048, .i32⟩
  | .hbm, ⟨34, _⟩ => ⟨S11008x2048, .i32⟩
  | .hbm, ⟨35, _⟩ => ⟨S_, .i32⟩
  | .hbm, ⟨36, _⟩ => ⟨S11008x2048, .i32⟩
  | .hbm, ⟨37, _⟩ => ⟨S11008x2048, .i32⟩
  | .hbm, ⟨38, _⟩ => ⟨S_, .i32⟩
  | .hbm, ⟨39, _⟩ => ⟨S11008x2048, .i32⟩
  | .hbm, ⟨40, _⟩ => ⟨S11008x2048, .i32⟩
  | .hbm, ⟨41, _⟩ => ⟨S11008x2048x1, .i32⟩
  | .hbm, ⟨42, _⟩ => ⟨S11008x2048x1, .i32⟩
  | .hbm, ⟨43, _⟩ => ⟨S11008x2048x2, .i32⟩
  | .hbm, ⟨44, _⟩ => ⟨S11008x4096, .i32⟩
  | .hbm, ⟨45, _⟩ => ⟨S11008x4096, .f32⟩
  | .hbm, ⟨46, _⟩ => ⟨S11008x64x64, .f32⟩
  | .hbm, ⟨47, _⟩ => ⟨S11008x64x1, .f32⟩
  | .hbm, ⟨48, _⟩ => ⟨S11008x64x64, .f32⟩
  | .hbm, ⟨49, _⟩ => ⟨S11008x64x64, .f32⟩
  | .hbm, ⟨50, _⟩ => ⟨S11008x64x1, .f32⟩
  | .hbm, ⟨51, _⟩ => ⟨S11008x64x64, .f32⟩
  | .hbm, ⟨52, _⟩ => ⟨S11008x64x64, .f32⟩
  | .hbm, ⟨53, _⟩ => ⟨S11008x4096, .f32⟩
  | .hbm, ⟨54, _⟩ => ⟨S_, .i32⟩
  | .hbm, ⟨55, _⟩ => ⟨S4096x5504, .i32⟩
  | .hbm, ⟨56, _⟩ => ⟨S4096x5504, .i32⟩
  | .hbm, ⟨57, _⟩ => ⟨S_, .i32⟩
  | .hbm, ⟨58, _⟩ => ⟨S4096x5504, .i32⟩
  | .hbm, ⟨59, _⟩ => ⟨S4096x5504, .i32⟩
  | .hbm, ⟨60, _⟩ => ⟨S_, .i32⟩
  | .hbm, ⟨61, _⟩ => ⟨S4096x5504, .i32⟩
  | .hbm, ⟨62, _⟩ => ⟨S4096x5504, .i32⟩
  | .hbm, ⟨63, _⟩ => ⟨S4096x5504x1, .i32⟩
  | .hbm, ⟨64, _⟩ => ⟨S4096x5504x1, .i32⟩
  | .hbm, ⟨65, _⟩ => ⟨S4096x5504x2, .i32⟩
  | .hbm, ⟨66, _⟩ => ⟨S4096x11008, .i32⟩
  | .hbm, ⟨67, _⟩ => ⟨S4096x11008, .f32⟩
  | .hbm, ⟨68, _⟩ => ⟨S4096x172x64, .f32⟩
  | .hbm, ⟨69, _⟩ => ⟨S4096x172x1, .f32⟩
  | .hbm, ⟨70, _⟩ => ⟨S4096x172x64, .f32⟩
  | .hbm, ⟨71, _⟩ => ⟨S4096x172x64, .f32⟩
  | .hbm, ⟨72, _⟩ => ⟨S4096x172x1, .f32⟩
  | .hbm, ⟨73, _⟩ => ⟨S4096x172x64, .f32⟩
  | .hbm, ⟨74, _⟩ => ⟨S4096x172x64, .f32⟩
  | .hbm, ⟨75, _⟩ => ⟨S4096x11008, .f32⟩
  | .hbm, ⟨76, _⟩ => ⟨S4x1024x11008, .f32⟩
  | .hbm, ⟨77, _⟩ => ⟨S4x1024x11008, .f32⟩
  | .hbm, ⟨78, _⟩ => ⟨S4x1024x11008, .f32⟩
  | .hbm, ⟨79, _⟩ => ⟨S4x1024x11008, .f32⟩
  | .hbm, ⟨80, _⟩ => ⟨S_, .f32⟩
  | .hbm, ⟨81, _⟩ => ⟨S4x1024x11008, .f32⟩
  | .hbm, ⟨82, _⟩ => ⟨S4x1024x11008, .f32⟩
  | .hbm, ⟨83, _⟩ => ⟨S_, .f32⟩
  | .hbm, ⟨84, _⟩ => ⟨S4x1024x11008, .f32⟩
  | .hbm, ⟨85, _⟩ => ⟨S4x1024x11008, .f32⟩
  | .hbm, ⟨86, _⟩ => ⟨S4x1024x11008, .f32⟩
  | .hbm, ⟨87, _⟩ => ⟨S4x1024x11008, .f32⟩
  | .hbm, ⟨88, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x64x64 : S11008x4096.ShapeCasts S11008x64x64
  bcast_S11008x64_S11008x64x1_0_1 : S11008x64.BroadcastsInDim S11008x64x1 (![0, 1] : Fin 2 → Fin S11008x64x1.rank)
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  bcast_S_S4096x5504 : S_.BroadcastsInDim S4096x5504 (![] : Fin 0 → Fin S4096x5504.rank)
  bcast_S4096x5504_S4096x5504x1_0_1 : S4096x5504.BroadcastsInDim S4096x5504x1 (![0, 1] : Fin 2 → Fin S4096x5504x1.rank)
  concatenates_S4096x5504x1_S4096x5504x1_S4096x5504x2_d2 : Shape.Concatenates [S4096x5504x1, S4096x5504x1] S4096x5504x2 2
  shapeCasts_S4096x5504x2_S4096x11008 : S4096x5504x2.ShapeCasts S4096x11008
  shapeCasts_S4096x11008_S4096x172x64 : S4096x11008.ShapeCasts S4096x172x64
  bcast_S4096x172_S4096x172x1_0_1 : S4096x172.BroadcastsInDim S4096x172x1 (![0, 1] : Fin 2 → Fin S4096x172x1.rank)
  bcast_S4096x172x1_S4096x172x64_0_1_2 : S4096x172x1.BroadcastsInDim S4096x172x64 (![0, 1, 2] : Fin 3 → Fin S4096x172x64.rank)
  shapeCasts_S4096x172x64_S4096x11008 : S4096x172x64.ShapeCasts S4096x11008
  bcast_S_S4x1024x11008 : S_.BroadcastsInDim S4x1024x11008 (![] : Fin 0 → Fin S4x1024x11008.rank)
  dot_S4x1024x4096_S11008x4096_S4x1024x11008_2_1_01_0_n_n_wf : DotDims.WF S4x1024x4096 S11008x4096 S4x1024x11008 [2] [1] [0, 1] [0] [] []
  dot_S4x1024x11008_S4096x11008_S4x1024x4096_2_1_01_0_n_n_wf : DotDims.WF S4x1024x11008 S4096x11008 S4x1024x4096 [2] [1] [0, 1] [0] [] []

variable [Facts₀]

def dot_S4x1024x4096_S11008x4096_S4x1024x11008_2_1_01_0_n_n : DotDims S4x1024x4096 S11008x4096 S4x1024x11008 where
  lhsContracting := [2]
  rhsContracting := [1]
  lhsNonContracting := [0, 1]
  rhsNonContracting := [0]
  lhsBatch := []
  rhsBatch := []
  wf := dot_S4x1024x4096_S11008x4096_S4x1024x11008_2_1_01_0_n_n_wf
def dot_S4x1024x11008_S4096x11008_S4x1024x4096_2_1_01_0_n_n : DotDims S4x1024x11008 S4096x11008 S4x1024x4096 where
  lhsContracting := [2]
  rhsContracting := [1]
  lhsNonContracting := [0, 1]
  rhsNonContracting := [0]
  lhsBatch := []
  rhsBatch := []
  wf := dot_S4x1024x11008_S4096x11008_S4x1024x4096_2_1_01_0_n_n_wf

class Facts : Prop extends Facts₀ where

variable [Facts]
-- ==== Proof.Spec.lean ====
/-
  A gated MLP over group-quantised 4-bit weights, as a function on the extended reals.

  A weight matrix `W : [N, D]` is stored packed: word `q (n, k)` holds the two 4-bit fields of the unpacked
  columns `2k` (bits 4..7) and `2k + 1` (bits 0..3), and each row is cut into groups of 64 unpacked columns
  (32 packed ones) that share a scale `s (n, g)` and a zero point `z (n, g)`:
      W (n, j) = (field j of q (n, j / 2) - z (n, j / 64)) * s (n, j / 64).
  A product of a row of activations with a row of `W` can be summed over the unpacked columns `j` (`dotFull`), or
  over the packed columns `k`, the even and the odd unpacked columns apart (`dotPacked`); the two agree because
  addition of extended reals is commutative and associative (`dotFull_eq_dotPacked`; no distributivity, so nothing
  is assumed finite). A per-group parameter spread to the packed columns by a product with the 0/1 matrix
  `E (g, k) = [k / 32 = g]` is the parameter of the column's group (`onehot_sum`: every other term is a product
  with zero, which is zero for every extended real).
  The even/odd split (`sum_even_odd`) is by induction on the number `K` of packed columns: passing from `K` to
  `K + 1` appends the two unpacked columns `2K` and `2K + 1`, one more even term and one more odd term, and the
  four summands are regrouped by commutativity and associativity alone. For the weights, at column `2k` one has
  `2k % 2 = 0`, `2k / 2 = k`, `2k / 64 = k / 32`, and at column `2k + 1` one has `(2k + 1) % 2 = 1`,
  `(2k + 1) / 2 = k`, `(2k + 1) / 64 = k / 32`.
  The MLP: `h = (g · logistic g) · u` with `g = x · Wgᵀ`, `u = x · Wuᵀ`, and the result `h · Wdᵀ`.
-/
import Idealize.ShloMosaic.PureOps.Ideal
import Idealize.ShloMosaic.PureOps.Ideal.Laws
import Idealize.ShloMosaic.Lib.ValueIdx
import Mathlib.Algebra.BigOperators.Fin

noncomputable section

namespace Cert.QuantMlp

open Idealize.ShloMosaic Idealize.ShloMosaic.ValueIdx

/-- The upper 4-bit field of a packed word (arithmetic shift right by 4, then the low four bits), as the real number
    it counts. -/
def hiNib (w : BitVec 32) : EReal := FloatOps.sitofp (F := Ideal) .f32 (IntOp.andi (w.sshiftRight' 4#32) 15#32)
/-- The lower 4-bit field of a packed word, as the real number it counts. -/
def loNib (w : BitVec 32) : EReal := FloatOps.sitofp (F := Ideal) .f32 (IntOp.andi w 15#32)

/-- A shift right by the literal 4 is in range on every unit, so it is the arithmetic shift itself. -/
theorem shrsi_four (u : ArithUnit) (w : BitVec 32) : IntOp.shrsi u w 4#32 = w.sshiftRight' 4#32 := if_pos (by decide)

/-- The 0/1 matrix that spreads a per-group parameter to the packed columns of its group (32 packed columns a group). -/
def onehot {G K : ℕ} (g : Fin G) (k : Fin K) : EReal := if k.val / 32 = g.val then 1 else 0

/-- The group of a packed column. -/
def grpOf {K G : ℕ} (hK : K = 32 * G) (k : Fin K) : Fin G := ⟨k.val / 32, by have := k.isLt; omega⟩

/-- Spreading by the 0/1 matrix selects the parameter of the column's group: the other terms are products with zero. -/
theorem onehot_sum {K G : ℕ} (hK : K = 32 * G) (p : Fin G → EReal) (E : Fin G → Fin K → EReal)
    (hE : ∀ g k, E g k = onehot g k) (k : Fin K) :
    ∑ g : Fin G, p g * E g k = p (grpOf hK k) := by
  rw [Finset.sum_eq_single (grpOf hK k)]
  · rw [hE]
    unfold onehot
    rw [if_pos (show k.val / 32 = (grpOf hK k).val from rfl), mul_one]
  · intro g _ hg
    rw [hE]
    unfold onehot
    rw [if_neg, mul_zero]
    intro h
    exact hg (Fin.ext h.symm)
  · intro h
    exact absurd (Finset.mem_univ _) h

/-- The product of an activation row with a dequantised weight row, summed over the PACKED columns: the even
    unpacked columns (`ae`) meet the upper fields, the odd ones (`ao`) the lower fields. -/
def dotPacked {K G : ℕ} (ae ao : Fin K → EReal) (q : Fin K → BitVec 32) (s z : Fin G → EReal) (grp : Fin K → Fin G) : EReal :=
  (∑ k : Fin K, ae k * ((hiNib (q k) - z (grp k)) * s (grp k)))
    + ∑ k : Fin K, ao k * ((loNib (q k) - z (grp k)) * s (grp k))

/-- The dequantised weight at unpacked column `j` of a row: field `j % 2` of packed word `j / 2` (0: upper, 1: lower),
    minus the zero point and times the scale of group `j / 64`. -/
def wFull {D K G : ℕ} (hD : D = 2 * K) (hK : K = 32 * G) (q : Fin K → BitVec 32) (s z : Fin G → EReal) (j : Fin D) : EReal :=
  ((if j.val % 2 = 0 then hiNib (q ⟨j.val / 2, by have := j.isLt; omega⟩) else loNib (q ⟨j.val / 2, by have := j.isLt; omega⟩))
      - z ⟨j.val / 64, by have := j.isLt; omega⟩) * s ⟨j.val / 64, by have := j.isLt; omega⟩

/-- A sum over `2K` unpacked columns is the sum over the even ones plus the sum over the odd ones. -/
theorem sum_even_odd {M : Type} [AddCommMonoid M] {D K : ℕ} (hD : D = 2 * K) (f : Fin D → M) :
    ∑ j : Fin D, f j = (∑ k : Fin K, f ⟨2 * k.val, by have := k.isLt; omega⟩) + ∑ k : Fin K, f ⟨2 * k.val + 1, by have := k.isLt; omega⟩ := by
  induction K generalizing D with
  | zero =>
    subst hD
    simp
  | succ K ih =>
    obtain ⟨D', rfl⟩ : ∃ D', D = D' + 2 := ⟨2 * K, by omega⟩
    have hD' : D' = 2 * K := by omega
    subst hD'
    have hL : ∑ j : Fin (2 * K + 2), f j
        = (∑ j : Fin (2 * K), f j.castSucc.castSucc) + f (Fin.last (2 * K)).castSucc + f (Fin.last (2 * K + 1)) := by
      rw [Fin.sum_univ_castSucc, Fin.sum_univ_castSucc]
    have hEv : ∑ k : Fin (K + 1), f ⟨2 * k.val, by have := k.isLt; omega⟩
        = (∑ k : Fin K, f ⟨2 * k.val, by have := k.isLt; omega⟩) + f ⟨2 * K, by omega⟩ := by
      rw [Fin.sum_univ_castSucc]
      rfl
    have hOd : ∑ k : Fin (K + 1), f ⟨2 * k.val + 1, by have := k.isLt; omega⟩
        = (∑ k : Fin K, f ⟨2 * k.val + 1, by have := k.isLt; omega⟩) + f ⟨2 * K + 1, by omega⟩ := by
      rw [Fin.sum_univ_castSucc]
      rfl
    rw [hL, hEv, hOd, ih rfl (fun j => f j.castSucc.castSucc)]
    show (∑ k : Fin K, f ⟨2 * k.val, _⟩) + (∑ k : Fin K, f ⟨2 * k.val + 1, _⟩) + f ⟨2 * K, _⟩ + f ⟨2 * K + 1, _⟩ = _
    rw [add_assoc, add_add_add_comm]

/-- At an even unpacked column `2k` the dequantised weight is built from the upper field of packed word `k`. -/
private theorem wFull_even {D K G : ℕ} (hD : D = 2 * K) (hK : K = 32 * G) (q : Fin K → BitVec 32) (s z : Fin G → EReal)
    (k : Fin K) (h : 2 * k.val < D) :
    wFull hD hK q s z ⟨2 * k.val, h⟩ = (hiNib (q k) - z (grpOf hK k)) * s (grpOf hK k) := by
  have hk := k.isLt
  have hq : (⟨2 * k.val / 2, by omega⟩ : Fin K) = k := Fin.ext (by show 2 * k.val / 2 = k.val; omega)
  have hg : (⟨2 * k.val / 64, by omega⟩ : Fin G) = grpOf hK k := Fin.ext (by show 2 * k.val / 64 = k.val / 32; omega)
  show ((if (2 * k.val) % 2 = 0 then hiNib (q ⟨2 * k.val / 2, _⟩) else loNib (q ⟨2 * k.val / 2, _⟩))
      - z ⟨2 * k.val / 64, _⟩) * s ⟨2 * k.val / 64, _⟩ = _
  rw [if_pos (by omega), hq, hg]

/-- At an odd unpacked column `2k + 1` the dequantised weight is built from the lower field of packed word `k`. -/
private theorem wFull_odd {D K G : ℕ} (hD : D = 2 * K) (hK : K = 32 * G) (q : Fin K → BitVec 32) (s z : Fin G → EReal)
    (k : Fin K) (h : 2 * k.val + 1 < D) :
    wFull hD hK q s z ⟨2 * k.val + 1, h⟩ = (loNib (q k) - z (grpOf hK k)) * s (grpOf hK k) := by
  have hk := k.isLt
  have hq : (⟨(2 * k.val + 1) / 2, by omega⟩ : Fin K) = k := Fin.ext (by show (2 * k.val + 1) / 2 = k.val; omega)
  have hg : (⟨(2 * k.val + 1) / 64, by omega⟩ : Fin G) = grpOf hK k :=
    Fin.ext (by show (2 * k.val + 1) / 64 = k.val / 32; omega)
  show ((if (2 * k.val + 1) % 2 = 0 then hiNib (q ⟨(2 * k.val + 1) / 2, _⟩) else loNib (q ⟨(2 * k.val + 1) / 2, _⟩))
      - z ⟨(2 * k.val + 1) / 64, _⟩) * s ⟨(2 * k.val + 1) / 64, _⟩ = _
  rw [if_neg (by omega), hq, hg]

/-- Summed over the unpacked columns, the product of an activation row `a` with the dequantised row is the packed
    form at the even and odd columns of `a`. -/
theorem dotFull_eq_dotPacked {D K G : ℕ} (hD : D = 2 * K) (hK : K = 32 * G) (a : Fin D → EReal)
    (q : Fin K → BitVec 32) (s z : Fin G → EReal) :
    ∑ j : Fin D, a j * wFull hD hK q s z j
      = dotPacked (fun k => a ⟨2 * k.val, by have := k.isLt; omega⟩) (fun k => a ⟨2 * k.val + 1, by have := k.isLt; omega⟩)
          q s z (grpOf hK) := by
  rw [sum_even_odd hD]
  unfold dotPacked
  congr 1
  · apply Finset.sum_congr rfl
    intro k _
    rw [wFull_even]
  · apply Finset.sum_congr rfl
    intro k _
    rw [wFull_odd]

/-- Entry `(r, n)` of `a · Wᵀ` for a packed weight matrix, in the packed form. -/
def qlin {R N D K G : ℕ} (hD : D = 2 * K) (hK : K = 32 * G) (a : Fin R → Fin D → EReal) (q : Fin N → Fin K → BitVec 32)
    (s z : Fin N → Fin G → EReal) (r : Fin R) (n : Fin N) : EReal :=
  dotPacked (fun k => a r ⟨2 * k.val, by have := k.isLt; omega⟩) (fun k => a r ⟨2 * k.val + 1, by have := k.isLt; omega⟩)
    (q n) (s n) (z n) (grpOf hK)

/-- The gate: `(g · logistic g) · u`. -/
def gated (g u : EReal) : EReal := (g * Ideal.logistic g) * u

/-- A rank-2 array as a function of its two coordinates. -/
def cur2 {α : Type} {A B : ℕ} (a : (⟨2, ![A, B]⟩ : Shape).Idx → α) : Fin A → Fin B → α := fun i j => a (ix2 i j)

/-- The activations `[4, 1024, 4096]` with the two leading axes flattened: row `r = b * 1024 + s`. -/
def xflat (x : (⟨3, ![4, 1024, 4096]⟩ : Shape).Idx → EReal) : Fin 4096 → Fin 4096 → EReal :=
  fun r j => x (ix3 ⟨r.val / 1024, by have := r.isLt; omega⟩ ⟨r.val % 1024, Nat.mod_lt _ (by decide)⟩ j)

/-- The hidden activations `[4096, 11008]`: the gate of the two projections of a row of `x`. -/
def hidden (x : Fin 4096 → Fin 4096 → EReal) (gq uq : Fin 11008 → Fin 2048 → BitVec 32)
    (gs gz us uz : Fin 11008 → Fin 64 → EReal) (r : Fin 4096) (i : Fin 11008) : EReal :=
  gated (qlin (D := 4096) (K := 2048) (G := 64) rfl rfl x gq gs gz r i) (qlin (D := 4096) (K := 2048) (G := 64) rfl rfl x uq us uz r i)

/-- The MLP's result at row `r`, column `n`. -/
def mlpOut (x : Fin 4096 → Fin 4096 → EReal) (gq uq : Fin 11008 → Fin 2048 → BitVec 32) (dq : Fin 4096 → Fin 5504 → BitVec 32)
    (gs gz us uz : Fin 11008 → Fin 64 → EReal) (ds dz : Fin 4096 → Fin 172 → EReal) (r n : Fin 4096) : EReal :=
  qlin (D := 11008) (K := 5504) (G := 172) rfl rfl (hidden x gq uq gs gz us uz) dq ds dz r n

/-- THE RESULT ARRAY `[4, 1024, 4096]` as one function of the ten argument arrays. -/
def result (x : (⟨3, ![4, 1024, 4096]⟩ : Shape).Idx → EReal)
    (gq uq : (⟨2, ![11008, 2048]⟩ : Shape).Idx → BitVec 32) (dq : (⟨2, ![4096, 5504]⟩ : Shape).Idx → BitVec 32)
    (gs gz us uz : (⟨2, ![11008, 64]⟩ : Shape).Idx → EReal) (ds dz : (⟨2, ![4096, 172]⟩ : Shape).Idx → EReal) :
    (⟨3, ![4, 1024, 4096]⟩ : Shape).Idx → EReal :=
  fun i => mlpOut (xflat x) (cur2 gq) (cur2 uq) (cur2 dq) (cur2 gs) (cur2 gz) (cur2 us) (cur2 uz) (cur2 ds) (cur2 dz)
    ⟨(i 0).val * 1024 + (i 1).val, by have h0 : (i 0).val < 4 := (i 0).isLt; have h1 : (i 1).val < 1024 := (i 1).isLt; omega⟩
    ⟨(i 2).val, (i 2).isLt⟩

end Cert.QuantMlp

end
-- ==== Proof.PayDown.lean ====
/-
  The body of the down projection at one entry of its output block.

  The block is `[256, 128]`: rows `p` of the even and odd hidden columns `x0`, `x1 : [256, 5504]`, against rows `n` of
  the packed weight block `x2 : [128, 5504]` with per-group scale `x3` and zero point `x4 : [128, 172]`, spread to the
  packed columns by the product with the 0/1 matrix `x5 : [172, 5504]`. Entry `(p, n)` is the packed dot product.

  The body stores once, over the whole block, so the block after it is the stored value. Each matrix product is
  accumulated into the zero splat, so at an entry it is the bare sum over its one contracted coordinate: over the 172
  groups for the two products with the 0/1 matrix (left axis 1 against right axis 0), over the 5504 packed columns for
  the two products of activation rows with weight rows (axis 1 against axis 1). Narrowing the dequantised weights to
  the shorter format changes nothing on the extended reals, and the same-shape casts are identities. A sum over the
  groups of a parameter times a 0/1 row has one term that is not a product with zero, the parameter of the column's
  group; with that the entry is the packed dot product as the specification writes it.
-/
import proofs.«403345_j16587163697454_2_alg».proof.Proof.Gen.KernelIdeal.Frame
import proofs.«403345_j16587163697454_2_alg».proof.Proof.Spec
import Idealize.ShloMosaic.Lib.Pipeline.Value

set_option maxRecDepth 16384

noncomputable section

namespace Cert.KernelIdeal.DownBody

open Cert.KernelIdeal Cert.KernelIdeal.Gen Cert.QuantMlp Idealize.ShloMosaic Idealize.ShloMosaic.TcCoe Idealize.ShloMosaic.ValueIdx Idealize.SL.Sem

/-! ## The spreading product [128, 172] · [172, 5504] at an entry -/

theorem spread_lhs_0 (j : S128x5504.Idx) (q : dot_S128x172_S172x5504_S128x5504_1_0_0_1_n_n.contr.Idx) :
    (dot_S128x172_S172x5504_S128x5504_1_0_0_1_n_n.lhsIdx j q 0).val = (j 0).val := by
  unfold DotDims.lhsIdx
  rw [dif_neg (show ¬(0 : Fin S128x172.rank) ∈ dot_S128x172_S172x5504_S128x5504_1_0_0_1_n_n.lhsBatch by decide), dif_pos (show (0 : Fin S128x172.rank) ∈ dot_S128x172_S172x5504_S128x5504_1_0_0_1_n_n.lhsNonContracting by decide)]
  rfl
theorem spread_lhs_1 (j : S128x5504.Idx) (q : dot_S128x172_S172x5504_S128x5504_1_0_0_1_n_n.contr.Idx) :
    (dot_S128x172_S172x5504_S128x5504_1_0_0_1_n_n.lhsIdx j q 1).val = (q ⟨0, by decide⟩).val :=
  dot_S128x172_S172x5504_S128x5504_1_0_0_1_n_n.lhsIdx_val_of_single rfl j q
theorem spread_rhs_0 (j : S128x5504.Idx) (q : dot_S128x172_S172x5504_S128x5504_1_0_0_1_n_n.contr.Idx) :
    (dot_S128x172_S172x5504_S128x5504_1_0_0_1_n_n.rhsIdx j q 0).val = (q ⟨0, by decide⟩).val :=
  dot_S128x172_S172x5504_S128x5504_1_0_0_1_n_n.rhsIdx_val_of_single rfl j q
theorem spread_rhs_1 (j : S128x5504.Idx) (q : dot_S128x172_S172x5504_S128x5504_1_0_0_1_n_n.contr.Idx) :
    (dot_S128x172_S172x5504_S128x5504_1_0_0_1_n_n.rhsIdx j q 1).val = (j 1).val := by
  unfold DotDims.rhsIdx
  rw [dif_neg (show ¬(1 : Fin S172x5504.rank) ∈ dot_S128x172_S172x5504_S128x5504_1_0_0_1_n_n.rhsBatch by decide), dif_pos (show (1 : Fin S172x5504.rank) ∈ dot_S128x172_S172x5504_S128x5504_1_0_0_1_n_n.rhsNonContracting by decide)]
  rfl

/-- Entry (n, k) of a per-group parameter block times the 0/1 matrix: the sum over the groups. -/
theorem spread_apply (prec : Option ContractPrecision) (a : FVec Ideal S128x172 .f32) (b : FVec Ideal S172x5504 .f32)
    (n : Fin 128) (k : Fin 5504) :
    FloatOps.matmul dot_S128x172_S172x5504_S128x5504_1_0_0_1_n_n prec a b (constant (F := Ideal) S128x5504 .f32 0x00000000#32) (ix2 n k)
      = ∑ g : Fin 172, a (ix2 n g) * b (ix2 g k) := by
  rw [Ideal.matmul_constant_zero_apply, ← Equiv.sum_comp (contrEquiv1 dot_S128x172_S172x5504_S128x5504_1_0_0_1_n_n 172 rfl rfl).symm]
  refine Finset.sum_congr rfl fun g _ => ?_
  have hg := contrEquiv1_symm_val dot_S128x172_S172x5504_S128x5504_1_0_0_1_n_n 172 rfl rfl g
  have el : dot_S128x172_S172x5504_S128x5504_1_0_0_1_n_n.lhsIdx (ix2 n k) ((contrEquiv1 dot_S128x172_S172x5504_S128x5504_1_0_0_1_n_n 172 rfl rfl).symm g) = ix2 n g :=
    funext fun c => Fin.ext (by
      match c with
      | ⟨0, _⟩ => exact spread_lhs_0 _ _
      | ⟨1, _⟩ => exact (spread_lhs_1 _ _).trans hg)
  have er : dot_S128x172_S172x5504_S128x5504_1_0_0_1_n_n.rhsIdx (ix2 n k) ((contrEquiv1 dot_S128x172_S172x5504_S128x5504_1_0_0_1_n_n 172 rfl rfl).symm g) = ix2 g k :=
    funext fun c => Fin.ext (by
      match c with
      | ⟨0, _⟩ => exact (spread_rhs_0 _ _).trans hg
      | ⟨1, _⟩ => exact spread_rhs_1 _ _)
  rw [el, er]

/-! ## The row-by-row product [256, 5504] · [128, 5504]ᵀ at an entry -/

theorem rowdot_lhs_0 (j : S256x128.Idx) (q : dot_S256x5504_S128x5504_S256x128_1_1_0_0_n_n.contr.Idx) :
    (dot_S256x5504_S128x5504_S256x128_1_1_0_0_n_n.lhsIdx j q 0).val = (j 0).val := by
  unfold DotDims.lhsIdx
  rw [dif_neg (show ¬(0 : Fin S256x5504.rank) ∈ dot_S256x5504_S128x5504_S256x128_1_1_0_0_n_n.lhsBatch by decide), dif_pos (show (0 : Fin S256x5504.rank) ∈ dot_S256x5504_S128x5504_S256x128_1_1_0_0_n_n.lhsNonContracting by decide)]
  rfl
theorem rowdot_lhs_1 (j : S256x128.Idx) (q : dot_S256x5504_S128x5504_S256x128_1_1_0_0_n_n.contr.Idx) :
    (dot_S256x5504_S128x5504_S256x128_1_1_0_0_n_n.lhsIdx j q 1).val = (q ⟨0, by decide⟩).val :=
  dot_S256x5504_S128x5504_S256x128_1_1_0_0_n_n.lhsIdx_val_of_single rfl j q
theorem rowdot_rhs_0 (j : S256x128.Idx) (q : dot_S256x5504_S128x5504_S256x128_1_1_0_0_n_n.contr.Idx) :
    (dot_S256x5504_S128x5504_S256x128_1_1_0_0_n_n.rhsIdx j q 0).val = (j 1).val := by
  unfold DotDims.rhsIdx
  rw [dif_neg (show ¬(0 : Fin S128x5504.rank) ∈ dot_S256x5504_S128x5504_S256x128_1_1_0_0_n_n.rhsBatch by decide), dif_pos (show (0 : Fin S128x5504.rank) ∈ dot_S256x5504_S128x5504_S256x128_1_1_0_0_n_n.rhsNonContracting by decide)]
  rfl
theorem rowdot_rhs_1 (j : S256x128.Idx) (q : dot_S256x5504_S128x5504_S256x128_1_1_0_0_n_n.contr.Idx) :
    (dot_S256x5504_S128x5504_S256x128_1_1_0_0_n_n.rhsIdx j q 1).val = (q ⟨0, by decide⟩).val :=
  dot_S256x5504_S128x5504_S256x128_1_1_0_0_n_n.rhsIdx_val_of_single rfl j q

/-- Entry (p, n) of the product of activation rows with weight rows: the sum over the packed columns. -/
theorem rowdot_apply (prec : Option ContractPrecision) (a : FVec Ideal S256x5504 .bf16) (b : FVec Ideal S128x5504 .bf16)
    (p : Fin 256) (n : Fin 128) :
    FloatOps.matmul dot_S256x5504_S128x5504_S256x128_1_1_0_0_n_n prec a b (constant (F := Ideal) S256x128 .f32 0x00000000#32) (ix2 p n)
      = ∑ k : Fin 5504, a (ix2 p k) * b (ix2 n k) := by
  rw [Ideal.matmul_constant_zero_apply, ← Equiv.sum_comp (contrEquiv1 dot_S256x5504_S128x5504_S256x128_1_1_0_0_n_n 5504 rfl rfl).symm]
  refine Finset.sum_congr rfl fun k _ => ?_
  have hk := contrEquiv1_symm_val dot_S256x5504_S128x5504_S256x128_1_1_0_0_n_n 5504 rfl rfl k
  have el : dot_S256x5504_S128x5504_S256x128_1_1_0_0_n_n.lhsIdx (ix2 p n) ((contrEquiv1 dot_S256x5504_S128x5504_S256x128_1_1_0_0_n_n 5504 rfl rfl).symm k) = ix2 p k :=
    funext fun c => Fin.ext (by
      match c with
      | ⟨0, _⟩ => exact rowdot_lhs_0 _ _
      | ⟨1, _⟩ => exact (rowdot_lhs_1 _ _).trans hk)
  have er : dot_S256x5504_S128x5504_S256x128_1_1_0_0_n_n.rhsIdx (ix2 p n) ((contrEquiv1 dot_S256x5504_S128x5504_S256x128_1_1_0_0_n_n 5504 rfl rfl).symm k) = ix2 n k :=
    funext fun c => Fin.ext (by
      match c with
      | ⟨0, _⟩ => exact rowdot_rhs_0 _ _
      | ⟨1, _⟩ => exact (rowdot_rhs_1 _ _).trans hk)
  rw [el, er]

/-! ## The payload at an entry -/

/-- Entry (p, n) of the body's arithmetic, every product with the 0/1 matrix still a sum over the groups: the even
    columns against the upper fields plus the odd columns against the lower fields, each field minus the spread zero
    point and times the spread scale. The narrowing of the weights is the identity on the extended reals. -/
theorem pay_apply (v0 v2 : Vec Ideal S256x5504 .bf16) (v4 : Vec Ideal S172x5504 .f32) (v6 v8 : Vec Ideal S128x172 .f32)
    (v10 : Vec Ideal S128x5504 .i32) (p : Fin 256) (n : Fin 128) :
    k1_pay1 (F := Ideal) v0 v2 v4 v6 v8 v10 (ix2 p n)
      = (∑ k : Fin 5504, v0 (ix2 p k) * ((hiNib (v10 (ix2 n k)) - ∑ g : Fin 172, v8 (ix2 n g) * v4 (ix2 g k))
            * ∑ g : Fin 172, v6 (ix2 n g) * v4 (ix2 g k)))
        + ∑ k : Fin 5504, v2 (ix2 p k) * ((loNib (v10 (ix2 n k)) - ∑ g : Fin 172, v8 (ix2 n g) * v4 (ix2 g k))
            * ∑ g : Fin 172, v6 (ix2 n g) * v4 (ix2 g k)) := by
  unfold k1_pay1
  simp only [shapeCast_self, matmul]
  rw [addf_apply, rowdot_apply, rowdot_apply]
  refine congrArg₂ (· + ·) (Finset.sum_congr rfl fun k _ => ?_) (Finset.sum_congr rfl fun k _ => ?_)
  · rw [truncf_apply, mulf_apply, subf_apply, sitofp_apply, spread_apply, spread_apply]
    unfold hiNib
    rw [← shrsi_four .vector]
    rfl
  · rw [truncf_apply, mulf_apply, subf_apply, sitofp_apply, spread_apply, spread_apply]
    rfl

/-- The zero offsets of a whole-block access. -/
theorem hz : (![0, 0] : Fin 2 → Nat) = fun _ => 0 := funext fun a => by fin_cases a <;> rfl

/-- Entry `(p, n)` of the down kernel's output block, from its input blocks. -/
theorem out1_6_apply (x0 x1 : Vec Ideal S256x5504 .bf16) (x2 : Vec Ideal S128x5504 .i32) (x3 x4 : Vec Ideal S128x172 .f32)
    (x5 : Vec Ideal S172x5504 .f32) (hE : ∀ (g : Fin 172) (k : Fin 5504), x5 (ix2 g k) = onehot g k) (p : Fin 256) (n : Fin 128) :
    out1_6 (F := Ideal) x0 x1 x2 x3 x4 x5 (ix2 p n)
      = dotPacked (fun k : Fin 5504 => x0 (ix2 p k)) (fun k : Fin 5504 => x1 (ix2 p k)) (fun k : Fin 5504 => x2 (ix2 n k))
          (fun g : Fin 172 => x3 (ix2 n g)) (fun g : Fin 172 => x4 (ix2 n g)) (grpOf (K := 5504) (G := 172) rfl) := by
  unfold out1_6
  rw [View.canon_unit_zero hz]
  simp only [View.ld_unit_zero (S := S256x5504) hz, View.ld_unit_zero (S := S172x5504) hz,
    View.ld_unit_zero (S := S128x172) hz, View.ld_unit_zero (S := S128x5504) hz]
  rw [pay_apply]
  have hs : ∀ (a : Vec Ideal S128x172 .f32) (k : Fin 5504),
      ∑ g : Fin 172, a (ix2 n g) * x5 (ix2 g k) = a (ix2 n (grpOf (K := 5504) (G := 172) rfl k)) := fun a k =>
    onehot_sum (K := 5504) (G := 172) rfl (fun g => a (ix2 n g)) (fun g k => x5 (ix2 g k)) hE k
  simp only [hs]
  rfl

end Cert.KernelIdeal.DownBody

end
-- ==== Proof.PayGateUp.lean ====
/-
  The body of the gate/up kernel at one entry of its output block.

  The block is `[256, 128]`: rows `p` of the even and odd activation columns `x0`, `x1 : [256, 2048]`, against rows `n`
  of the gate's packed block `x2` (scale `x3`, zero point `x4`) and of the up projection's packed block `x5` (scale `x6`,
  zero point `x7`), the per-group parameters spread to the packed columns by the 0/1 matrix `x8 : [64, 2048]`. Entry
  `(p, n)` is the gate of the two packed dot products.

  The block is written by one whole-block store, so it is the stored value. That value is read entry by entry. Each of the
  two kinds of matrix product contracts one axis into the zero splat, so at an entry it is the sum over that axis of the
  products of the operands' entries (`spread_apply` for `[128, 64] · [64, 2048]`, `dotT_apply` for
  `[256, 2048] · [128, 2048]ᵀ`). A parameter block times the 0/1 matrix is therefore, at packed column `k`, the parameter
  of `k`'s group (the specification's `onehot_sum`); a dequantised field is the field minus that zero point, times that
  scale; the changes of format are the identity on the extended reals; and a shift right by the literal four is the
  arithmetic shift. The gate's value `g` is the even columns' sum plus the odd columns' sum against the upper and lower
  fields, likewise the up projection's `u`, and the entry is `(g * logistic g) * u`: term for term the specification's
  `gated` of the two `dotPacked` sums, with no rearrangement of any sum.
-/
import proofs.«403345_j16587163697454_2_alg».proof.Proof.Gen.KernelIdeal.Frame
import proofs.«403345_j16587163697454_2_alg».proof.Proof.Spec
import Idealize.ShloMosaic.Lib.Pipeline.Value

set_option maxRecDepth 16384

noncomputable section

namespace Cert.KernelIdeal.GateUpBody

open Cert.KernelIdeal Cert.KernelIdeal.Gen Cert.QuantMlp Idealize.ShloMosaic Idealize.ShloMosaic.TcCoe Idealize.ShloMosaic.ValueIdx Idealize.SL.Sem

/-! ## The two matrix products at an entry -/

/-- The spreading product `[128, 64] · [64, 2048]` reads its left operand on the entry's row, -/
private theorem spread_lhs_0 (j : S128x2048.Idx) (q : dot_S128x64_S64x2048_S128x2048_1_0_0_1_n_n.contr.Idx) :
    (dot_S128x64_S64x2048_S128x2048_1_0_0_1_n_n.lhsIdx j q 0).val = (j 0).val := by
  unfold DotDims.lhsIdx
  rw [dif_neg (show ¬(0 : Fin S128x64.rank) ∈ dot_S128x64_S64x2048_S128x2048_1_0_0_1_n_n.lhsBatch by decide), dif_pos (show (0 : Fin S128x64.rank) ∈ dot_S128x64_S64x2048_S128x2048_1_0_0_1_n_n.lhsNonContracting by decide)]
  rfl
/-- at the contracted coordinate; -/
private theorem spread_lhs_1 (j : S128x2048.Idx) (q : dot_S128x64_S64x2048_S128x2048_1_0_0_1_n_n.contr.Idx) :
    (dot_S128x64_S64x2048_S128x2048_1_0_0_1_n_n.lhsIdx j q 1).val = (q ⟨0, by decide⟩).val :=
  dot_S128x64_S64x2048_S128x2048_1_0_0_1_n_n.lhsIdx_val_of_single rfl j q
/-- its right operand at the contracted coordinate, -/
private theorem spread_rhs_0 (j : S128x2048.Idx) (q : dot_S128x64_S64x2048_S128x2048_1_0_0_1_n_n.contr.Idx) :
    (dot_S128x64_S64x2048_S128x2048_1_0_0_1_n_n.rhsIdx j q 0).val = (q ⟨0, by decide⟩).val :=
  dot_S128x64_S64x2048_S128x2048_1_0_0_1_n_n.rhsIdx_val_of_single rfl j q
/-- on the entry's column. -/
private theorem spread_rhs_1 (j : S128x2048.Idx) (q : dot_S128x64_S64x2048_S128x2048_1_0_0_1_n_n.contr.Idx) :
    (dot_S128x64_S64x2048_S128x2048_1_0_0_1_n_n.rhsIdx j q 1).val = (j 1).val := by
  unfold DotDims.rhsIdx
  rw [dif_neg (show ¬(1 : Fin S64x2048.rank) ∈ dot_S128x64_S64x2048_S128x2048_1_0_0_1_n_n.rhsBatch by decide), dif_pos (show (1 : Fin S64x2048.rank) ∈ dot_S128x64_S64x2048_S128x2048_1_0_0_1_n_n.rhsNonContracting by decide)]
  rfl

/-- The spreading product into the zero splat, at entry `(n, k)`: the sum over the groups. -/
private theorem spread_apply (prec : Option ContractPrecision) (a : FVec Ideal S128x64 .f32) (b : FVec Ideal S64x2048 .f32)
    (n : Fin 128) (k : Fin 2048) :
    FloatOps.matmul dot_S128x64_S64x2048_S128x2048_1_0_0_1_n_n prec a b (constant (F := Ideal) S128x2048 .f32 0x00000000#32) (ix2 n k)
      = ∑ g : Fin 64, a (ix2 n g) * b (ix2 g k) := by
  rw [Ideal.matmul_constant_zero_apply, ← Equiv.sum_comp (contrEquiv1 dot_S128x64_S64x2048_S128x2048_1_0_0_1_n_n 64 rfl rfl).symm]
  refine Finset.sum_congr rfl fun g _ => ?_
  have hg := contrEquiv1_symm_val dot_S128x64_S64x2048_S128x2048_1_0_0_1_n_n 64 rfl rfl g
  have el : dot_S128x64_S64x2048_S128x2048_1_0_0_1_n_n.lhsIdx (ix2 n k) ((contrEquiv1 dot_S128x64_S64x2048_S128x2048_1_0_0_1_n_n 64 rfl rfl).symm g) = ix2 n g :=
    funext fun c => Fin.ext (by
      match c with
      | ⟨0, _⟩ => exact spread_lhs_0 _ _
      | ⟨1, _⟩ => exact (spread_lhs_1 _ _).trans hg)
  have er : dot_S128x64_S64x2048_S128x2048_1_0_0_1_n_n.rhsIdx (ix2 n k) ((contrEquiv1 dot_S128x64_S64x2048_S128x2048_1_0_0_1_n_n 64 rfl rfl).symm g) = ix2 g k :=
    funext fun c => Fin.ext (by
      match c with
      | ⟨0, _⟩ => exact (spread_rhs_0 _ _).trans hg
      | ⟨1, _⟩ => exact spread_rhs_1 _ _)
  rw [el, er]

/-- The product `[256, 2048] · [128, 2048]ᵀ` reads its left operand on the entry's row, -/
private theorem dotT_lhs_0 (j : S256x128.Idx) (q : dot_S256x2048_S128x2048_S256x128_1_1_0_0_n_n.contr.Idx) :
    (dot_S256x2048_S128x2048_S256x128_1_1_0_0_n_n.lhsIdx j q 0).val = (j 0).val := by
  unfold DotDims.lhsIdx
  rw [dif_neg (show ¬(0 : Fin S256x2048.rank) ∈ dot_S256x2048_S128x2048_S256x128_1_1_0_0_n_n.lhsBatch by decide), dif_pos (show (0 : Fin S256x2048.rank) ∈ dot_S256x2048_S128x2048_S256x128_1_1_0_0_n_n.lhsNonContracting by decide)]
  rfl
/-- at the contracted coordinate; -/
private theorem dotT_lhs_1 (j : S256x128.Idx) (q : dot_S256x2048_S128x2048_S256x128_1_1_0_0_n_n.contr.Idx) :
    (dot_S256x2048_S128x2048_S256x128_1_1_0_0_n_n.lhsIdx j q 1).val = (q ⟨0, by decide⟩).val :=
  dot_S256x2048_S128x2048_S256x128_1_1_0_0_n_n.lhsIdx_val_of_single rfl j q
/-- its right operand on the row named by the entry's column, -/
private theorem dotT_rhs_0 (j : S256x128.Idx) (q : dot_S256x2048_S128x2048_S256x128_1_1_0_0_n_n.contr.Idx) :
    (dot_S256x2048_S128x2048_S256x128_1_1_0_0_n_n.rhsIdx j q 0).val = (j 1).val := by
  unfold DotDims.rhsIdx
  rw [dif_neg (show ¬(0 : Fin S128x2048.rank) ∈ dot_S256x2048_S128x2048_S256x128_1_1_0_0_n_n.rhsBatch by decide), dif_pos (show (0 : Fin S128x2048.rank) ∈ dot_S256x2048_S128x2048_S256x128_1_1_0_0_n_n.rhsNonContracting by decide)]
  rfl
/-- at the contracted coordinate. -/
private theorem dotT_rhs_1 (j : S256x128.Idx) (q : dot_S256x2048_S128x2048_S256x128_1_1_0_0_n_n.contr.Idx) :
    (dot_S256x2048_S128x2048_S256x128_1_1_0_0_n_n.rhsIdx j q 1).val = (q ⟨0, by decide⟩).val :=
  dot_S256x2048_S128x2048_S256x128_1_1_0_0_n_n.rhsIdx_val_of_single rfl j q

/-- The product of activation rows with weight rows into the zero splat, at entry `(p, n)`: the sum over the packed columns. -/
private theorem dotT_apply {φ₁ φ₂ : FTy} (prec : Option ContractPrecision) (a : FVec Ideal S256x2048 φ₁) (b : FVec Ideal S128x2048 φ₂)
    (p : Fin 256) (n : Fin 128) :
    FloatOps.matmul dot_S256x2048_S128x2048_S256x128_1_1_0_0_n_n prec a b (constant (F := Ideal) S256x128 .f32 0x00000000#32) (ix2 p n)
      = ∑ k : Fin 2048, a (ix2 p k) * b (ix2 n k) := by
  rw [Ideal.matmul_constant_zero_apply, ← Equiv.sum_comp (contrEquiv1 dot_S256x2048_S128x2048_S256x128_1_1_0_0_n_n 2048 rfl rfl).symm]
  refine Finset.sum_congr rfl fun k _ => ?_
  have hk := contrEquiv1_symm_val dot_S256x2048_S128x2048_S256x128_1_1_0_0_n_n 2048 rfl rfl k
  have el : dot_S256x2048_S128x2048_S256x128_1_1_0_0_n_n.lhsIdx (ix2 p n) ((contrEquiv1 dot_S256x2048_S128x2048_S256x128_1_1_0_0_n_n 2048 rfl rfl).symm k) = ix2 p k :=
    funext fun c => Fin.ext (by
      match c with
      | ⟨0, _⟩ => exact dotT_lhs_0 _ _
      | ⟨1, _⟩ => exact (dotT_lhs_1 _ _).trans hk)
  have er : dot_S256x2048_S128x2048_S256x128_1_1_0_0_n_n.rhsIdx (ix2 p n) ((contrEquiv1 dot_S256x2048_S128x2048_S256x128_1_1_0_0_n_n 2048 rfl rfl).symm k) = ix2 n k :=
    funext fun c => Fin.ext (by
      match c with
      | ⟨0, _⟩ => exact dotT_rhs_0 _ _
      | ⟨1, _⟩ => exact (dotT_rhs_1 _ _).trans hk)
  rw [el, er]

/-! ## The payloads at an entry -/

/-- The block offset `[0, 0]` is the zero offset. -/
private theorem off_zero : (![0, 0] : Fin 2 → Nat) = fun _ => 0 := funext fun a => by fin_cases a <;> rfl

/-- The even activation columns pass unchanged (a cast to the same shape, then a change of format). -/
private theorem pay2_apply (x : Vec Ideal S256x2048 .f32) (i : S256x2048.Idx) : k0_pay2 (F := Ideal) x i = x i := by
  unfold k0_pay2
  exact congrFun (shapeCast_self x _) i
/-- So do the odd ones. -/
private theorem pay3_apply (x : Vec Ideal S256x2048 .f32) (i : S256x2048.Idx) : k0_pay3 (F := Ideal) x i = x i := by
  unfold k0_pay3
  exact congrFun (shapeCast_self x _) i
/-- And the 0/1 matrix. -/
private theorem pay4_eq (E : Vec Ideal S64x2048 .f32) : k0_pay4 (F := Ideal) E = E := by
  unfold k0_pay4
  exact shapeCast_self E _

/-- A per-group parameter spread by the 0/1 matrix is, at packed column `k` of row `n`, the parameter of `k`'s group. -/
private theorem spread_onehot (E : Vec Ideal S64x2048 .f32) (hE : ∀ (g : Fin 64) (k : Fin 2048), E (ix2 g k) = onehot g k)
    (prm : FVec Ideal S128x64 .f32) (n : Fin 128) (k : Fin 2048) :
    FloatOps.matmul dot_S128x64_S64x2048_S128x2048_1_0_0_1_n_n (some .fp32) prm (k0_pay4 (F := Ideal) E)
        (constant (F := Ideal) S128x2048 .f32 0x00000000#32) (ix2 n k)
      = prm (ix2 n (grpOf (K := 2048) (G := 64) rfl k)) := by
  rw [pay4_eq, spread_apply]
  exact onehot_sum (K := 2048) (G := 64) rfl (fun g => prm (ix2 n g)) (fun g k => E (ix2 g k)) hE k

private theorem pay5_apply (E : Vec Ideal S64x2048 .f32) (hE : ∀ (g : Fin 64) (k : Fin 2048), E (ix2 g k) = onehot g k)
    (prm : FVec Ideal S128x64 .f32) (n : Fin 128) (k : Fin 2048) :
    k0_pay5 (F := Ideal) E prm (ix2 n k) = prm (ix2 n (grpOf (K := 2048) (G := 64) rfl k)) := by
  unfold k0_pay5
  exact spread_onehot E hE prm n k
private theorem pay6_apply (E : Vec Ideal S64x2048 .f32) (hE : ∀ (g : Fin 64) (k : Fin 2048), E (ix2 g k) = onehot g k)
    (prm : FVec Ideal S128x64 .f32) (n : Fin 128) (k : Fin 2048) :
    k0_pay6 (F := Ideal) E prm (ix2 n k) = prm (ix2 n (grpOf (K := 2048) (G := 64) rfl k)) := by
  unfold k0_pay6
  exact spread_onehot E hE prm n k
private theorem pay7_apply (E : Vec Ideal S64x2048 .f32) (hE : ∀ (g : Fin 64) (k : Fin 2048), E (ix2 g k) = onehot g k)
    (prm : FVec Ideal S128x64 .f32) (n : Fin 128) (k : Fin 2048) :
    k0_pay7 (F := Ideal) E prm (ix2 n k) = prm (ix2 n (grpOf (K := 2048) (G := 64) rfl k)) := by
  unfold k0_pay7
  exact spread_onehot E hE prm n k
private theorem pay8_apply (E : Vec Ideal S64x2048 .f32) (hE : ∀ (g : Fin 64) (k : Fin 2048), E (ix2 g k) = onehot g k)
    (prm : FVec Ideal S128x64 .f32) (n : Fin 128) (k : Fin 2048) :
    k0_pay8 (F := Ideal) E prm (ix2 n k) = prm (ix2 n (grpOf (K := 2048) (G := 64) rfl k)) := by
  unfold k0_pay8
  exact spread_onehot E hE prm n k

/-- The gate's upper fields, dequantised: field minus zero point, times scale, both of the column's group. -/
private theorem pay9_apply (E : Vec Ideal S64x2048 .f32) (hE : ∀ (g : Fin 64) (k : Fin 2048), E (ix2 g k) = onehot g k)
    (s z : Vec Ideal S128x64 .f32) (q : Vec Ideal S128x2048 .i32) (n : Fin 128) (k : Fin 2048) :
    k0_pay9 (F := Ideal) E s z q (ix2 n k)
      = (hiNib (q (ix2 n k)) - z (ix2 n (grpOf (K := 2048) (G := 64) rfl k))) * s (ix2 n (grpOf (K := 2048) (G := 64) rfl k)) := by
  show (FloatOps.sitofp (F := Ideal) .f32 (IntOp.andi (IntOp.shrsi .vector (q (ix2 n k)) 4#32) 15#32) - k0_pay6 (F := Ideal) E z (ix2 n k))
      * k0_pay5 (F := Ideal) E s (ix2 n k) = _
  rw [pay6_apply E hE, pay5_apply E hE, shrsi_four]
  rfl
/-- The gate's lower fields, dequantised. -/
private theorem pay10_apply (E : Vec Ideal S64x2048 .f32) (hE : ∀ (g : Fin 64) (k : Fin 2048), E (ix2 g k) = onehot g k)
    (s z : Vec Ideal S128x64 .f32) (q : Vec Ideal S128x2048 .i32) (n : Fin 128) (k : Fin 2048) :
    k0_pay10 (F := Ideal) E s z q (ix2 n k)
      = (loNib (q (ix2 n k)) - z (ix2 n (grpOf (K := 2048) (G := 64) rfl k))) * s (ix2 n (grpOf (K := 2048) (G := 64) rfl k)) := by
  show (FloatOps.sitofp (F := Ideal) .f32 (IntOp.andi (q (ix2 n k)) 15#32) - k0_pay6 (F := Ideal) E z (ix2 n k))
      * k0_pay5 (F := Ideal) E s (ix2 n k) = _
  rw [pay6_apply E hE, pay5_apply E hE]
  rfl
/-- The up projection's words shifted right by four. -/
private theorem pay11_apply (q : Vec Ideal S128x2048 .i32) (i : S128x2048.Idx) :
    k0_pay11 (F := Ideal) q i = (q i).sshiftRight' 4#32 :=
  shrsi_four .vector (q i)

/-- The output payload at entry `(p, n)`: the gate of the two sums of products, each the even columns' sum plus the odd
    columns' sum; the up projection's fields are dequantised here, from the words and the shifted words. -/
private theorem pay1_apply (e o : FVec Ideal S256x2048 .bf16) (s z gh gl : FVec Ideal S128x2048 .f32)
    (w : Vec Ideal S128x2048 .i32) (wsh : IVec S128x2048 32) (p : Fin 256) (n : Fin 128) :
    k0_pay1 (F := Ideal) e o s z gh gl w wsh (ix2 p n)
      = gated
          ((∑ k : Fin 2048, e (ix2 p k) * gh (ix2 n k)) + ∑ k : Fin 2048, o (ix2 p k) * gl (ix2 n k))
          ((∑ k : Fin 2048, e (ix2 p k)
              * ((FloatOps.sitofp (F := Ideal) .f32 (IntOp.andi (wsh (ix2 n k)) 15#32) - z (ix2 n k)) * s (ix2 n k)))
            + ∑ k : Fin 2048, o (ix2 p k)
              * ((FloatOps.sitofp (F := Ideal) .f32 (IntOp.andi (w (ix2 n k)) 15#32) - z (ix2 n k)) * s (ix2 n k))) := by
  unfold gated
  rw [← dotT_apply none e gh p n, ← dotT_apply none o gl p n,
    ← dotT_apply none e (fun i => (FloatOps.sitofp (F := Ideal) .f32 (IntOp.andi (wsh i) 15#32) - z i) * s i) p n,
    ← dotT_apply none o (fun i => (FloatOps.sitofp (F := Ideal) .f32 (IntOp.andi (w i) 15#32) - z i) * s i) p n]
  rfl

/-- Entry `(p, n)` of the gate/up kernel's output block, from its input blocks. -/
theorem out0_9_apply (x0 x1 : Vec Ideal S256x2048 .f32) (x2 : Vec Ideal S128x2048 .i32) (x3 x4 : Vec Ideal S128x64 .f32)
    (x5 : Vec Ideal S128x2048 .i32) (x6 x7 : Vec Ideal S128x64 .f32) (x8 : Vec Ideal S64x2048 .f32)
    (hE : ∀ (g : Fin 64) (k : Fin 2048), x8 (ix2 g k) = onehot g k) (p : Fin 256) (n : Fin 128) :
    out0_9 (F := Ideal) x0 x1 x2 x3 x4 x5 x6 x7 x8 (ix2 p n)
      = gated
          (dotPacked (fun k : Fin 2048 => x0 (ix2 p k)) (fun k : Fin 2048 => x1 (ix2 p k)) (fun k : Fin 2048 => x2 (ix2 n k))
            (fun g : Fin 64 => x3 (ix2 n g)) (fun g : Fin 64 => x4 (ix2 n g)) (grpOf (K := 2048) (G := 64) rfl))
          (dotPacked (fun k : Fin 2048 => x0 (ix2 p k)) (fun k : Fin 2048 => x1 (ix2 p k)) (fun k : Fin 2048 => x5 (ix2 n k))
            (fun g : Fin 64 => x6 (ix2 n g)) (fun g : Fin 64 => x7 (ix2 n g)) (grpOf (K := 2048) (G := 64) rfl)) := by
  unfold out0_9
  rw [View.canon_unit_zero off_zero]
  simp only [View.ld_unit_zero (S := S256x2048) off_zero, View.ld_unit_zero (S := S64x2048) off_zero,
    View.ld_unit_zero (S := S128x64) off_zero, View.ld_unit_zero (S := S128x2048) off_zero]
  rw [pay1_apply]
  unfold dotPacked
  refine congrArg₂ gated
    (congrArg₂ (· + ·) (Finset.sum_congr rfl fun k _ => ?_) (Finset.sum_congr rfl fun k _ => ?_))
    (congrArg₂ (· + ·) (Finset.sum_congr rfl fun k _ => ?_) (Finset.sum_congr rfl fun k _ => ?_))
  · rw [pay2_apply, pay9_apply x8 hE]
  · rw [pay3_apply, pay10_apply x8 hE]
  · rw [pay2_apply, pay11_apply, pay8_apply x8 hE, pay7_apply x8 hE]
    rfl
  · rw [pay3_apply, pay8_apply x8 hE, pay7_apply x8 hE]
    rfl

end Cert.KernelIdeal.GateUpBody

end
-- ==== Proof.Blocks.lean ====
/-
  From blocks to arrays: what each of the two kernels leaves in its whole output array.

  Each kernel runs on a `16 × (N / 128)` grid; point `(a, b)` writes block `(a, b)` of `[256, 128]` of the output and reads
  row block `a` of the activations and row block `b` of the weights and their parameters, and the whole 0/1 matrix.
  The blocks tile the output, so entry `(r, n)` of the output array is the body's entry `(r % 256, n % 128)` at point
  `(r / 256, n / 128)`, which reads row `r` of the activations and row `n` of the weights: the array is one function of
  the arrays the region finds (`V`).

  How: the index maps are decided once over the grid (point `t` of a `16 × B` grid is `(t / B, t % B)`; the activations'
  block index is `(t / B, 0)`, the weights' and parameters' `(t % B, 0)`, the 0/1 matrix's `(0, 0)`, the output's
  `(t / B, t % B)`). An element of a block sits in its array, on each axis, at block index × block size + its coordinate
  inside the block, so each loaded block's entry is an entry of its array, and the body's entry `(p, n)` at point `t` is
  the one whole-array function at `((t / B) · 256 + p, (t % B) · 128 + n)`: every point writes back its block of that
  function. The 0/1 matrix's one block is its whole array, so what is assumed of the array holds of the block. Row `r`,
  column `n` lies in the block of point `(r / 256) · B + n / 128`, so the blocks cover the output and the array ends
  holding the function everywhere.
-/
import proofs.«403345_j16587163697454_2_alg».proof.Proof.Gen.KernelIdeal.Frame
import proofs.«403345_j16587163697454_2_alg».proof.Proof.Spec
import proofs.«403345_j16587163697454_2_alg».proof.Proof.PayDown
import proofs.«403345_j16587163697454_2_alg».proof.Proof.PayGateUp
import Idealize.ShloMosaic.Lib.Pipeline.Value

set_option maxRecDepth 16384

noncomputable section

namespace Cert.KernelIdeal.Blocks

open Cert.KernelIdeal Cert.KernelIdeal.Gen Cert.QuantMlp Idealize.ShloMosaic Idealize.ShloMosaic.TcCoe Idealize.ShloMosaic.ValueIdx Idealize.SL.Sem

variable (V : (c : Dev nD) → (b : Ref sig .tc) → Buf (Elt Ideal) ((c : Thread nD τ).loc b))

/-! ## The gate/up kernel: `16 × 86` points -/
/-- Entry `(r, i)` of the hidden activations: the gate of the two projections of row `r` of the activations (even and
    odd columns apart) against packed row `i` of the gate weights and of the up weights, each with its scales and zero points. -/
private def gateUp (c : Dev nD) (r : Fin 4096) (i : Fin 11008) : EReal :=
  gated
    (dotPacked (fun k : Fin 2048 => (V c main_v3 : S4096x2048.Idx → EReal) (ix2 r k))
      (fun k : Fin 2048 => (V c main_v5 : S4096x2048.Idx → EReal) (ix2 r k))
      (fun k : Fin 2048 => (V c main_arg1 : S11008x2048.Idx → BitVec 32) (ix2 i k))
      (fun g : Fin 64 => (V c main_arg4 : S11008x64.Idx → EReal) (ix2 i g))
      (fun g : Fin 64 => (V c main_arg5 : S11008x64.Idx → EReal) (ix2 i g)) (grpOf (K := 2048) (G := 64) rfl))
    (dotPacked (fun k : Fin 2048 => (V c main_v3 : S4096x2048.Idx → EReal) (ix2 r k))
      (fun k : Fin 2048 => (V c main_v5 : S4096x2048.Idx → EReal) (ix2 r k))
      (fun k : Fin 2048 => (V c main_arg2 : S11008x2048.Idx → BitVec 32) (ix2 i k))
      (fun g : Fin 64 => (V c main_arg6 : S11008x64.Idx → EReal) (ix2 i g))
      (fun g : Fin 64 => (V c main_arg7 : S11008x64.Idx → EReal) (ix2 i g)) (grpOf (K := 2048) (G := 64) rfl))

/-- The whole output array of the gate/up kernel as one function of its index. -/
private def gateUpArr (c : Dev nD) : S4096x11008.Idx → EReal := fun i => gateUp V c (i 0) (i 1)

/-- The gate/up kernel's index maps, decided over its 1376 points: point `t` is `(t / 86, t % 86)`; the activations
    move with the first coordinate, the weights and their parameters with the second, the 0/1 matrix stays. -/
private theorem idx0 : ∀ t : Fin cfg0.N,
    win0_9.index t (0 : Fin 2) = t.val / 86 ∧ win0_9.index t (1 : Fin 2) = t.val % 86
    ∧ win0_0.index t (0 : Fin 2) = t.val / 86 ∧ win0_0.index t (1 : Fin 2) = 0
    ∧ win0_1.index t (0 : Fin 2) = t.val / 86 ∧ win0_1.index t (1 : Fin 2) = 0
    ∧ win0_2.index t (0 : Fin 2) = t.val % 86 ∧ win0_2.index t (1 : Fin 2) = 0
    ∧ win0_3.index t (0 : Fin 2) = t.val % 86 ∧ win0_3.index t (1 : Fin 2) = 0
    ∧ win0_4.index t (0 : Fin 2) = t.val % 86 ∧ win0_4.index t (1 : Fin 2) = 0
    ∧ win0_5.index t (0 : Fin 2) = t.val % 86 ∧ win0_5.index t (1 : Fin 2) = 0
    ∧ win0_6.index t (0 : Fin 2) = t.val % 86 ∧ win0_6.index t (1 : Fin 2) = 0
    ∧ win0_7.index t (0 : Fin 2) = t.val % 86 ∧ win0_7.index t (1 : Fin 2) = 0
    ∧ win0_8.index t (0 : Fin 2) = 0 ∧ win0_8.index t (1 : Fin 2) = 0 :=
  (by decide +kernel : ∀ t : Fin grid0.N, _)

private theorem iblk0_0_apply (c : Dev nD) (t : Fin cfg0.N) (p : Fin 256) (j : Fin 2048) (r : Fin 4096) (k : Fin 2048)
    (h0 : r.val = win0_0.index t (0 : Fin 2) * 256 + p.val)
    (h1 : k.val = win0_0.index t (1 : Fin 2) * 2048 + j.val) :
    (iblk0 (F := Ideal) V c 0 t : Vec Ideal S256x2048 .f32) (ix2 p j) = (V c main_v3 : S4096x2048.Idx → EReal) (ix2 r k) := by
  unfold iblk0
  rw [View.read_apply]
  show (V c main_v3 : S4096x2048.Idx → EReal) _ = V c main_v3 _
  congr 1
  funext a
  apply Fin.ext
  match a with
  | ⟨0, _⟩ => show win0_0.index t (0 : Fin 2) * 256 + 1 * p.val = r.val; omega
  | ⟨1, _⟩ => show win0_0.index t (1 : Fin 2) * 2048 + 1 * j.val = k.val; omega

private theorem iblk0_1_apply (c : Dev nD) (t : Fin cfg0.N) (p : Fin 256) (j : Fin 2048) (r : Fin 4096) (k : Fin 2048)
    (h0 : r.val = win0_1.index t (0 : Fin 2) * 256 + p.val)
    (h1 : k.val = win0_1.index t (1 : Fin 2) * 2048 + j.val) :
    (iblk0 (F := Ideal) V c 1 t : Vec Ideal S256x2048 .f32) (ix2 p j) = (V c main_v5 : S4096x2048.Idx → EReal) (ix2 r k) := by
  unfold iblk0
  rw [View.read_apply]
  show (V c main_v5 : S4096x2048.Idx → EReal) _ = V c main_v5 _
  congr 1
  funext a
  apply Fin.ext
  match a with
  | ⟨0, _⟩ => show win0_1.index t (0 : Fin 2) * 256 + 1 * p.val = r.val; omega
  | ⟨1, _⟩ => show win0_1.index t (1 : Fin 2) * 2048 + 1 * j.val = k.val; omega

private theorem iblk0_2_apply (c : Dev nD) (t : Fin cfg0.N) (p : Fin 128) (j : Fin 2048) (r : Fin 11008) (k : Fin 2048)
    (h0 : r.val = win0_2.index t (0 : Fin 2) * 128 + p.val)
    (h1 : k.val = win0_2.index t (1 : Fin 2) * 2048 + j.val) :
    (iblk0 (F := Ideal) V c 2 t : Vec Ideal S128x2048 .i32) (ix2 p j) = (V c main_arg1 : S11008x2048.Idx → BitVec 32) (ix2 r k) := by
  unfold iblk0
  rw [View.read_apply]
  show (V c main_arg1 : S11008x2048.Idx → BitVec 32) _ = V c main_arg1 _
  congr 1
  funext a
  apply Fin.ext
  match a with
  | ⟨0, _⟩ => show win0_2.index t (0 : Fin 2) * 128 + 1 * p.val = r.val; omega
  | ⟨1, _⟩ => show win0_2.index t (1 : Fin 2) * 2048 + 1 * j.val = k.val; omega

private theorem iblk0_3_apply (c : Dev nD) (t : Fin cfg0.N) (p : Fin 128) (j : Fin 64) (r : Fin 11008) (k : Fin 64)
    (h0 : r.val = win0_3.index t (0 : Fin 2) * 128 + p.val)
    (h1 : k.val = win0_3.index t (1 : Fin 2) * 64 + j.val) :
    (iblk0 (F := Ideal) V c 3 t : Vec Ideal S128x64 .f32) (ix2 p j) = (V c main_arg4 : S11008x64.Idx → EReal) (ix2 r k) := by
  unfold iblk0
  rw [View.read_apply]
  show (V c main_arg4 : S11008x64.Idx → EReal) _ = V c main_arg4 _
  congr 1
  funext a
  apply Fin.ext
  match a with
  | ⟨0, _⟩ => show win0_3.index t (0 : Fin 2) * 128 + 1 * p.val = r.val; omega
  | ⟨1, _⟩ => show win0_3.index t (1 : Fin 2) * 64 + 1 * j.val = k.val; omega

private theorem iblk0_4_apply (c : Dev nD) (t : Fin cfg0.N) (p : Fin 128) (j : Fin 64) (r : Fin 11008) (k : Fin 64)
    (h0 : r.val = win0_4.index t (0 : Fin 2) * 128 + p.val)
    (h1 : k.val = win0_4.index t (1 : Fin 2) * 64 + j.val) :
    (iblk0 (F := Ideal) V c 4 t : Vec Ideal S128x64 .f32) (ix2 p j) = (V c main_arg5 : S11008x64.Idx → EReal) (ix2 r k) := by
  unfold iblk0
  rw [View.read_apply]
  show (V c main_arg5 : S11008x64.Idx → EReal) _ = V c main_arg5 _
  congr 1
  funext a
  apply Fin.ext
  match a with
  | ⟨0, _⟩ => show win0_4.index t (0 : Fin 2) * 128 + 1 * p.val = r.val; omega
  | ⟨1, _⟩ => show win0_4.index t (1 : Fin 2) * 64 + 1 * j.val = k.val; omega

private theorem iblk0_5_apply (c : Dev nD) (t : Fin cfg0.N) (p : Fin 128) (j : Fin 2048) (r : Fin 11008) (k : Fin 2048)
    (h0 : r.val = win0_5.index t (0 : Fin 2) * 128 + p.val)
    (h1 : k.val = win0_5.index t (1 : Fin 2) * 2048 + j.val) :
    (iblk0 (F := Ideal) V c 5 t : Vec Ideal S128x2048 .i32) (ix2 p j) = (V c main_arg2 : S11008x2048.Idx → BitVec 32) (ix2 r k) := by
  unfold iblk0
  rw [View.read_apply]
  show (V c main_arg2 : S11008x2048.Idx → BitVec 32) _ = V c main_arg2 _
  congr 1
  funext a
  apply Fin.ext
  match a with
  | ⟨0, _⟩ => show win0_5.index t (0 : Fin 2) * 128 + 1 * p.val = r.val; omega
  | ⟨1, _⟩ => show win0_5.index t (1 : Fin 2) * 2048 + 1 * j.val = k.val; omega

private theorem iblk0_6_apply (c : Dev nD) (t : Fin cfg0.N) (p : Fin 128) (j : Fin 64) (r : Fin 11008) (k : Fin 64)
    (h0 : r.val = win0_6.index t (0 : Fin 2) * 128 + p.val)
    (h1 : k.val = win0_6.index t (1 : Fin 2) * 64 + j.val) :
    (iblk0 (F := Ideal) V c 6 t : Vec Ideal S128x64 .f32) (ix2 p j) = (V c main_arg6 : S11008x64.Idx → EReal) (ix2 r k) := by
  unfold iblk0
  rw [View.read_apply]
  show (V c main_arg6 : S11008x64.Idx → EReal) _ = V c main_arg6 _
  congr 1
  funext a
  apply Fin.ext
  match a with
  | ⟨0, _⟩ => show win0_6.index t (0 : Fin 2) * 128 + 1 * p.val = r.val; omega
  | ⟨1, _⟩ => show win0_6.index t (1 : Fin 2) * 64 + 1 * j.val = k.val; omega

private theorem iblk0_7_apply (c : Dev nD) (t : Fin cfg0.N) (p : Fin 128) (j : Fin 64) (r : Fin 11008) (k : Fin 64)
    (h0 : r.val = win0_7.index t (0 : Fin 2) * 128 + p.val)
    (h1 : k.val = win0_7.index t (1 : Fin 2) * 64 + j.val) :
    (iblk0 (F := Ideal) V c 7 t : Vec Ideal S128x64 .f32) (ix2 p j) = (V c main_arg7 : S11008x64.Idx → EReal) (ix2 r k) := by
  unfold iblk0
  rw [View.read_apply]
  show (V c main_arg7 : S11008x64.Idx → EReal) _ = V c main_arg7 _
  congr 1
  funext a
  apply Fin.ext
  match a with
  | ⟨0, _⟩ => show win0_7.index t (0 : Fin 2) * 128 + 1 * p.val = r.val; omega
  | ⟨1, _⟩ => show win0_7.index t (1 : Fin 2) * 64 + 1 * j.val = k.val; omega

private theorem iblk0_8_apply (c : Dev nD) (t : Fin cfg0.N) (p : Fin 64) (j : Fin 2048) (r : Fin 64) (k : Fin 2048)
    (h0 : r.val = win0_8.index t (0 : Fin 2) * 64 + p.val)
    (h1 : k.val = win0_8.index t (1 : Fin 2) * 2048 + j.val) :
    (iblk0 (F := Ideal) V c 8 t : Vec Ideal S64x2048 .f32) (ix2 p j) = (V c main_v14 : S64x2048.Idx → EReal) (ix2 r k) := by
  unfold iblk0
  rw [View.read_apply]
  show (V c main_v14 : S64x2048.Idx → EReal) _ = V c main_v14 _
  congr 1
  funext a
  apply Fin.ext
  match a with
  | ⟨0, _⟩ => show win0_8.index t (0 : Fin 2) * 64 + 1 * p.val = r.val; omega
  | ⟨1, _⟩ => show win0_8.index t (1 : Fin 2) * 2048 + 1 * j.val = k.val; omega

/-- The body's entry `(p, n)` at point `t` is the hidden activation at row `(t / 86) · 256 + p`, column `(t % 86) · 128 + n`. -/
private theorem point0 (c : Dev nD)
    (hE : ∀ (g : Fin 64) (k : Fin 2048), (V c main_v14 : S64x2048.Idx → EReal) (ix2 g k) = onehot g k)
    (t : Fin cfg0.N) (p : Fin 256) (n : Fin 128) (r : Fin 4096) (i : Fin 11008)
    (hr : r.val = t.val / 86 * 256 + p.val) (hi : i.val = t.val % 86 * 128 + n.val) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p n)
      = gateUp V c r i := by
  obtain ⟨e90, e91, e00, e01, e10, e11, e20, e21, e30, e31, e40, e41, e50, e51, e60, e61, e70, e71, e80, e81⟩ := idx0 t
  have hE' : ∀ (g : Fin 64) (k : Fin 2048), (iblk0 (F := Ideal) V c 8 t : Vec Ideal S64x2048 .f32) (ix2 g k) = onehot g k := fun g k =>
    (iblk0_8_apply V c t g k g k (by rw [e80]; omega) (by rw [e81]; omega)).trans (hE g k)
  refine (GateUpBody.out0_9_apply _ _ _ _ _ _ _ _ _ hE' p n).trans ?_
  have h0 : (fun k : Fin 2048 => (iblk0 (F := Ideal) V c 0 t : Vec Ideal S256x2048 .f32) (ix2 p k))
      = fun k : Fin 2048 => (V c main_v3 : S4096x2048.Idx → EReal) (ix2 r k) := funext fun k =>
    iblk0_0_apply V c t p k r k (by rw [e00]; omega) (by rw [e01]; omega)
  have h1 : (fun k : Fin 2048 => (iblk0 (F := Ideal) V c 1 t : Vec Ideal S256x2048 .f32) (ix2 p k))
      = fun k : Fin 2048 => (V c main_v5 : S4096x2048.Idx → EReal) (ix2 r k) := funext fun k =>
    iblk0_1_apply V c t p k r k (by rw [e10]; omega) (by rw [e11]; omega)
  have h2 : (fun k : Fin 2048 => (iblk0 (F := Ideal) V c 2 t : Vec Ideal S128x2048 .i32) (ix2 n k))
      = fun k : Fin 2048 => (V c main_arg1 : S11008x2048.Idx → BitVec 32) (ix2 i k) := funext fun k =>
    iblk0_2_apply V c t n k i k (by rw [e20]; omega) (by rw [e21]; omega)
  have h3 : (fun g : Fin 64 => (iblk0 (F := Ideal) V c 3 t : Vec Ideal S128x64 .f32) (ix2 n g))
      = fun g : Fin 64 => (V c main_arg4 : S11008x64.Idx → EReal) (ix2 i g) := funext fun g =>
    iblk0_3_apply V c t n g i g (by rw [e30]; omega) (by rw [e31]; omega)
  have h4 : (fun g : Fin 64 => (iblk0 (F := Ideal) V c 4 t : Vec Ideal S128x64 .f32) (ix2 n g))
      = fun g : Fin 64 => (V c main_arg5 : S11008x64.Idx → EReal) (ix2 i g) := funext fun g =>
    iblk0_4_apply V c t n g i g (by rw [e40]; omega) (by rw [e41]; omega)
  have h5 : (fun k : Fin 2048 => (iblk0 (F := Ideal) V c 5 t : Vec Ideal S128x2048 .i32) (ix2 n k))
      = fun k : Fin 2048 => (V c main_arg2 : S11008x2048.Idx → BitVec 32) (ix2 i k) := funext fun k =>
    iblk0_5_apply V c t n k i k (by rw [e50]; omega) (by rw [e51]; omega)
  have h6 : (fun g : Fin 64 => (iblk0 (F := Ideal) V c 6 t : Vec Ideal S128x64 .f32) (ix2 n g))
      = fun g : Fin 64 => (V c main_arg6 : S11008x64.Idx → EReal) (ix2 i g) := funext fun g =>
    iblk0_6_apply V c t n g i g (by rw [e60]; omega) (by rw [e61]; omega)
  have h7 : (fun g : Fin 64 => (iblk0 (F := Ideal) V c 7 t : Vec Ideal S128x64 .f32) (ix2 n g))
      = fun g : Fin 64 => (V c main_arg7 : S11008x64.Idx → EReal) (ix2 i g) := funext fun g =>
    iblk0_7_apply V c t n g i g (by rw [e70]; omega) (by rw [e71]; omega)
  unfold gateUp
  rw [h0, h1, h2, h3, h4, h5, h6, h7]

/-- The same at any index `y` of the block. -/
private theorem point0' (c : Dev nD)
    (hE : ∀ (g : Fin 64) (k : Fin 2048), (V c main_v14 : S64x2048.Idx → EReal) (ix2 g k) = onehot g k)
    (t : Fin cfg0.N) (y : S256x128.Idx) (r : Fin 4096) (i : Fin 11008)
    (hr : r.val = t.val / 86 * 256 + (y 0).val) (hi : i.val = t.val % 86 * 128 + (y 1).val) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) y
      = gateUp V c r i :=
  (congrArg (out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (eq_ix2 y)).trans
    (point0 V c hE t (y 0) (y 1) r i hr hi)

/-- What point `t` writes back is its block of the one whole-array function. -/
private theorem flushed0_eq (c : Dev nD)
    (hE : ∀ (g : Fin 64) (k : Fin 2048), (V c main_v14 : S64x2048.Idx → EReal) (ix2 g k) = onehot g k)
    (t : Fin cfg0.N) :
    (dat0 (F := Ideal) V c).flushed 9 t = ((cfg0.win 9).blk t).view.read (Elt Ideal) (gateUpArr V c) := by
  show (cfg0.win 9).cut (grid0.coords t) ((dat0 (F := Ideal) V c).after 9 t) = _
  rw [after0_9]
  obtain ⟨e90, e91, -⟩ := idx0 t
  funext j
  rw [View.read_apply]
  have hj0 : (j 0).val < 256 := (j 0).isLt
  have hj1 : (j 1).val < 128 := (j 1).isLt
  refine point0' V c hE t _ _ _ ?_ ?_
  · show win0_9.index t (0 : Fin 2) * 256 + 1 * (j 0).val = t.val / 86 * 256 + (j 0).val
    rw [e90]; omega
  · show win0_9.index t (1 : Fin 2) * 128 + 1 * (j 1).val = t.val % 86 * 128 + (j 1).val
    rw [e91]; omega

/-- An index of the output is in point `t`'s block iff each coordinate is in the block's range on its axis. -/
private theorem mem_blk0 (t : Fin cfg0.N) (i : S4096x11008.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v15).slice (win0_9.rect t)).set ↔ _
  rw [View.set_slice_whole, Rect.mem_set_unit]
  exact Iff.rfl

/-- The blocks tile the output: entry `(r, i)` is in the block of point `(r / 256, i / 128)`. -/
private theorem cover0 (i : S4096x11008.Idx) : ∃ t : Fin cfg0.N, (cfg0.win 9).flush t = true ∧ i ∈ ((cfg0.win 9).blk t).view.set := by
  have hi0 : (i 0).val < 4096 := (i 0).isLt
  have hi1 : (i 1).val < 11008 := (i 1).isLt
  have hN : cfg0.N = 1376 := N_0
  obtain ⟨t, ht⟩ : ∃ t : Fin cfg0.N, t.val = (i 0).val / 256 * 86 + (i 1).val / 128 := ⟨⟨_, by rw [hN]; omega⟩, rfl⟩
  obtain ⟨e90, e91, -⟩ := idx0 t
  refine ⟨t, flush0_9 t, ?_⟩
  rw [mem_blk0]
  intro a
  match a with
  | ⟨0, _⟩ =>
    show win0_9.index t (0 : Fin 2) * 256 ≤ (i 0).val ∧ (i 0).val < win0_9.index t (0 : Fin 2) * 256 + 256
    rw [e90, ht]; omega
  | ⟨1, _⟩ =>
    show win0_9.index t (1 : Fin 2) * 128 ≤ (i 1).val ∧ (i 1).val < win0_9.index t (1 : Fin 2) * 128 + 128
    rw [e91, ht]; omega

/-- The gate/up kernel's output array `[4096, 11008]` at `(r, i)`, when the 0/1 matrix it is given is the group matrix. -/
theorem region0_value (c : Dev nD)
    (hE : ∀ (g : Fin 64) (k : Fin 2048), (V c main_v14 : S64x2048.Idx → EReal) (ix2 g k) = onehot g k)
    (r : Fin 4096) (i : Fin 11008) :
    ((dat0 (F := Ideal) V c).arrAt 9 cfg0.N : S4096x11008.Idx → EReal) (ix2 r i)
      = gated
          (dotPacked (fun k : Fin 2048 => (V c main_v3 : S4096x2048.Idx → EReal) (ix2 r k))
            (fun k : Fin 2048 => (V c main_v5 : S4096x2048.Idx → EReal) (ix2 r k))
            (fun k : Fin 2048 => (V c main_arg1 : S11008x2048.Idx → BitVec 32) (ix2 i k))
            (fun g : Fin 64 => (V c main_arg4 : S11008x64.Idx → EReal) (ix2 i g))
            (fun g : Fin 64 => (V c main_arg5 : S11008x64.Idx → EReal) (ix2 i g)) (grpOf (K := 2048) (G := 64) rfl))
          (dotPacked (fun k : Fin 2048 => (V c main_v3 : S4096x2048.Idx → EReal) (ix2 r k))
            (fun k : Fin 2048 => (V c main_v5 : S4096x2048.Idx → EReal) (ix2 r k))
            (fun k : Fin 2048 => (V c main_arg2 : S11008x2048.Idx → BitVec 32) (ix2 i k))
            (fun g : Fin 64 => (V c main_arg6 : S11008x64.Idx → EReal) (ix2 i g))
            (fun g : Fin 64 => (V c main_arg7 : S11008x64.Idx → EReal) (ix2 i g)) (grpOf (K := 2048) (G := 64) rfl)) := by
  have h := (dat0 (F := Ideal) V c).arrAt_eq_of_cover 9 (gateUpArr V c) (fun t _ => flushed0_eq V c hE t) cover0
  exact congrFun h (ix2 r i)

/-! ## The down kernel: `16 × 32` points -/
/-- Entry `(r, n)` of the down projection: row `r` of the hidden activations (even and odd columns apart) against
    packed row `n` of the down weights with its scales and zero points. -/
private def down (c : Dev nD) (r n : Fin 4096) : EReal :=
  dotPacked (fun k : Fin 5504 => (V c main_v18 : S4096x5504.Idx → EReal) (ix2 r k))
    (fun k : Fin 5504 => (V c main_v20 : S4096x5504.Idx → EReal) (ix2 r k))
    (fun k : Fin 5504 => (V c main_arg3 : S4096x5504.Idx → BitVec 32) (ix2 n k))
    (fun g : Fin 172 => (V c main_arg8 : S4096x172.Idx → EReal) (ix2 n g))
    (fun g : Fin 172 => (V c main_arg9 : S4096x172.Idx → EReal) (ix2 n g)) (grpOf (K := 5504) (G := 172) rfl)

/-- The whole output array of the down kernel as one function of its index. -/
private def downArr (c : Dev nD) : S4096x4096.Idx → EReal := fun i => down V c (i 0) (i 1)

/-- The down kernel's index maps, decided over its 512 points: point `t` is `(t / 32, t % 32)`; the activations move
    with the first coordinate, the weights and their parameters with the second, the 0/1 matrix stays. -/
private theorem idx1 : ∀ t : Fin cfg1.N,
    win1_6.index t (0 : Fin 2) = t.val / 32 ∧ win1_6.index t (1 : Fin 2) = t.val % 32
    ∧ win1_0.index t (0 : Fin 2) = t.val / 32 ∧ win1_0.index t (1 : Fin 2) = 0
    ∧ win1_1.index t (0 : Fin 2) = t.val / 32 ∧ win1_1.index t (1 : Fin 2) = 0
    ∧ win1_2.index t (0 : Fin 2) = t.val % 32 ∧ win1_2.index t (1 : Fin 2) = 0
    ∧ win1_3.index t (0 : Fin 2) = t.val % 32 ∧ win1_3.index t (1 : Fin 2) = 0
    ∧ win1_4.index t (0 : Fin 2) = t.val % 32 ∧ win1_4.index t (1 : Fin 2) = 0
    ∧ win1_5.index t (0 : Fin 2) = 0 ∧ win1_5.index t (1 : Fin 2) = 0 :=
  (by decide +kernel : ∀ t : Fin grid1.N, _)

private theorem iblk1_0_apply (c : Dev nD) (t : Fin cfg1.N) (p : Fin 256) (j : Fin 5504) (r : Fin 4096) (k : Fin 5504)
    (h0 : r.val = win1_0.index t (0 : Fin 2) * 256 + p.val)
    (h1 : k.val = win1_0.index t (1 : Fin 2) * 5504 + j.val) :
    (iblk1 (F := Ideal) V c 0 t : Vec Ideal S256x5504 .bf16) (ix2 p j) = (V c main_v18 : S4096x5504.Idx → EReal) (ix2 r k) := by
  unfold iblk1
  rw [View.read_apply]
  show (V c main_v18 : S4096x5504.Idx → EReal) _ = V c main_v18 _
  congr 1
  funext a
  apply Fin.ext
  match a with
  | ⟨0, _⟩ => show win1_0.index t (0 : Fin 2) * 256 + 1 * p.val = r.val; omega
  | ⟨1, _⟩ => show win1_0.index t (1 : Fin 2) * 5504 + 1 * j.val = k.val; omega

private theorem iblk1_1_apply (c : Dev nD) (t : Fin cfg1.N) (p : Fin 256) (j : Fin 5504) (r : Fin 4096) (k : Fin 5504)
    (h0 : r.val = win1_1.index t (0 : Fin 2) * 256 + p.val)
    (h1 : k.val = win1_1.index t (1 : Fin 2) * 5504 + j.val) :
    (iblk1 (F := Ideal) V c 1 t : Vec Ideal S256x5504 .bf16) (ix2 p j) = (V c main_v20 : S4096x5504.Idx → EReal) (ix2 r k) := by
  unfold iblk1
  rw [View.read_apply]
  show (V c main_v20 : S4096x5504.Idx → EReal) _ = V c main_v20 _
  congr 1
  funext a
  apply Fin.ext
  match a with
  | ⟨0, _⟩ => show win1_1.index t (0 : Fin 2) * 256 + 1 * p.val = r.val; omega
  | ⟨1, _⟩ => show win1_1.index t (1 : Fin 2) * 5504 + 1 * j.val = k.val; omega

private theorem iblk1_2_apply (c : Dev nD) (t : Fin cfg1.N) (p : Fin 128) (j : Fin 5504) (r : Fin 4096) (k : Fin 5504)
    (h0 : r.val = win1_2.index t (0 : Fin 2) * 128 + p.val)
    (h1 : k.val = win1_2.index t (1 : Fin 2) * 5504 + j.val) :
    (iblk1 (F := Ideal) V c 2 t : Vec Ideal S128x5504 .i32) (ix2 p j) = (V c main_arg3 : S4096x5504.Idx → BitVec 32) (ix2 r k) := by
  unfold iblk1
  rw [View.read_apply]
  show (V c main_arg3 : S4096x5504.Idx → BitVec 32) _ = V c main_arg3 _
  congr 1
  funext a
  apply Fin.ext
  match a with
  | ⟨0, _⟩ => show win1_2.index t (0 : Fin 2) * 128 + 1 * p.val = r.val; omega
  | ⟨1, _⟩ => show win1_2.index t (1 : Fin 2) * 5504 + 1 * j.val = k.val; omega

private theorem iblk1_3_apply (c : Dev nD) (t : Fin cfg1.N) (p : Fin 128) (j : Fin 172) (r : Fin 4096) (k : Fin 172)
    (h0 : r.val = win1_3.index t (0 : Fin 2) * 128 + p.val)
    (h1 : k.val = win1_3.index t (1 : Fin 2) * 172 + j.val) :
    (iblk1 (F := Ideal) V c 3 t : Vec Ideal S128x172 .f32) (ix2 p j) = (V c main_arg8 : S4096x172.Idx → EReal) (ix2 r k) := by
  unfold iblk1
  rw [View.read_apply]
  show (V c main_arg8 : S4096x172.Idx → EReal) _ = V c main_arg8 _
  congr 1
  funext a
  apply Fin.ext
  match a with
  | ⟨0, _⟩ => show win1_3.index t (0 : Fin 2) * 128 + 1 * p.val = r.val; omega
  | ⟨1, _⟩ => show win1_3.index t (1 : Fin 2) * 172 + 1 * j.val = k.val; omega

private theorem iblk1_4_apply (c : Dev nD) (t : Fin cfg1.N) (p : Fin 128) (j : Fin 172) (r : Fin 4096) (k : Fin 172)
    (h0 : r.val = win1_4.index t (0 : Fin 2) * 128 + p.val)
    (h1 : k.val = win1_4.index t (1 : Fin 2) * 172 + j.val) :
    (iblk1 (F := Ideal) V c 4 t : Vec Ideal S128x172 .f32) (ix2 p j) = (V c main_arg9 : S4096x172.Idx → EReal) (ix2 r k) := by
  unfold iblk1
  rw [View.read_apply]
  show (V c main_arg9 : S4096x172.Idx → EReal) _ = V c main_arg9 _
  congr 1
  funext a
  apply Fin.ext
  match a with
  | ⟨0, _⟩ => show win1_4.index t (0 : Fin 2) * 128 + 1 * p.val = r.val; omega
  | ⟨1, _⟩ => show win1_4.index t (1 : Fin 2) * 172 + 1 * j.val = k.val; omega

private theorem iblk1_5_apply (c : Dev nD) (t : Fin cfg1.N) (p : Fin 172) (j : Fin 5504) (r : Fin 172) (k : Fin 5504)
    (h0 : r.val = win1_5.index t (0 : Fin 2) * 172 + p.val)
    (h1 : k.val = win1_5.index t (1 : Fin 2) * 5504 + j.val) :
    (iblk1 (F := Ideal) V c 5 t : Vec Ideal S172x5504 .f32) (ix2 p j) = (V c main_v29 : S172x5504.Idx → EReal) (ix2 r k) := by
  unfold iblk1
  rw [View.read_apply]
  show (V c main_v29 : S172x5504.Idx → EReal) _ = V c main_v29 _
  congr 1
  funext a
  apply Fin.ext
  match a with
  | ⟨0, _⟩ => show win1_5.index t (0 : Fin 2) * 172 + 1 * p.val = r.val; omega
  | ⟨1, _⟩ => show win1_5.index t (1 : Fin 2) * 5504 + 1 * j.val = k.val; omega

/-- The body's entry `(p, n)` at point `t` is the down projection at row `(t / 32) · 256 + p`, column `(t % 32) · 128 + n`. -/
private theorem point1 (c : Dev nD)
    (hE : ∀ (g : Fin 172) (k : Fin 5504), (V c main_v29 : S172x5504.Idx → EReal) (ix2 g k) = onehot g k)
    (t : Fin cfg1.N) (p : Fin 256) (n : Fin 128) (r i : Fin 4096)
    (hr : r.val = t.val / 32 * 256 + p.val) (hi : i.val = t.val % 32 * 128 + n.val) :
    out1_6 (F := Ideal) (iblk1 V c 0 t) (iblk1 V c 1 t) (iblk1 V c 2 t) (iblk1 V c 3 t) (iblk1 V c 4 t) (iblk1 V c 5 t) (ix2 p n)
      = down V c r i := by
  obtain ⟨e60, e61, e00, e01, e10, e11, e20, e21, e30, e31, e40, e41, e50, e51⟩ := idx1 t
  have hE' : ∀ (g : Fin 172) (k : Fin 5504), (iblk1 (F := Ideal) V c 5 t : Vec Ideal S172x5504 .f32) (ix2 g k) = onehot g k := fun g k =>
    (iblk1_5_apply V c t g k g k (by rw [e50]; omega) (by rw [e51]; omega)).trans (hE g k)
  refine (DownBody.out1_6_apply _ _ _ _ _ _ hE' p n).trans ?_
  have h0 : (fun k : Fin 5504 => (iblk1 (F := Ideal) V c 0 t : Vec Ideal S256x5504 .bf16) (ix2 p k))
      = fun k : Fin 5504 => (V c main_v18 : S4096x5504.Idx → EReal) (ix2 r k) := funext fun k =>
    iblk1_0_apply V c t p k r k (by rw [e00]; omega) (by rw [e01]; omega)
  have h1 : (fun k : Fin 5504 => (iblk1 (F := Ideal) V c 1 t : Vec Ideal S256x5504 .bf16) (ix2 p k))
      = fun k : Fin 5504 => (V c main_v20 : S4096x5504.Idx → EReal) (ix2 r k) := funext fun k =>
    iblk1_1_apply V c t p k r k (by rw [e10]; omega) (by rw [e11]; omega)
  have h2 : (fun k : Fin 5504 => (iblk1 (F := Ideal) V c 2 t : Vec Ideal S128x5504 .i32) (ix2 n k))
      = fun k : Fin 5504 => (V c main_arg3 : S4096x5504.Idx → BitVec 32) (ix2 i k) := funext fun k =>
    iblk1_2_apply V c t n k i k (by rw [e20]; omega) (by rw [e21]; omega)
  have h3 : (fun g : Fin 172 => (iblk1 (F := Ideal) V c 3 t : Vec Ideal S128x172 .f32) (ix2 n g))
      = fun g : Fin 172 => (V c main_arg8 : S4096x172.Idx → EReal) (ix2 i g) := funext fun g =>
    iblk1_3_apply V c t n g i g (by rw [e30]; omega) (by rw [e31]; omega)
  have h4 : (fun g : Fin 172 => (iblk1 (F := Ideal) V c 4 t : Vec Ideal S128x172 .f32) (ix2 n g))
      = fun g : Fin 172 => (V c main_arg9 : S4096x172.Idx → EReal) (ix2 i g) := funext fun g =>
    iblk1_4_apply V c t n g i g (by rw [e40]; omega) (by rw [e41]; omega)
  unfold down
  rw [h0, h1, h2, h3, h4]

/-- The same at any index `y` of the block. -/
private theorem point1' (c : Dev nD)
    (hE : ∀ (g : Fin 172) (k : Fin 5504), (V c main_v29 : S172x5504.Idx → EReal) (ix2 g k) = onehot g k)
    (t : Fin cfg1.N) (y : S256x128.Idx) (r i : Fin 4096)
    (hr : r.val = t.val / 32 * 256 + (y 0).val) (hi : i.val = t.val % 32 * 128 + (y 1).val) :
    out1_6 (F := Ideal) (iblk1 V c 0 t) (iblk1 V c 1 t) (iblk1 V c 2 t) (iblk1 V c 3 t) (iblk1 V c 4 t) (iblk1 V c 5 t) y
      = down V c r i :=
  (congrArg (out1_6 (F := Ideal) (iblk1 V c 0 t) (iblk1 V c 1 t) (iblk1 V c 2 t) (iblk1 V c 3 t) (iblk1 V c 4 t) (iblk1 V c 5 t)) (eq_ix2 y)).trans
    (point1 V c hE t (y 0) (y 1) r i hr hi)

/-- What point `t` writes back is its block of the one whole-array function. -/
private theorem flushed1_eq (c : Dev nD)
    (hE : ∀ (g : Fin 172) (k : Fin 5504), (V c main_v29 : S172x5504.Idx → EReal) (ix2 g k) = onehot g k)
    (t : Fin cfg1.N) :
    (dat1 (F := Ideal) V c).flushed 6 t = ((cfg1.win 6).blk t).view.read (Elt Ideal) (downArr V c) := by
  show (cfg1.win 6).cut (grid1.coords t) ((dat1 (F := Ideal) V c).after 6 t) = _
  rw [after1_6]
  obtain ⟨e60, e61, -⟩ := idx1 t
  funext j
  rw [View.read_apply]
  have hj0 : (j 0).val < 256 := (j 0).isLt
  have hj1 : (j 1).val < 128 := (j 1).isLt
  refine point1' V c hE t _ _ _ ?_ ?_
  · show win1_6.index t (0 : Fin 2) * 256 + 1 * (j 0).val = t.val / 32 * 256 + (j 0).val
    rw [e60]; omega
  · show win1_6.index t (1 : Fin 2) * 128 + 1 * (j 1).val = t.val % 32 * 128 + (j 1).val
    rw [e61]; omega

/-- An index of the output is in point `t`'s block iff each coordinate is in the block's range on its axis. -/
private theorem mem_blk1 (t : Fin cfg1.N) (i : S4096x4096.Idx) :
    i ∈ ((cfg1.win 6).blk t).view.set ↔ ∀ a : Fin 2, win1_6.index t a * S256x128.size a ≤ (i a).val ∧ (i a).val < win1_6.index t a * S256x128.size a + S256x128.size a := by
  show i ∈ ((View.whole main_v30).slice (win1_6.rect t)).set ↔ _
  rw [View.set_slice_whole, Rect.mem_set_unit]
  exact Iff.rfl

/-- The blocks tile the output: entry `(r, n)` is in the block of point `(r / 256, n / 128)`. -/
private theorem cover1 (i : S4096x4096.Idx) : ∃ t : Fin cfg1.N, (cfg1.win 6).flush t = true ∧ i ∈ ((cfg1.win 6).blk t).view.set := by
  have hi0 : (i 0).val < 4096 := (i 0).isLt
  have hi1 : (i 1).val < 4096 := (i 1).isLt
  have hN : cfg1.N = 512 := N_1
  obtain ⟨t, ht⟩ : ∃ t : Fin cfg1.N, t.val = (i 0).val / 256 * 32 + (i 1).val / 128 := ⟨⟨_, by rw [hN]; omega⟩, rfl⟩
  obtain ⟨e60, e61, -⟩ := idx1 t
  refine ⟨t, flush1_6 t, ?_⟩
  rw [mem_blk1]
  intro a
  match a with
  | ⟨0, _⟩ =>
    show win1_6.index t (0 : Fin 2) * 256 ≤ (i 0).val ∧ (i 0).val < win1_6.index t (0 : Fin 2) * 256 + 256
    rw [e60, ht]; omega
  | ⟨1, _⟩ =>
    show win1_6.index t (1 : Fin 2) * 128 ≤ (i 1).val ∧ (i 1).val < win1_6.index t (1 : Fin 2) * 128 + 128
    rw [e61, ht]; omega

/-- The down kernel's output array `[4096, 4096]` at `(r, n)`, when the 0/1 matrix it is given is the group matrix. -/
theorem region1_value (c : Dev nD)
    (hE : ∀ (g : Fin 172) (k : Fin 5504), (V c main_v29 : S172x5504.Idx → EReal) (ix2 g k) = onehot g k)
    (r : Fin 4096) (n : Fin 4096) :
    ((dat1 (F := Ideal) V c).arrAt 6 cfg1.N : S4096x4096.Idx → EReal) (ix2 r n)
      = dotPacked (fun k : Fin 5504 => (V c main_v18 : S4096x5504.Idx → EReal) (ix2 r k))
          (fun k : Fin 5504 => (V c main_v20 : S4096x5504.Idx → EReal) (ix2 r k))
          (fun k : Fin 5504 => (V c main_arg3 : S4096x5504.Idx → BitVec 32) (ix2 n k))
          (fun g : Fin 172 => (V c main_arg8 : S4096x172.Idx → EReal) (ix2 n g))
          (fun g : Fin 172 => (V c main_arg9 : S4096x172.Idx → EReal) (ix2 n g)) (grpOf (K := 5504) (G := 172) rfl) := by
  have h := (dat1 (F := Ideal) V c).arrAt_eq_of_cover 6 (downArr V c) (fun t _ => flushed1_eq V c hE t) cover1
  exact congrFun h (ix2 r n)

end Cert.KernelIdeal.Blocks

end
-- ==== Proof.Slices.lean ====
/-
  What the two kernels are given besides the group matrices: the de-interleaved activations and the untouched arguments.

  Before the gate/up kernel, @main flattens `x : [4, 1024, 4096]` to `[4096, 4096]`, views it as `[4096, 2048, 2]` and
  slices the last axis: the even columns (`x_even (r, k) = x (r, 2k)`) and the odd ones (`x (r, 2k + 1)`). Between the
  kernels it does the same to the first kernel's output `[4096, 11008]`. The weight words, scales and zero points are
  the program's arguments, which no host operation and no kernel writes.

  A reshape keeps the row-major position of every entry, and the cut `[.., .., p : p + 1]` of a last axis of length two
  keeps position `p` of each pair. So entry `(r, k)` of the sliced array sits at row-major position `(r K + k) 2 + p`
  of the `[R, K, 2]` view, which is position `r (2K) + (2k + p)` of the `[R, 2K]` array: its entry `(r, 2k + p)`
  (`deinterleave`). For the activations one more reshape sits underneath: row `r` of the flattened array is batch
  `r / 1024`, position `r % 1024` (`flat_read`). Each buffer is read back through the stretches of host operations
  that do not write it (`untouched`), down to the stretch that does, or to the launch memory.
-/
import proofs.«403345_j16587163697454_2_alg».proof.Proof.Gen.KernelIdeal.Frame
import proofs.«403345_j16587163697454_2_alg».proof.Proof.Spec
import Idealize.ShloMosaic.Lib.StableHlo.Run
import Idealize.ShloMosaic.Lib.Pipeline.Value

set_option maxRecDepth 16384

noncomputable section

namespace Cert.KernelIdeal.Slices

open Cert.KernelIdeal Cert.KernelIdeal.Gen Cert.QuantMlp Idealize.ShloMosaic Idealize.ShloMosaic.TcCoe Idealize.ShloMosaic.ValueIdx Idealize.SL.Sem

variable (m : (ℓ : Loc nD τ sig) → Buf (Elt Ideal) ℓ) (ρ : Dev nD → PrngReg)

/-- A buffer that no operation of a stretch of host operations writes holds after the stretch what it held before:
    each operation writes its one result buffer, and that buffer is another one. -/
local macro "untouched " b:term : tactic => `(tactic| (
  refine StableHlo.after_of_forall_not_mem (b := Proc.devRef .tc $b) _ _ (List.forall_iff_forall_mem.mp ?_)
  simp only [hostOps0, hostOps0_1, hostOps0_2, hostOps1, hostOps1_1, hostOps1_2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-- An array `[R, D]` with `D = 2K` viewed as `[R, K, 2]`, cut at position `p` of the last axis and viewed as `[R, K]`,
    holds at `(r, k)` the array's entry `(r, 2k + p)`: the two reshapes keep the row-major position, and the cut picks
    position `p` of each pair. -/
private theorem deinterleave {α : Type} {R D K : ℕ} (p : ℕ) (hp : p < 2) (hD : D = 2 * K)
    (y : (⟨2, ![R, D]⟩ : Shape).Idx → α)
    (h1 : (⟨2, ![R, D]⟩ : Shape).ShapeCasts ⟨3, ![R, K, 2]⟩)
    (h2 : (⟨3, ![R, K, 2]⟩ : Shape).Slices ![0, 0, p] ⟨3, ![R, K, 1]⟩)
    (h3 : (⟨3, ![R, K, 1]⟩ : Shape).ShapeCasts ⟨2, ![R, K]⟩) (r : Fin R) (k : Fin K) :
    shapeCast ⟨2, ![R, K]⟩ (extractStridedSlice ⟨3, ![R, K, 1]⟩ ![0, 0, p] (shapeCast ⟨3, ![R, K, 2]⟩ y h1) h2) h3 (ix2 r k)
      = y (ix2 r ⟨2 * k.val + p, by have := k.isLt; omega⟩) := by
  -- dropping the unit axis: `(r, k)` of `[R, K]` is `(r, k, 0)` of `[R, K, 1]`
  refine (shapeCast_apply _ h3 (ix2 r k) (ix3 r k (0 : Fin 1)) ?_).trans ?_
  · rw [Shape.rowMajor_val_three, Shape.rowMajor_val_two]
    show (r.val * K + k.val) * 1 + 0 = r.val * K + k.val
    omega
  -- the cut: `(r, k, 0)` of the slice is `(r, k, p)` of `[R, K, 2]`
  refine (extractStridedSlice_apply _ _ h2 (ix3 r k (0 : Fin 1)) (ix3 r k (⟨p, hp⟩ : Fin 2)) (fun ax => ?_)).trans ?_
  · match ax with
    | ⟨0, _⟩ => exact (Nat.zero_add _).symm
    | ⟨1, _⟩ => exact (Nat.zero_add _).symm
    | ⟨2, _⟩ => exact (Nat.add_zero _).symm
  -- pairing the columns: `(r, k, p)` of `[R, K, 2]` is `(r, 2k + p)` of `[R, 2K]`
  refine shapeCast_apply y h1 (ix3 r k (⟨p, hp⟩ : Fin 2)) (ix2 r ⟨2 * k.val + p, by have := k.isLt; omega⟩) ?_
  rw [Shape.rowMajor_val_two, Shape.rowMajor_val_three]
  show r.val * D + (2 * k.val + p) = (r.val * K + k.val) * 2 + p
  subst hD; ring

/-- The activations with the two leading axes merged: row `r` is batch `r / 1024`, position `r % 1024`. -/
private theorem flat_read (x : S4x1024x4096.Idx → EReal) (r j : Fin 4096) :
    shapeCast S4096x4096 x shapeCasts_S4x1024x4096_S4096x4096 (ix2 r j) = xflat x r j := by
  unfold xflat
  refine shapeCast_apply x _ (ix2 r j)
    (ix3 (⟨r.val / 1024, by have := r.isLt; omega⟩ : Fin 4) (⟨r.val % 1024, Nat.mod_lt _ (by decide)⟩ : Fin 1024) j) ?_
  rw [Shape.rowMajor_val_three, Shape.rowMajor_val_two]
  show (r.val / 1024 * 1024 + r.val % 1024) * 4096 + j.val = r.val * 4096 + j.val
  omega

/-- The even activation columns the gate/up kernel reads. -/
theorem V3_xeven (c : Dev nD) (r : Fin 4096) (k : Fin 2048) :
    (V3 (F := Ideal) m ρ c main_v3 : S4096x2048.Idx → EReal) (ix2 r k)
      = xflat (m ((c : Thread nD τ).loc main_arg0)) r ⟨2 * k.val, by have := k.isLt; omega⟩ := by
  -- the two later stretches of host operations build the group matrix and do not write this buffer
  have e0 : V3 (F := Ideal) m ρ c main_v3 = W1 (F := Ideal) m ρ c (Proc.devRef .tc main_v3) :=
    calc V3 (F := Ideal) m ρ c main_v3
      _ = W2 (F := Ideal) m ρ c (Proc.devRef .tc main_v3) := by untouched main_v3
      _ = W1 (F := Ideal) m ρ c (Proc.devRef .tc main_v3) := by untouched main_v3
  -- the first stretch writes it: flatten, pair the columns, cut, drop the unit axis
  have e1 : (W1 (F := Ideal) m ρ c (Proc.devRef .tc main_v3) : S4096x2048.Idx → EReal)
      = shapeCast S4096x2048 (extractStridedSlice S4096x2048x1 ![0, 0, 0]
          (shapeCast S4096x2048x2 (shapeCast S4096x4096 (m ((c : Thread nD τ).loc main_arg0) : S4x1024x4096.Idx → EReal)
            shapeCasts_S4x1024x4096_S4096x4096) shapeCasts_S4096x4096_S4096x2048x2)
          slices_S4096x2048x2_S4096x2048x1_0_0_0) shapeCasts_S4096x2048x1_S4096x2048 := by
    dsimp only [W1, hostOps0]; after_results; rfl
  refine (congrFun (e0.trans e1) (ix2 r k)).trans ?_
  refine (deinterleave 0 (by decide) rfl _ _ _ _ r k).trans ?_
  exact flat_read _ r _
/-- The odd activation columns the gate/up kernel reads. -/
theorem V3_xodd (c : Dev nD) (r : Fin 4096) (k : Fin 2048) :
    (V3 (F := Ideal) m ρ c main_v5 : S4096x2048.Idx → EReal) (ix2 r k)
      = xflat (m ((c : Thread nD τ).loc main_arg0)) r ⟨2 * k.val + 1, by have := k.isLt; omega⟩ := by
  -- the two later stretches of host operations build the group matrix and do not write this buffer
  have e0 : V3 (F := Ideal) m ρ c main_v5 = W1 (F := Ideal) m ρ c (Proc.devRef .tc main_v5) :=
    calc V3 (F := Ideal) m ρ c main_v5
      _ = W2 (F := Ideal) m ρ c (Proc.devRef .tc main_v5) := by untouched main_v5
      _ = W1 (F := Ideal) m ρ c (Proc.devRef .tc main_v5) := by untouched main_v5
  -- the first stretch writes it: flatten, pair the columns, cut, drop the unit axis
  have e1 : (W1 (F := Ideal) m ρ c (Proc.devRef .tc main_v5) : S4096x2048.Idx → EReal)
      = shapeCast S4096x2048 (extractStridedSlice S4096x2048x1 ![0, 0, 1]
          (shapeCast S4096x2048x2 (shapeCast S4096x4096 (m ((c : Thread nD τ).loc main_arg0) : S4x1024x4096.Idx → EReal)
            shapeCasts_S4x1024x4096_S4096x4096) shapeCasts_S4096x4096_S4096x2048x2)
          slices_S4096x2048x2_S4096x2048x1_0_0_1) shapeCasts_S4096x2048x1_S4096x2048 := by
    dsimp only [W1, hostOps0]; after_results; rfl
  refine (congrFun (e0.trans e1) (ix2 r k)).trans ?_
  refine (deinterleave 1 (by decide) rfl _ _ _ _ r k).trans ?_
  exact flat_read _ r _
/-- The arguments the gate/up kernel reads are as launched. -/
theorem V3_arg1 (c : Dev nD) : V3 (F := Ideal) m ρ c main_arg1 = m ((c : Thread nD τ).loc main_arg1) :=
  calc V3 (F := Ideal) m ρ c main_arg1
    _ = W2 (F := Ideal) m ρ c (Proc.devRef .tc main_arg1) := by untouched main_arg1
    _ = W1 (F := Ideal) m ρ c (Proc.devRef .tc main_arg1) := by untouched main_arg1
    _ = W0 (F := Ideal) m ρ c (Proc.devRef .tc main_arg1) := by untouched main_arg1
    _ = m ((c : Thread nD τ).loc main_arg1) := rfl
theorem V3_arg2 (c : Dev nD) : V3 (F := Ideal) m ρ c main_arg2 = m ((c : Thread nD τ).loc main_arg2) :=
  calc V3 (F := Ideal) m ρ c main_arg2
    _ = W2 (F := Ideal) m ρ c (Proc.devRef .tc main_arg2) := by untouched main_arg2
    _ = W1 (F := Ideal) m ρ c (Proc.devRef .tc main_arg2) := by untouched main_arg2
    _ = W0 (F := Ideal) m ρ c (Proc.devRef .tc main_arg2) := by untouched main_arg2
    _ = m ((c : Thread nD τ).loc main_arg2) := rfl
theorem V3_arg4 (c : Dev nD) : V3 (F := Ideal) m ρ c main_arg4 = m ((c : Thread nD τ).loc main_arg4) :=
  calc V3 (F := Ideal) m ρ c main_arg4
    _ = W2 (F := Ideal) m ρ c (Proc.devRef .tc main_arg4) := by untouched main_arg4
    _ = W1 (F := Ideal) m ρ c (Proc.devRef .tc main_arg4) := by untouched main_arg4
    _ = W0 (F := Ideal) m ρ c (Proc.devRef .tc main_arg4) := by untouched main_arg4
    _ = m ((c : Thread nD τ).loc main_arg4) := rfl
theorem V3_arg5 (c : Dev nD) : V3 (F := Ideal) m ρ c main_arg5 = m ((c : Thread nD τ).loc main_arg5) :=
  calc V3 (F := Ideal) m ρ c main_arg5
    _ = W2 (F := Ideal) m ρ c (Proc.devRef .tc main_arg5) := by untouched main_arg5
    _ = W1 (F := Ideal) m ρ c (Proc.devRef .tc main_arg5) := by untouched main_arg5
    _ = W0 (F := Ideal) m ρ c (Proc.devRef .tc main_arg5) := by untouched main_arg5
    _ = m ((c : Thread nD τ).loc main_arg5) := rfl
theorem V3_arg6 (c : Dev nD) : V3 (F := Ideal) m ρ c main_arg6 = m ((c : Thread nD τ).loc main_arg6) :=
  calc V3 (F := Ideal) m ρ c main_arg6
    _ = W2 (F := Ideal) m ρ c (Proc.devRef .tc main_arg6) := by untouched main_arg6
    _ = W1 (F := Ideal) m ρ c (Proc.devRef .tc main_arg6) := by untouched main_arg6
    _ = W0 (F := Ideal) m ρ c (Proc.devRef .tc main_arg6) := by untouched main_arg6
    _ = m ((c : Thread nD τ).loc main_arg6) := rfl
theorem V3_arg7 (c : Dev nD) : V3 (F := Ideal) m ρ c main_arg7 = m ((c : Thread nD τ).loc main_arg7) :=
  calc V3 (F := Ideal) m ρ c main_arg7
    _ = W2 (F := Ideal) m ρ c (Proc.devRef .tc main_arg7) := by untouched main_arg7
    _ = W1 (F := Ideal) m ρ c (Proc.devRef .tc main_arg7) := by untouched main_arg7
    _ = W0 (F := Ideal) m ρ c (Proc.devRef .tc main_arg7) := by untouched main_arg7
    _ = m ((c : Thread nD τ).loc main_arg7) := rfl

/-- The even hidden columns the down kernel reads, from the first kernel's output array. -/
theorem V7_heven (c : Dev nD) (r : Fin 4096) (k : Fin 5504) :
    (V7 (F := Ideal) m ρ c main_v18 : S4096x5504.Idx → EReal) (ix2 r k)
      = (V4 (F := Ideal) m ρ c main_v15 : S4096x11008.Idx → EReal) (ix2 r ⟨2 * k.val, by have := k.isLt; omega⟩) := by
  -- the two later stretches of host operations build the group matrix and do not write this buffer
  have e0 : V7 (F := Ideal) m ρ c main_v18 = W5 (F := Ideal) m ρ c (Proc.devRef .tc main_v18) :=
    calc V7 (F := Ideal) m ρ c main_v18
      _ = W6 (F := Ideal) m ρ c (Proc.devRef .tc main_v18) := by untouched main_v18
      _ = W5 (F := Ideal) m ρ c (Proc.devRef .tc main_v18) := by untouched main_v18
  -- the first stretch after the gate/up kernel writes it from that kernel's output: pair the columns, cut, drop the unit axis
  have e1 : (W5 (F := Ideal) m ρ c (Proc.devRef .tc main_v18) : S4096x5504.Idx → EReal)
      = shapeCast S4096x5504 (extractStridedSlice S4096x5504x1 ![0, 0, 0]
          (shapeCast S4096x5504x2 (V4 (F := Ideal) m ρ c main_v15 : S4096x11008.Idx → EReal) shapeCasts_S4096x11008_S4096x5504x2)
          slices_S4096x5504x2_S4096x5504x1_0_0_0) shapeCasts_S4096x5504x1_S4096x5504 := by
    dsimp only [W5, hostOps1]; after_results; rfl
  refine (congrFun (e0.trans e1) (ix2 r k)).trans ?_
  exact deinterleave 0 (by decide) rfl _ _ _ _ r k
/-- The odd hidden columns the down kernel reads. -/
theorem V7_hodd (c : Dev nD) (r : Fin 4096) (k : Fin 5504) :
    (V7 (F := Ideal) m ρ c main_v20 : S4096x5504.Idx → EReal) (ix2 r k)
      = (V4 (F := Ideal) m ρ c main_v15 : S4096x11008.Idx → EReal) (ix2 r ⟨2 * k.val + 1, by have := k.isLt; omega⟩) := by
  -- the two later stretches of host operations build the group matrix and do not write this buffer
  have e0 : V7 (F := Ideal) m ρ c main_v20 = W5 (F := Ideal) m ρ c (Proc.devRef .tc main_v20) :=
    calc V7 (F := Ideal) m ρ c main_v20
      _ = W6 (F := Ideal) m ρ c (Proc.devRef .tc main_v20) := by untouched main_v20
      _ = W5 (F := Ideal) m ρ c (Proc.devRef .tc main_v20) := by untouched main_v20
  -- the first stretch after the gate/up kernel writes it from that kernel's output: pair the columns, cut, drop the unit axis
  have e1 : (W5 (F := Ideal) m ρ c (Proc.devRef .tc main_v20) : S4096x5504.Idx → EReal)
      = shapeCast S4096x5504 (extractStridedSlice S4096x5504x1 ![0, 0, 1]
          (shapeCast S4096x5504x2 (V4 (F := Ideal) m ρ c main_v15 : S4096x11008.Idx → EReal) shapeCasts_S4096x11008_S4096x5504x2)
          slices_S4096x5504x2_S4096x5504x1_0_0_1) shapeCasts_S4096x5504x1_S4096x5504 := by
    dsimp only [W5, hostOps1]; after_results; rfl
  refine (congrFun (e0.trans e1) (ix2 r k)).trans ?_
  exact deinterleave 1 (by decide) rfl _ _ _ _ r k
/-- The arguments the down kernel reads are as launched: the gate/up kernel's windows do not hold them. -/
theorem V7_arg3 (c : Dev nD) : V7 (F := Ideal) m ρ c main_arg3 = m ((c : Thread nD τ).loc main_arg3) :=
  calc V7 (F := Ideal) m ρ c main_arg3
    _ = W6 (F := Ideal) m ρ c (Proc.devRef .tc main_arg3) := by untouched main_arg3
    _ = W5 (F := Ideal) m ρ c (Proc.devRef .tc main_arg3) := by untouched main_arg3
    _ = W4 (F := Ideal) m ρ c (Proc.devRef .tc main_arg3) := by untouched main_arg3
    _ = W3 (F := Ideal) m ρ c (Proc.devRef .tc main_arg3) := W4_of_ne m ρ c main_arg3 (by decide)
    _ = W2 (F := Ideal) m ρ c (Proc.devRef .tc main_arg3) := by untouched main_arg3
    _ = W1 (F := Ideal) m ρ c (Proc.devRef .tc main_arg3) := by untouched main_arg3
    _ = W0 (F := Ideal) m ρ c (Proc.devRef .tc main_arg3) := by untouched main_arg3
    _ = m ((c : Thread nD τ).loc main_arg3) := rfl
theorem V7_arg8 (c : Dev nD) : V7 (F := Ideal) m ρ c main_arg8 = m ((c : Thread nD τ).loc main_arg8) :=
  calc V7 (F := Ideal) m ρ c main_arg8
    _ = W6 (F := Ideal) m ρ c (Proc.devRef .tc main_arg8) := by untouched main_arg8
    _ = W5 (F := Ideal) m ρ c (Proc.devRef .tc main_arg8) := by untouched main_arg8
    _ = W4 (F := Ideal) m ρ c (Proc.devRef .tc main_arg8) := by untouched main_arg8
    _ = W3 (F := Ideal) m ρ c (Proc.devRef .tc main_arg8) := W4_of_ne m ρ c main_arg8 (by decide)
    _ = W2 (F := Ideal) m ρ c (Proc.devRef .tc main_arg8) := by untouched main_arg8
    _ = W1 (F := Ideal) m ρ c (Proc.devRef .tc main_arg8) := by untouched main_arg8
    _ = W0 (F := Ideal) m ρ c (Proc.devRef .tc main_arg8) := by untouched main_arg8
    _ = m ((c : Thread nD τ).loc main_arg8) := rfl
theorem V7_arg9 (c : Dev nD) : V7 (F := Ideal) m ρ c main_arg9 = m ((c : Thread nD τ).loc main_arg9) :=
  calc V7 (F := Ideal) m ρ c main_arg9
    _ = W6 (F := Ideal) m ρ c (Proc.devRef .tc main_arg9) := by untouched main_arg9
    _ = W5 (F := Ideal) m ρ c (Proc.devRef .tc main_arg9) := by untouched main_arg9
    _ = W4 (F := Ideal) m ρ c (Proc.devRef .tc main_arg9) := by untouched main_arg9
    _ = W3 (F := Ideal) m ρ c (Proc.devRef .tc main_arg9) := W4_of_ne m ρ c main_arg9 (by decide)
    _ = W2 (F := Ideal) m ρ c (Proc.devRef .tc main_arg9) := by untouched main_arg9
    _ = W1 (F := Ideal) m ρ c (Proc.devRef .tc main_arg9) := by untouched main_arg9
    _ = W0 (F := Ideal) m ρ c (Proc.devRef .tc main_arg9) := by untouched main_arg9
    _ = m ((c : Thread nD τ).loc main_arg9) := rfl

end Cert.KernelIdeal.Slices

end
-- ==== Proof.GroupMatrix.lean ====
/-
  The 0/1 group matrices the program builds on the host before each kernel.

  Before a kernel with `K` packed columns and `G = K / 32` groups, @main computes `iota K // 32` (jnp's floor division:
  the truncating quotient, corrected by one where the signs differ and the remainder is not zero, which never happens
  for a non-negative dividend and the divisor 32), lays it along the columns, lays `iota G` along the rows, compares for
  equality and converts the bit to a float. Entry `(g, k)` is therefore `1` when `k / 32 = g` and `0` otherwise: the
  specification's `onehot`. All words involved are below `2 ^ 31`, so the 32-bit arithmetic is the arithmetic of ℕ.

  The proof follows the three host segments in order, each read over an ARBITRARY valuation of the buffers (so that no
  segment's fold is ever evaluated through the one before it): the first leaves `iota K` and the constant 32; the second
  is the floor-division chain `floorDivV` of whatever the two buffers hold; the third is the comparison matrix `grpMat` of
  whatever the quotient buffer holds. Two facts about words carry the arithmetic, each stated once for both kernels:
  the floor-division chain at the word of `k < 2 ^ 31` and the divisor 32 is the word of `k / 32` (the correction's
  condition is false: zero leaves remainder zero, and a positive word has the sign of 32), and the equality bit of the
  words of two numbers below `2 ^ 32`, converted to a float, is `1` when the numbers are equal and `0` otherwise.
-/
import proofs.«403345_j16587163697454_2_alg».proof.Proof.Gen.KernelIdeal.Frame
import proofs.«403345_j16587163697454_2_alg».proof.Proof.Spec
import Idealize.ShloMosaic.Lib.StableHlo.Run
import Idealize.ShloMosaic.Lib.StableHlo.Predicate
import Idealize.ShloMosaic.Lib.Pipeline.Value

set_option maxRecDepth 16384

noncomputable section

namespace Cert.KernelIdeal.GroupMatrix

open Cert.KernelIdeal Cert.KernelIdeal.Gen Cert.QuantMlp Idealize.ShloMosaic Idealize.ShloMosaic.TcCoe Idealize.ShloMosaic.ValueIdx Idealize.SL.Sem
open Idealize.ShloMosaic.StableHlo.Predicate

variable (m : (ℓ : Loc nD τ sig) → Buf (Elt Ideal) ℓ) (ρ : Dev nD → PrngReg)

/-! ## Words -/

/-- Signed division of a word below 2³¹ by 32 meets no corner and is the division of ℕ. -/
private theorem divsi_32 (a : BitVec 32) (ha : a.toNat < 2 ^ 31) :
    IntOp.divsi .host a 32#32 = BitVec.ofNat 32 (a.toNat / 32) := by
  have hcorner : ¬ IntOp.SDivCorner a 32#32 := by
    intro hc; rcases hc with hc | ⟨_, hc⟩ <;> exact absurd hc (by decide)
  have hm : a.msb = false := BitVec.msb_eq_false_iff_two_mul_lt.mpr (by omega)
  apply BitVec.eq_of_toNat_eq
  simp only [IntOp.divsi, if_neg hcorner, BitVec.sdiv_eq, hm, show (32#32 : BitVec 32).msb = false from by decide,
    BitVec.udiv_eq, BitVec.toNat_udiv, BitVec.toNat_ofNat, Nat.reducePow, Nat.reduceMod]
  omega

/-- jnp's floor division by 32 of a word below 2³¹: the correction never applies (zero has remainder zero, a positive
    word has the divisor's sign), so the result is the truncating quotient, the quotient of ℕ. -/
private theorem floorDiv_word (a : BitVec 32) (ha : a.toNat < 2 ^ 31) :
    Scalar.select
      (IntOp.andi
        (IntOp.cmpi CmpIPredicate.ne (if a = 0 then (0 : BitVec 32) else if a.msb = true then -1 else 1)
          (if (32#32 : BitVec 32) = 0 then (0 : BitVec 32) else if (32#32 : BitVec 32).msb = true then -1 else 1))
        (IntOp.cmpi CmpIPredicate.ne (IntOp.remsi ArithUnit.host a 32#32) 0#32))
      (IntOp.subi (IntOp.divsi ArithUnit.host a 32#32) 1#32)
      (IntOp.divsi ArithUnit.host a 32#32) = BitVec.ofNat 32 (a.toNat / 32) := by
  rw [divsi_32 a ha]
  by_cases h0 : a = 0
  · subst h0; decide
  · have hm : a.msb = false := BitVec.msb_eq_false_iff_two_mul_lt.mpr (by omega)
    have hs : IntOp.cmpi CmpIPredicate.ne (if a = 0 then (0 : BitVec 32) else if a.msb = true then -1 else 1)
        (if (32#32 : BitVec 32) = 0 then (0 : BitVec 32) else if (32#32 : BitVec 32).msb = true then -1 else 1) = 0#1 := by
      rw [if_neg h0, hm]; decide
    rw [hs]
    have hz : ∀ x : BitVec 1, IntOp.andi 0#1 x = 0#1 := fun x => by
      rcases BitVec.eq_zero_or_eq_one x with h | h <;> subst h <;> decide
    rw [hz]; rfl

private theorem floorDiv_ofNat (k : ℕ) (hk : k < 2 ^ 31) :
    Scalar.select
      (IntOp.andi
        (IntOp.cmpi CmpIPredicate.ne (if BitVec.ofNat 32 k = 0 then (0 : BitVec 32) else if (BitVec.ofNat 32 k).msb = true then -1 else 1)
          (if (32#32 : BitVec 32) = 0 then (0 : BitVec 32) else if (32#32 : BitVec 32).msb = true then -1 else 1))
        (IntOp.cmpi CmpIPredicate.ne (IntOp.remsi ArithUnit.host (BitVec.ofNat 32 k) 32#32) 0#32))
      (IntOp.subi (IntOp.divsi ArithUnit.host (BitVec.ofNat 32 k) 32#32) 1#32)
      (IntOp.divsi ArithUnit.host (BitVec.ofNat 32 k) 32#32) = BitVec.ofNat 32 (k / 32) := by
  have hn : (BitVec.ofNat 32 k).toNat = k := by rw [BitVec.toNat_ofNat]; exact Nat.mod_eq_of_lt (by omega)
  have := floorDiv_word (BitVec.ofNat 32 k) (by rw [hn]; exact hk)
  rwa [hn] at this

/-- The equality bit of two words below 2³², as a float: 1 when the numbers are equal, else 0. -/
private theorem eqBit_ofNat (a b : ℕ) (ha : a < 2 ^ 32) (hb : b < 2 ^ 32) :
    FloatOps.uitofp (F := Ideal) .f32 (IntOp.cmpi CmpIPredicate.eq (BitVec.ofNat 32 a) (BitVec.ofNat 32 b))
      = (if a = b then 1 else 0 : EReal) := by
  by_cases h : a = b
  · subst h
    rw [cmpi_eq_iff.mpr rfl, if_pos rfl]
    show (((1#1 : BitVec 1).toNat : ℝ) : EReal) = 1
    simp
  · have hne : IntOp.cmpi CmpIPredicate.eq (BitVec.ofNat 32 a) (BitVec.ofNat 32 b) = 0#1 := by
      rcases BitVec.eq_zero_or_eq_one (IntOp.cmpi CmpIPredicate.eq (BitVec.ofNat 32 a) (BitVec.ofNat 32 b)) with e | e
      · exact e
      · exfalso; apply h
        have := congrArg BitVec.toNat (cmpi_eq_iff.mp e)
        rw [BitVec.toNat_ofNat, BitVec.toNat_ofNat, Nat.mod_eq_of_lt ha, Nat.mod_eq_of_lt hb] at this
        exact this
    rw [hne, if_neg h]
    show (((0#1 : BitVec 1).toNat : ℝ) : EReal) = 0
    simp

/-! ## Arrays -/

/-- jnp's floor division of a vector of words by a scalar word, as the printed chain of operations: the truncating
    quotient, less one where the operands' signs differ and the remainder is not zero. -/
private def floorDivV {t : Shape} (h : S_.BroadcastsInDim t (![] : Fin 0 → Fin t.rank)) (x : IVec t 32) (d : IVec S_ 32) : IVec t 32 :=
  select
    (andi (cmpi .ne (signi x) (broadcastInDim t ![] h (signi d)))
          (cmpi .ne (Host.remsi x (broadcastInDim t ![] h d)) (broadcastInDim t ![] h (constantI S_ 32 0#32))))
    (subi (Host.divsi x (broadcastInDim t ![] h d)) (broadcastInDim t ![] h (constantI S_ 32 1#32)))
    (Host.divsi x (broadcastInDim t ![] h d))

/-- Where the dividend is the word of a number below 2³¹ and the divisor is 32, the floor division is the word of the
    quotient of ℕ. -/
private theorem floorDivV_apply {t : Shape} (h : S_.BroadcastsInDim t (![] : Fin 0 → Fin t.rank)) (x : IVec t 32) (j : t.Idx) (k : ℕ)
    (hk : k < 2 ^ 31) (hx : x j = BitVec.ofNat 32 k) :
    floorDivV h x (constantI S_ 32 32#32) j = BitVec.ofNat 32 (k / 32) := by
  simp only [floorDivV, select, andi, cmpi, signi, subi, Host.divsi, Host.remsi, broadcastInDim, constantI, hx]
  exact floorDiv_ofNat k hk

private theorem ix2_eq_ij {n0 n1 : ℕ} (p : Fin n0) (q : Fin n1) : ix2 p q = ij p q := by
  funext a; match a with | ⟨0, _⟩ => rfl | ⟨1, _⟩ => rfl

/-- The group matrix as the printed operations build it from the vector `v` of the columns' groups: `v` laid along the
    columns, `iota G` along the rows, compared for equality, the bit converted to a float. -/
private def grpMat {G K : ℕ} (h1 : (⟨1, ![K]⟩ : Shape).BroadcastsInDim ⟨2, ![1, K]⟩ ![1])
    (h2 : (⟨2, ![1, K]⟩ : Shape).BroadcastsInDim ⟨2, ![G, K]⟩ ![0, 1])
    (h3 : (⟨1, ![G]⟩ : Shape).BroadcastsInDim ⟨2, ![G, 1]⟩ ![0])
    (h4 : (⟨2, ![G, 1]⟩ : Shape).BroadcastsInDim ⟨2, ![G, K]⟩ ![0, 1])
    (v : IVec ⟨1, ![K]⟩ 32) : (⟨2, ![G, K]⟩ : Shape).Idx → EReal :=
  uitofp (F := Ideal) .f32
    (cmpi .eq (broadcastInDim ⟨2, ![G, K]⟩ ![0, 1] h2 (broadcastInDim ⟨2, ![1, K]⟩ ![1] h1 v))
      (broadcastInDim ⟨2, ![G, K]⟩ ![0, 1] h4 (broadcastInDim ⟨2, ![G, 1]⟩ ![0] h3 (iotaInDim ⟨1, ![G]⟩ 32 0))))

/-- Entry `(g, k)` of the group matrix is 1 when column `k`'s group word is the word of `g`, else 0. -/
private theorem grpMat_apply {G K : ℕ} (h1 h2 h3 h4) (v : IVec ⟨1, ![K]⟩ 32) (g : Fin G) (k : Fin K) (q : ℕ) (hq : q < 2 ^ 32)
    (hG : G ≤ 2 ^ 32) (hv : v (Shape.Idx.ofFin k) = BitVec.ofNat 32 q) :
    grpMat h1 h2 h3 h4 v (ix2 g k) = if q = g.val then 1 else 0 := by
  rw [ix2_eq_ij]
  simp only [grpMat, uitofp, cmpi]
  rw [bcast_cols, bcast_rows, iota_apply, hv]
  exact eqBit_ofNat q g.val hq (by have := g.isLt; omega)

/-! ## The host segments before the gate/up kernel, over any valuation -/

private theorem seg0_iota (V : Valuation τ sig (Elt Ideal)) :
    (StableHlo.after hostOps0 V (Proc.devRef .tc main_v6) : S2048.Idx → BitVec 32) = iotaInDim S2048 32 0 := by
  after_results

private theorem seg0_const (V : Valuation τ sig (Elt Ideal)) :
    (StableHlo.after hostOps0 V (Proc.devRef .tc main_c) : S_.Idx → BitVec 32) = constantI S_ 32 32#32 := by
  after_results

private theorem seg0_div (V : Valuation τ sig (Elt Ideal)) :
    (StableHlo.after hostOps0_1 V (Proc.devRef .tc main_v7) : S2048.Idx → BitVec 32)
      = floorDivV bcast_S_S2048 (V (Proc.devRef .tc main_v6)) (V (Proc.devRef .tc main_c)) := by
  after_results_simp
  rfl

private theorem seg0_grp (V : Valuation τ sig (Elt Ideal)) :
    (StableHlo.after hostOps0_2 V (Proc.devRef .tc main_v14) : S64x2048.Idx → EReal)
      = grpMat bcast_S2048_S1x2048_1 bcast_S1x2048_S64x2048_0_1 bcast_S64_S64x1_0 bcast_S64x1_S64x2048_0_1 (V (Proc.devRef .tc main_v7)) := by
  after_results
  rfl

/-- The matrix the gate/up kernel is given (window 8, `[64, 2048]`) is the group matrix. -/
theorem V3_onehot (c : Dev nD) (g : Fin 64) (k : Fin 2048) :
    (V3 (F := Ideal) m ρ c main_v14 : S64x2048.Idx → EReal) (ix2 g k) = onehot g k := by
  have e7 : (W2 (F := Ideal) m ρ c (Proc.devRef .tc main_v7) : S2048.Idx → BitVec 32) (Shape.Idx.ofFin k)
      = BitVec.ofNat 32 (k.val / 32) := by
    show (StableHlo.after hostOps0_1 (W1 (F := Ideal) m ρ c) (Proc.devRef .tc main_v7) : S2048.Idx → BitVec 32) _ = _
    rw [seg0_div]
    show floorDivV bcast_S_S2048 (StableHlo.after hostOps0 (W0 (F := Ideal) m ρ c) (Proc.devRef .tc main_v6))
      (StableHlo.after hostOps0 (W0 (F := Ideal) m ρ c) (Proc.devRef .tc main_c)) _ = _
    rw [seg0_iota, seg0_const]
    exact floorDivV_apply _ _ _ k.val (by have := k.isLt; omega) (iota_apply k)
  show (StableHlo.after hostOps0_2 (W2 (F := Ideal) m ρ c) (Proc.devRef .tc main_v14) : S64x2048.Idx → EReal) (ix2 g k) = _
  rw [seg0_grp]
  exact grpMat_apply _ _ _ _ _ g k (k.val / 32) (by have := k.isLt; omega) (by norm_num) e7

/-! ## The host segments before the down kernel, over any valuation -/

private theorem seg1_iota (V : Valuation τ sig (Elt Ideal)) :
    (StableHlo.after hostOps1 V (Proc.devRef .tc main_v21) : S5504.Idx → BitVec 32) = iotaInDim S5504 32 0 := by
  after_results

private theorem seg1_const (V : Valuation τ sig (Elt Ideal)) :
    (StableHlo.after hostOps1 V (Proc.devRef .tc main_c_0) : S_.Idx → BitVec 32) = constantI S_ 32 32#32 := by
  after_results

private theorem seg1_div (V : Valuation τ sig (Elt Ideal)) :
    (StableHlo.after hostOps1_1 V (Proc.devRef .tc main_v22) : S5504.Idx → BitVec 32)
      = floorDivV bcast_S_S5504 (V (Proc.devRef .tc main_v21)) (V (Proc.devRef .tc main_c_0)) := by
  after_results_simp
  rfl

private theorem seg1_grp (V : Valuation τ sig (Elt Ideal)) :
    (StableHlo.after hostOps1_2 V (Proc.devRef .tc main_v29) : S172x5504.Idx → EReal)
      = grpMat bcast_S5504_S1x5504_1 bcast_S1x5504_S172x5504_0_1 bcast_S172_S172x1_0 bcast_S172x1_S172x5504_0_1 (V (Proc.devRef .tc main_v22)) := by
  after_results
  rfl

/-- The matrix the down kernel is given (window 5, `[172, 5504]`) is the group matrix. -/
theorem V7_onehot (c : Dev nD) (g : Fin 172) (k : Fin 5504) :
    (V7 (F := Ideal) m ρ c main_v29 : S172x5504.Idx → EReal) (ix2 g k) = onehot g k := by
  have e22 : (W6 (F := Ideal) m ρ c (Proc.devRef .tc main_v22) : S5504.Idx → BitVec 32) (Shape.Idx.ofFin k)
      = BitVec.ofNat 32 (k.val / 32) := by
    show (StableHlo.after hostOps1_1 (W5 (F := Ideal) m ρ c) (Proc.devRef .tc main_v22) : S5504.Idx → BitVec 32) _ = _
    rw [seg1_div]
    show floorDivV bcast_S_S5504 (StableHlo.after hostOps1 (W4 (F := Ideal) m ρ c) (Proc.devRef .tc main_v21))
      (StableHlo.after hostOps1 (W4 (F := Ideal) m ρ c) (Proc.devRef .tc main_c_0)) _ = _
    rw [seg1_iota, seg1_const]
    exact floorDivV_apply _ _ _ k.val (by have := k.isLt; omega) (iota_apply k)
  show (StableHlo.after hostOps1_2 (W6 (F := Ideal) m ρ c) (Proc.devRef .tc main_v29) : S172x5504.Idx → EReal) (ix2 g k) = _
  rw [seg1_grp]
  exact grpMat_apply _ _ _ _ _ g k (k.val / 32) (by have := k.isLt; omega) (by norm_num) e22

end Cert.KernelIdeal.GroupMatrix

end
-- ==== Proof.KValue.lean ====
/-
  The kernel program's result buffer as the specification's function of the launch memory.

  The last boundary's contents at the result buffer are a reshape of the down kernel's output array `[4096, 4096]`:
  entry `(b, s, n)` is the array's entry `(b * 1024 + s, n)`. That array is the packed dot product of row `r` of the
  de-interleaved hidden activations with row `n` of the down weights (the second region's value at the contents it
  finds); the hidden activations are the first region's output array, the gate of the two packed dot products of row
  `r` of the de-interleaved `x` with row `i` of the gate and up weights (the first region's value at the contents it
  finds). The group matrices, the de-interleaved activations and the untouched arguments are read off the host
  stretches before each region.
-/
import proofs.«403345_j16587163697454_2_alg».proof.Proof.Gen.KernelIdeal.Frame
import proofs.«403345_j16587163697454_2_alg».proof.Proof.Spec
import proofs.«403345_j16587163697454_2_alg».proof.Proof.Blocks
import proofs.«403345_j16587163697454_2_alg».proof.Proof.Slices
import proofs.«403345_j16587163697454_2_alg».proof.Proof.GroupMatrix
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.QuantMlp Idealize.ShloMosaic Idealize.ShloMosaic.TcCoe Idealize.ShloMosaic.ValueIdx Idealize.SL.Sem Cert.KernelIdeal.Blocks Cert.KernelIdeal.Slices Cert.KernelIdeal.GroupMatrix Idealize.ShloMosaic.StableHlo

variable (m : (ℓ : Loc nD τ sig) → Buf (Elt Ideal) ℓ) (ρ : Dev nD → PrngReg)

/-- The first region's output array is the hidden activations of the arguments. -/
theorem hidden_arr (c : Dev nD) (r : Fin 4096) (i : Fin 11008) :
    (V4 (F := Ideal) m ρ c main_v15 : S4096x11008.Idx → EReal) (ix2 r i)
      = hidden (xflat (m ((c : Thread nD τ).loc main_arg0))) (cur2 (m ((c : Thread nD τ).loc main_arg1))) (cur2 (m ((c : Thread nD τ).loc main_arg2))) (cur2 (m ((c : Thread nD τ).loc main_arg4))) (cur2 (m ((c : Thread nD τ).loc main_arg5)))
          (cur2 (m ((c : Thread nD τ).loc main_arg6))) (cur2 (m ((c : Thread nD τ).loc main_arg7))) r i := by
  have h := region0_value (V3 (F := Ideal) m ρ) c (V3_onehot m ρ c) r i
  have e : (V4 (F := Ideal) m ρ c main_v15 : S4096x11008.Idx → EReal) = (dat0 (F := Ideal) (V3 m ρ) c).arrAt 9 cfg0.N :=
    (hF0 m ρ c 9).symm
  rw [e, h]
  rw [funext (V3_xeven m ρ c r), funext (V3_xodd m ρ c r), V3_arg1 m ρ c, V3_arg2 m ρ c, V3_arg4 m ρ c, V3_arg5 m ρ c, V3_arg6 m ρ c, V3_arg7 m ρ c]
  rfl

/-- The second region's output array is the MLP's result at `(r, n)`. -/
theorem out_arr (c : Dev nD) (r n : Fin 4096) :
    (V8 (F := Ideal) m ρ c main_v30 : S4096x4096.Idx → EReal) (ix2 r n)
      = mlpOut (xflat (m ((c : Thread nD τ).loc main_arg0))) (cur2 (m ((c : Thread nD τ).loc main_arg1))) (cur2 (m ((c : Thread nD τ).loc main_arg2))) (cur2 (m ((c : Thread nD τ).loc main_arg3))) (cur2 (m ((c : Thread nD τ).loc main_arg4))) (cur2 (m ((c : Thread nD τ).loc main_arg5)))
          (cur2 (m ((c : Thread nD τ).loc main_arg6))) (cur2 (m ((c : Thread nD τ).loc main_arg7))) (cur2 (m ((c : Thread nD τ).loc main_arg8))) (cur2 (m ((c : Thread nD τ).loc main_arg9))) r n := by
  have h := region1_value (V7 (F := Ideal) m ρ) c (V7_onehot m ρ c) r n
  have e : (V8 (F := Ideal) m ρ c main_v30 : S4096x4096.Idx → EReal) = (dat1 (F := Ideal) (V7 m ρ) c).arrAt 6 cfg1.N :=
    (hF1 m ρ c 6).symm
  rw [e, h]
  rw [funext (V7_heven m ρ c r), funext (V7_hodd m ρ c r), V7_arg3 m ρ c, V7_arg8 m ρ c, V7_arg9 m ρ c]
  rw [funext fun k : Fin 5504 => hidden_arr m ρ c r ⟨2 * k.val, by have := k.isLt; omega⟩,
    funext fun k : Fin 5504 => hidden_arr m ρ c r ⟨2 * k.val + 1, by have := k.isLt; omega⟩]
  rfl

/-- THE RESULT BUFFER at the last boundary is `result` of the ten argument arrays. -/
theorem W9_result (c : Dev nD) :
    (W9 (F := Ideal) m ρ c (Proc.devRef .tc main_v31) : S4x1024x4096.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e : (W9 (F := Ideal) m ρ c (Proc.devRef .tc main_v31) : S4x1024x4096.Idx → EReal)
      = shapeCast S4x1024x4096 (V8 (F := Ideal) m ρ c main_v30 : S4096x4096.Idx → EReal) shapeCasts_S4096x4096_S4x1024x4096 := by
    show StableHlo.after hostOps2 _ (Proc.devRef .tc main_v31) = _
    after_results
    rfl
  funext i
  rw [e, shapeCast_apply _ shapeCasts_S4096x4096_S4x1024x4096 i
    (ix2 (⟨(i 0).val * 1024 + (i 1).val, by have h0 : (i 0).val < 4 := (i 0).isLt; have h1 : (i 1).val < 1024 := (i 1).isLt; omega⟩ : Fin 4096)
      (⟨(i 2).val, (i 2).isLt⟩ : Fin 4096))
    (by rw [Shape.rowMajor_val_two, Shape.rowMajor_val_three]; rfl)]
  exact out_arr m ρ c _ _

end Cert.KernelIdeal.KValue

end
-- ==== Proof.RefWeights.lean ====
/-
  The reference's dequantised weight matrices at an entry.

  jnp's `dequantize` stacks the two 4-bit fields of every packed word on a new last axis (upper field first), flattens
  to the unpacked columns (`j = 2k + field`), converts to float, cuts each row into groups of 64 columns, subtracts the
  group's zero point and multiplies by its scale. At entry `(n, j)` this is the specification's `wFull` of row `n`.

  Every reshape keeps the row-major position, so entry `(n, j)` of a matrix with `D` columns, at position `n * D + j`,
  is entry `(n, j / 64, j % 64)` of the grouped array and entry `(n, j / 2, j % 2)` of the stacked one. The stacked
  array joins two pieces of extent one along its last axis: coordinate 0 reads the first piece (the upper fields),
  coordinate 1 the second (the lower fields), each at word `(n, j / 2)`. The zero point and the scale are spread
  unchanged along the last axis of the grouped array, so both are read at `(n, j / 64)`.
-/
import proofs.«403345_j16587163697454_2_alg».proof.Proof.Gen.ReferenceIdeal.Read
import proofs.«403345_j16587163697454_2_alg».proof.Proof.Spec
import Idealize.ShloMosaic.Lib.Pipeline.Value

set_option maxRecDepth 16384

noncomputable section

namespace Cert.ReferenceIdeal.Weights

open Cert.ReferenceIdeal Cert.ReferenceIdeal.Gen Cert.ReferenceIdeal.Read Cert.QuantMlp Idealize.ShloMosaic Idealize.ShloMosaic.TcCoe Idealize.ShloMosaic.ValueIdx Idealize.SL.Sem

/-! ### The gate -/

/-- The shift amount and the mask are constants spread over the array, 4 and 15 at every index: the first masked
    array holds the upper field of each word. -/
private theorem gate_hi_word (x1 : (⟨S11008x2048, .i32⟩ : BufTy).Contents (Elt Ideal)) (i : S11008x2048.Idx) :
    val_main_v3 (F := Ideal) x1 i = IntOp.andi ((x1 i).sshiftRight' 4#32) 15#32 := by
  rw [val_main_v3_apply, val_main_v1_apply, val_main_v0_apply, val_main_c_apply, val_main_v2_apply,
    val_main_c_0_apply, shrsi_four]

/-- The second masked array holds the lower field of each word. -/
private theorem gate_lo_word (x1 : (⟨S11008x2048, .i32⟩ : BufTy).Contents (Elt Ideal)) (i : S11008x2048.Idx) :
    val_main_v5 (F := Ideal) x1 i = IntOp.andi (x1 i) 15#32 := by
  rw [val_main_v5_apply, val_main_v4_apply, val_main_c_1_apply]

/-- The stacked array `[11008, 2048, 2]` at last coordinate 0: the upper field of word `(n, k)`. -/
private theorem gate_stacked_hi (x1 : (⟨S11008x2048, .i32⟩ : BufTy).Contents (Elt Ideal)) (n : Fin 11008) (k : Fin 2048)
    (c : Fin 2) (hc : c.val = 0) :
    val_main_v8 (F := Ideal) x1 (ix3 n k c) = IntOp.andi ((x1 (ix2 n k)).sshiftRight' 4#32) 15#32 := by
  have e : idx_main_v6 (ix3 n k (0 : Fin 1)) = ix2 n k := by
    funext a; match a with | ⟨0, _⟩ => rfl | ⟨1, _⟩ => rfl
  unfold val_main_v8
  refine (concatenate_pair_apply_left (t := S11008x2048x2) (s₁ := S11008x2048x1) (s₂ := S11008x2048x1) (2 : Fin 3)
    _ _ _ (ix3 n k c) rfl (ix3 n k (0 : Fin 1)) ?_).trans ?_
  · intro b
    match b with
    | ⟨0, _⟩ => rfl
    | ⟨1, _⟩ => rfl
    | ⟨2, _⟩ => exact hc.symm
  · rw [val_main_v6_apply, gate_hi_word, e]

/-- The stacked array at last coordinate 1: the lower field of word `(n, k)`. -/
private theorem gate_stacked_lo (x1 : (⟨S11008x2048, .i32⟩ : BufTy).Contents (Elt Ideal)) (n : Fin 11008) (k : Fin 2048)
    (c : Fin 2) (hc : c.val = 1) :
    val_main_v8 (F := Ideal) x1 (ix3 n k c) = IntOp.andi (x1 (ix2 n k)) 15#32 := by
  have e : idx_main_v7 (ix3 n k (0 : Fin 1)) = ix2 n k := by
    funext a; match a with | ⟨0, _⟩ => rfl | ⟨1, _⟩ => rfl
  unfold val_main_v8
  refine (concatenate_pair_apply_right (t := S11008x2048x2) (s₁ := S11008x2048x1) (s₂ := S11008x2048x1) (2 : Fin 3)
    _ _ _ (ix3 n k c) rfl rfl (ix3 n k (0 : Fin 1)) ?_ ?_).trans ?_
  · intro b hb
    match b with
    | ⟨0, _⟩ => rfl
    | ⟨1, _⟩ => rfl
    | ⟨2, _⟩ => exact absurd rfl hb
  · show 0 + 1 = c.val
    omega
  · rw [val_main_v7_apply, gate_lo_word, e]

/-- Entry `(n, j)` of the dequantised gate matrix, read through the reshapes: row-major position `n * 4096 + j` is
    `(n, j / 64, j % 64)` in the grouped array and `(n, j / 2, j % 2)` in the stacked one, and the group parameters
    are constant along the last axis. -/
private theorem gate_entry (x1 : (⟨S11008x2048, .i32⟩ : BufTy).Contents (Elt Ideal)) (x4 x5 : (⟨S11008x64, .f32⟩ : BufTy).Contents (Elt Ideal))
    (n : Fin 11008) (j : Fin 4096) (g l : Fin 64) (k : Fin 2048) (c : Fin 2)
    (hg : g.val = j.val / 64) (hl : l.val = j.val % 64) (hk : k.val = j.val / 2) (hc : c.val = j.val % 2) :
    val_main_v18 (F := Ideal) x1 x4 x5 (ix2 n j)
      = (FloatOps.sitofp (F := Ideal) .f32 (val_main_v8 (F := Ideal) x1 (ix3 n k c)) - x5 (ix2 n g)) * x4 (ix2 n g) := by
  have hj := j.isLt
  have e18 : idx_main_v18 (ix2 n j) = ix3 n g l := by
    funext a
    match a with
    | ⟨0, _⟩ => exact Fin.ext (by show (n.val * 4096 + j.val) / 4096 = n.val; omega)
    | ⟨1, _⟩ => exact Fin.ext (by show (n.val * 4096 + j.val) / 64 % 64 = g.val; omega)
    | ⟨2, _⟩ => exact Fin.ext (by show (n.val * 4096 + j.val) % 64 = l.val; omega)
  have e16 : idx_main_v15 (idx_main_v16 (ix3 n g l)) = ix2 n g := by
    funext a; match a with | ⟨0, _⟩ => rfl | ⟨1, _⟩ => rfl
  have e13 : idx_main_v12 (idx_main_v13 (ix3 n g l)) = ix2 n g := by
    funext a; match a with | ⟨0, _⟩ => rfl | ⟨1, _⟩ => rfl
  have e11 : idx_main_v11 (ix3 n g l) = ix2 n j := by
    funext a
    match a with
    | ⟨0, _⟩ => exact Fin.ext (by show ((n.val * 64 + g.val) * 64 + l.val) / 4096 = n.val; omega)
    | ⟨1, _⟩ => exact Fin.ext (by show ((n.val * 64 + g.val) * 64 + l.val) % 4096 = j.val; omega)
  have e9 : idx_main_v9 (ix2 n j) = ix3 n k c := by
    funext a
    match a with
    | ⟨0, _⟩ => exact Fin.ext (by show (n.val * 4096 + j.val) / 4096 = n.val; omega)
    | ⟨1, _⟩ => exact Fin.ext (by show (n.val * 4096 + j.val) / 2 % 2048 = k.val; omega)
    | ⟨2, _⟩ => exact Fin.ext (by show (n.val * 4096 + j.val) % 2 = c.val; omega)
  rw [val_main_v18_apply, e18, val_main_v17_apply, val_main_v14_apply, val_main_v16_apply, val_main_v15_apply, e16,
    val_main_v13_apply, val_main_v12_apply, e13, val_main_v11_apply, e11, val_main_v10_apply, val_main_v9_apply, e9]
  rfl

/-- The gate's weights `[11008, 4096]`. -/
theorem gate_weight (x1 : (⟨S11008x2048, .i32⟩ : BufTy).Contents (Elt Ideal)) (x4 x5 : (⟨S11008x64, .f32⟩ : BufTy).Contents (Elt Ideal))
    (n : Fin 11008) (j : Fin 4096) :
    val_main_v18 (F := Ideal) x1 x4 x5 (ix2 n j)
      = wFull (D := 4096) (K := 2048) (G := 64) rfl rfl (cur2 x1 n) (cur2 x4 n) (cur2 x5 n) j := by
  have hj := j.isLt
  rw [gate_entry x1 x4 x5 n j ⟨j.val / 64, by omega⟩ ⟨j.val % 64, by omega⟩ ⟨j.val / 2, by omega⟩ ⟨j.val % 2, by omega⟩
    rfl rfl rfl rfl]
  unfold wFull
  by_cases h : j.val % 2 = 0
  · rw [if_pos h, gate_stacked_hi x1 n _ _ h]
    rfl
  · rw [if_neg h, gate_stacked_lo x1 n _ _ (by show j.val % 2 = 1; omega)]
    rfl

/-! ### The up projection -/

/-- The first masked array of this chain holds the upper field of each word (shift by the constant 4, mask 15). -/
private theorem up_hi_word (x2 : (⟨S11008x2048, .i32⟩ : BufTy).Contents (Elt Ideal)) (i : S11008x2048.Idx) :
    val_main_v22 (F := Ideal) x2 i = IntOp.andi ((x2 i).sshiftRight' 4#32) 15#32 := by
  rw [val_main_v22_apply, val_main_v20_apply, val_main_v19_apply, val_main_c_2_apply, val_main_v21_apply,
    val_main_c_3_apply, shrsi_four]

/-- The second masked array holds the lower field of each word. -/
private theorem up_lo_word (x2 : (⟨S11008x2048, .i32⟩ : BufTy).Contents (Elt Ideal)) (i : S11008x2048.Idx) :
    val_main_v24 (F := Ideal) x2 i = IntOp.andi (x2 i) 15#32 := by
  rw [val_main_v24_apply, val_main_v23_apply, val_main_c_4_apply]

/-- The stacked array `[11008, 2048, 2]` at last coordinate 0: the upper field of word `(n, k)`. -/
private theorem up_stacked_hi (x2 : (⟨S11008x2048, .i32⟩ : BufTy).Contents (Elt Ideal)) (n : Fin 11008) (k : Fin 2048)
    (c : Fin 2) (hc : c.val = 0) :
    val_main_v27 (F := Ideal) x2 (ix3 n k c) = IntOp.andi ((x2 (ix2 n k)).sshiftRight' 4#32) 15#32 := by
  have e : idx_main_v25 (ix3 n k (0 : Fin 1)) = ix2 n k := by
    funext a; match a with | ⟨0, _⟩ => rfl | ⟨1, _⟩ => rfl
  unfold val_main_v27
  refine (concatenate_pair_apply_left (t := S11008x2048x2) (s₁ := S11008x2048x1) (s₂ := S11008x2048x1) (2 : Fin 3)
    _ _ _ (ix3 n k c) rfl (ix3 n k (0 : Fin 1)) ?_).trans ?_
  · intro b
    match b with
    | ⟨0, _⟩ => rfl
    | ⟨1, _⟩ => rfl
    | ⟨2, _⟩ => exact hc.symm
  · rw [val_main_v25_apply, up_hi_word, e]

/-- The stacked array at last coordinate 1: the lower field of word `(n, k)`. -/
private theorem up_stacked_lo (x2 : (⟨S11008x2048, .i32⟩ : BufTy).Contents (Elt Ideal)) (n : Fin 11008) (k : Fin 2048)
    (c : Fin 2) (hc : c.val = 1) :
    val_main_v27 (F := Ideal) x2 (ix3 n k c) = IntOp.andi (x2 (ix2 n k)) 15#32 := by
  have e : idx_main_v26 (ix3 n k (0 : Fin 1)) = ix2 n k := by
    funext a; match a with | ⟨0, _⟩ => rfl | ⟨1, _⟩ => rfl
  unfold val_main_v27
  refine (concatenate_pair_apply_right (t := S11008x2048x2) (s₁ := S11008x2048x1) (s₂ := S11008x2048x1) (2 : Fin 3)
    _ _ _ (ix3 n k c) rfl rfl (ix3 n k (0 : Fin 1)) ?_ ?_).trans ?_
  · intro b hb
    match b with
    | ⟨0, _⟩ => rfl
    | ⟨1, _⟩ => rfl
    | ⟨2, _⟩ => exact absurd rfl hb
  · show 0 + 1 = c.val
    omega
  · rw [val_main_v26_apply, up_lo_word, e]

/-- Entry `(n, j)` of this dequantised matrix, read through the reshapes: row-major position `n * 4096 + j` is
    `(n, j / 64, j % 64)` in the grouped array and `(n, j / 2, j % 2)` in the stacked one, and the group parameters
    are constant along the last axis. -/
private theorem up_entry (x2 : (⟨S11008x2048, .i32⟩ : BufTy).Contents (Elt Ideal)) (x6 x7 : (⟨S11008x64, .f32⟩ : BufTy).Contents (Elt Ideal))
    (n : Fin 11008) (j : Fin 4096) (g : Fin 64) (l : Fin 64) (k : Fin 2048) (c : Fin 2)
    (hg : g.val = j.val / 64) (hl : l.val = j.val % 64) (hk : k.val = j.val / 2) (hc : c.val = j.val % 2) :
    val_main_v37 (F := Ideal) x2 x6 x7 (ix2 n j)
      = (FloatOps.sitofp (F := Ideal) .f32 (val_main_v27 (F := Ideal) x2 (ix3 n k c)) - x7 (ix2 n g)) * x6 (ix2 n g) := by
  have hj := j.isLt
  have e18 : idx_main_v37 (ix2 n j) = ix3 n g l := by
    funext a
    match a with
    | ⟨0, _⟩ => exact Fin.ext (by show (n.val * 4096 + j.val) / 4096 = n.val; omega)
    | ⟨1, _⟩ => exact Fin.ext (by show (n.val * 4096 + j.val) / 64 % 64 = g.val; omega)
    | ⟨2, _⟩ => exact Fin.ext (by show (n.val * 4096 + j.val) % 64 = l.val; omega)
  have e16 : idx_main_v34 (idx_main_v35 (ix3 n g l)) = ix2 n g := by
    funext a; match a with | ⟨0, _⟩ => rfl | ⟨1, _⟩ => rfl
  have e13 : idx_main_v31 (idx_main_v32 (ix3 n g l)) = ix2 n g := by
    funext a; match a with | ⟨0, _⟩ => rfl | ⟨1, _⟩ => rfl
  have e11 : idx_main_v30 (ix3 n g l) = ix2 n j := by
    funext a
    match a with
    | ⟨0, _⟩ => exact Fin.ext (by show ((n.val * 64 + g.val) * 64 + l.val) / 4096 = n.val; omega)
    | ⟨1, _⟩ => exact Fin.ext (by show ((n.val * 64 + g.val) * 64 + l.val) % 4096 = j.val; omega)
  have e9 : idx_main_v28 (ix2 n j) = ix3 n k c := by
    funext a
    match a with
    | ⟨0, _⟩ => exact Fin.ext (by show (n.val * 4096 + j.val) / 4096 = n.val; omega)
    | ⟨1, _⟩ => exact Fin.ext (by show (n.val * 4096 + j.val) / 2 % 2048 = k.val; omega)
    | ⟨2, _⟩ => exact Fin.ext (by show (n.val * 4096 + j.val) % 2 = c.val; omega)
  rw [val_main_v37_apply, e18, val_main_v36_apply, val_main_v33_apply, val_main_v35_apply, val_main_v34_apply, e16,
    val_main_v32_apply, val_main_v31_apply, e13, val_main_v30_apply, e11, val_main_v29_apply, val_main_v28_apply, e9]
  rfl

/-- The up projection's weights `[11008, 4096]`. -/
theorem up_weight (x2 : (⟨S11008x2048, .i32⟩ : BufTy).Contents (Elt Ideal)) (x6 x7 : (⟨S11008x64, .f32⟩ : BufTy).Contents (Elt Ideal))
    (n : Fin 11008) (j : Fin 4096) :
    val_main_v37 (F := Ideal) x2 x6 x7 (ix2 n j)
      = wFull (D := 4096) (K := 2048) (G := 64) rfl rfl (cur2 x2 n) (cur2 x6 n) (cur2 x7 n) j := by
  have hj := j.isLt
  rw [up_entry x2 x6 x7 n j ⟨j.val / 64, by omega⟩ ⟨j.val % 64, by omega⟩ ⟨j.val / 2, by omega⟩ ⟨j.val % 2, by omega⟩
    rfl rfl rfl rfl]
  unfold wFull
  by_cases h : j.val % 2 = 0
  · rw [if_pos h, up_stacked_hi x2 n _ _ h]
    rfl
  · rw [if_neg h, up_stacked_lo x2 n _ _ (by show j.val % 2 = 1; omega)]
    rfl

/-! ### The down projection -/

/-- The first masked array of this chain holds the upper field of each word (shift by the constant 4, mask 15). -/
private theorem down_hi_word (x3 : (⟨S4096x5504, .i32⟩ : BufTy).Contents (Elt Ideal)) (i : S4096x5504.Idx) :
    val_main_v41 (F := Ideal) x3 i = IntOp.andi ((x3 i).sshiftRight' 4#32) 15#32 := by
  rw [val_main_v41_apply, val_main_v39_apply, val_main_v38_apply, val_main_c_5_apply, val_main_v40_apply,
    val_main_c_6_apply, shrsi_four]

/-- The second masked array holds the lower field of each word. -/
private theorem down_lo_word (x3 : (⟨S4096x5504, .i32⟩ : BufTy).Contents (Elt Ideal)) (i : S4096x5504.Idx) :
    val_main_v43 (F := Ideal) x3 i = IntOp.andi (x3 i) 15#32 := by
  rw [val_main_v43_apply, val_main_v42_apply, val_main_c_7_apply]

/-- The stacked array `[4096, 5504, 2]` at last coordinate 0: the upper field of word `(n, k)`. -/
private theorem down_stacked_hi (x3 : (⟨S4096x5504, .i32⟩ : BufTy).Contents (Elt Ideal)) (n : Fin 4096) (k : Fin 5504)
    (c : Fin 2) (hc : c.val = 0) :
    val_main_v46 (F := Ideal) x3 (ix3 n k c) = IntOp.andi ((x3 (ix2 n k)).sshiftRight' 4#32) 15#32 := by
  have e : idx_main_v44 (ix3 n k (0 : Fin 1)) = ix2 n k := by
    funext a; match a with | ⟨0, _⟩ => rfl | ⟨1, _⟩ => rfl
  unfold val_main_v46
  refine (concatenate_pair_apply_left (t := S4096x5504x2) (s₁ := S4096x5504x1) (s₂ := S4096x5504x1) (2 : Fin 3)
    _ _ _ (ix3 n k c) rfl (ix3 n k (0 : Fin 1)) ?_).trans ?_
  · intro b
    match b with
    | ⟨0, _⟩ => rfl
    | ⟨1, _⟩ => rfl
    | ⟨2, _⟩ => exact hc.symm
  · rw [val_main_v44_apply, down_hi_word, e]

/-- The stacked array at last coordinate 1: the lower field of word `(n, k)`. -/
private theorem down_stacked_lo (x3 : (⟨S4096x5504, .i32⟩ : BufTy).Contents (Elt Ideal)) (n : Fin 4096) (k : Fin 5504)
    (c : Fin 2) (hc : c.val = 1) :
    val_main_v46 (F := Ideal) x3 (ix3 n k c) = IntOp.andi (x3 (ix2 n k)) 15#32 := by
  have e : idx_main_v45 (ix3 n k (0 : Fin 1)) = ix2 n k := by
    funext a; match a with | ⟨0, _⟩ => rfl | ⟨1, _⟩ => rfl
  unfold val_main_v46
  refine (concatenate_pair_apply_right (t := S4096x5504x2) (s₁ := S4096x5504x1) (s₂ := S4096x5504x1) (2 : Fin 3)
    _ _ _ (ix3 n k c) rfl rfl (ix3 n k (0 : Fin 1)) ?_ ?_).trans ?_
  · intro b hb
    match b with
    | ⟨0, _⟩ => rfl
    | ⟨1, _⟩ => rfl
    | ⟨2, _⟩ => exact absurd rfl hb
  · show 0 + 1 = c.val
    omega
  · rw [val_main_v45_apply, down_lo_word, e]

/-- Entry `(n, j)` of this dequantised matrix, read through the reshapes: row-major position `n * 11008 + j` is
    `(n, j / 64, j % 64)` in the grouped array and `(n, j / 2, j % 2)` in the stacked one, and the group parameters
    are constant along the last axis. -/
private theorem down_entry (x3 : (⟨S4096x5504, .i32⟩ : BufTy).Contents (Elt Ideal)) (x8 x9 : (⟨S4096x172, .f32⟩ : BufTy).Contents (Elt Ideal))
    (n : Fin 4096) (j : Fin 11008) (g : Fin 172) (l : Fin 64) (k : Fin 5504) (c : Fin 2)
    (hg : g.val = j.val / 64) (hl : l.val = j.val % 64) (hk : k.val = j.val / 2) (hc : c.val = j.val % 2) :
    val_main_v56 (F := Ideal) x3 x8 x9 (ix2 n j)
      = (FloatOps.sitofp (F := Ideal) .f32 (val_main_v46 (F := Ideal) x3 (ix3 n k c)) - x9 (ix2 n g)) * x8 (ix2 n g) := by
  have hj := j.isLt
  have e18 : idx_main_v56 (ix2 n j) = ix3 n g l := by
    funext a
    match a with
    | ⟨0, _⟩ => exact Fin.ext (by show (n.val * 11008 + j.val) / 11008 = n.val; omega)
    | ⟨1, _⟩ => exact Fin.ext (by show (n.val * 11008 + j.val) / 64 % 172 = g.val; omega)
    | ⟨2, _⟩ => exact Fin.ext (by show (n.val * 11008 + j.val) % 64 = l.val; omega)
  have e16 : idx_main_v53 (idx_main_v54 (ix3 n g l)) = ix2 n g := by
    funext a; match a with | ⟨0, _⟩ => rfl | ⟨1, _⟩ => rfl
  have e13 : idx_main_v50 (idx_main_v51 (ix3 n g l)) = ix2 n g := by
    funext a; match a with | ⟨0, _⟩ => rfl | ⟨1, _⟩ => rfl
  have e11 : idx_main_v49 (ix3 n g l) = ix2 n j := by
    funext a
    match a with
    | ⟨0, _⟩ => exact Fin.ext (by show ((n.val * 172 + g.val) * 64 + l.val) / 11008 = n.val; omega)
    | ⟨1, _⟩ => exact Fin.ext (by show ((n.val * 172 + g.val) * 64 + l.val) % 11008 = j.val; omega)
  have e9 : idx_main_v47 (ix2 n j) = ix3 n k c := by
    funext a
    match a with
    | ⟨0, _⟩ => exact Fin.ext (by show (n.val * 11008 + j.val) / 11008 = n.val; omega)
    | ⟨1, _⟩ => exact Fin.ext (by show (n.val * 11008 + j.val) / 2 % 5504 = k.val; omega)
    | ⟨2, _⟩ => exact Fin.ext (by show (n.val * 11008 + j.val) % 2 = c.val; omega)
  rw [val_main_v56_apply, e18, val_main_v55_apply, val_main_v52_apply, val_main_v54_apply, val_main_v53_apply, e16,
    val_main_v51_apply, val_main_v50_apply, e13, val_main_v49_apply, e11, val_main_v48_apply, val_main_v47_apply, e9]
  rfl

/-- The down projection's weights `[4096, 11008]`. -/
theorem down_weight (x3 : (⟨S4096x5504, .i32⟩ : BufTy).Contents (Elt Ideal)) (x8 x9 : (⟨S4096x172, .f32⟩ : BufTy).Contents (Elt Ideal))
    (n : Fin 4096) (j : Fin 11008) :
    val_main_v56 (F := Ideal) x3 x8 x9 (ix2 n j)
      = wFull (D := 11008) (K := 5504) (G := 172) rfl rfl (cur2 x3 n) (cur2 x8 n) (cur2 x9 n) j := by
  have hj := j.isLt
  rw [down_entry x3 x8 x9 n j ⟨j.val / 64, by omega⟩ ⟨j.val % 64, by omega⟩ ⟨j.val / 2, by omega⟩ ⟨j.val % 2, by omega⟩
    rfl rfl rfl rfl]
  unfold wFull
  by_cases h : j.val % 2 = 0
  · rw [if_pos h, down_stacked_hi x3 n _ _ h]
    rfl
  · rw [if_neg h, down_stacked_lo x3 n _ _ (by show j.val % 2 = 1; omega)]
    rfl

end Cert.ReferenceIdeal.Weights

end
-- ==== Proof.RefValue.lean ====
/-
  The reference's result is the specification's function of the arguments.

  The reference contracts `x` with the dequantised gate and up weights over the 4096 unpacked columns, applies
  `silu g = g · (1 / (1 + exp (-g)))` — which on the extended reals is `g · logistic g` — multiplies by `u`, and contracts
  with the dequantised down weights over the 11008 unpacked columns. Each contraction over the unpacked columns is
  the packed form (the specification's `dotFull_eq_dotPacked`).

  The reference keeps the batch and sequence axes `(b, s)` apart where the specification speaks of the flattened row
  `r = b · 1024 + s`; the two name the same activations because `r / 1024 = b` and `r % 1024 = s` for `s < 1024`. The
  `1` of the reference's `1 + exp (-g)` and `1 / ·` is the float literal whose pattern denotes the real number one.
-/
import proofs.«403345_j16587163697454_2_alg».proof.Proof.Gen.ReferenceIdeal.Read
import proofs.«403345_j16587163697454_2_alg».proof.Proof.Spec
import proofs.«403345_j16587163697454_2_alg».proof.Proof.RefWeights
import Idealize.ShloMosaic.Lib.Pipeline.Value

set_option maxRecDepth 16384

noncomputable section

namespace Cert.ReferenceIdeal.RefValue

open Cert.ReferenceIdeal Cert.ReferenceIdeal.Gen Cert.ReferenceIdeal.Read Cert.QuantMlp Idealize.ShloMosaic Idealize.ShloMosaic.TcCoe Idealize.ShloMosaic.ValueIdx Idealize.SL.Sem

/-- The pattern of the float literal one denotes the extended real 1: its sign bit is clear, its exponent field is the
    bias 127 and its fraction is zero, so it is the normal number `(2 ^ 23 + 0) · 2 ^ (127 - 127 - 23) = 1`. -/
private theorem ofBits_one : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

/-- The row `b * 1024 + s` of the flattened activations is below 4096. -/
private theorem row_lt (b : Fin 4) (s : Fin 1024) : b.val * 1024 + s.val < 4096 := by
  have := b.isLt; have := s.isLt; omega

/-- The activations at `(b, s, k)` are the flattened activations at row `b * 1024 + s`, column `k`. -/
private theorem x_at (x0 : (⟨S4x1024x4096, .f32⟩ : BufTy).Contents (Elt Ideal)) (b : Fin 4) (s : Fin 1024) (k : Fin 4096) :
    x0 (ix3 b s k) = xflat x0 ⟨b.val * 1024 + s.val, row_lt b s⟩ k := by
  unfold xflat
  congr 1
  funext a
  match a with
  | ⟨0, _⟩ => exact Fin.ext (by show b.val = (b.val * 1024 + s.val) / 1024; have := s.isLt; omega)
  | ⟨1, _⟩ => exact Fin.ext (by show s.val = (b.val * 1024 + s.val) % 1024; have := s.isLt; omega)
  | ⟨2, _⟩ => rfl

/-- The gate projection at `(b, s, j)`: the contraction over the 4096 unpacked columns is the packed form. -/
private theorem gate_dot (x0 : (⟨S4x1024x4096, .f32⟩ : BufTy).Contents (Elt Ideal)) (x1 : (⟨S11008x2048, .i32⟩ : BufTy).Contents (Elt Ideal))
    (x4 x5 : (⟨S11008x64, .f32⟩ : BufTy).Contents (Elt Ideal)) (b : Fin 4) (s : Fin 1024) (j : Fin 11008) :
    val_main_v57 (F := Ideal) x0 x1 x4 x5 (ix3 b s j)
      = qlin (D := 4096) (K := 2048) (G := 64) rfl rfl (xflat x0) (cur2 x1) (cur2 x4) (cur2 x5) ⟨b.val * 1024 + s.val, row_lt b s⟩ j := by
  rw [val_main_v57_apply]
  refine Eq.trans ?_ (dotFull_eq_dotPacked (D := 4096) (K := 2048) (G := 64) rfl rfl
    (xflat x0 ⟨b.val * 1024 + s.val, row_lt b s⟩) (cur2 x1 j) (cur2 x4 j) (cur2 x5 j))
  refine Finset.sum_congr rfl fun k _ => ?_
  have hl : lidx_main_v57 (ix3 b s j) k = ix3 b s k := by
    funext a
    match a with
    | ⟨0, _⟩ => rfl
    | ⟨1, _⟩ => rfl
    | ⟨2, _⟩ => rfl
  have hr : ridx_main_v57 (ix3 b s j) k = ix2 j k := by
    funext a
    match a with
    | ⟨0, _⟩ => rfl
    | ⟨1, _⟩ => rfl
  rw [hl, hr, Weights.gate_weight, x_at x0 b s k]

/-- The up projection at `(b, s, j)`, likewise. -/
private theorem up_dot (x0 : (⟨S4x1024x4096, .f32⟩ : BufTy).Contents (Elt Ideal)) (x2 : (⟨S11008x2048, .i32⟩ : BufTy).Contents (Elt Ideal))
    (x6 x7 : (⟨S11008x64, .f32⟩ : BufTy).Contents (Elt Ideal)) (b : Fin 4) (s : Fin 1024) (j : Fin 11008) :
    val_main_v58 (F := Ideal) x0 x2 x6 x7 (ix3 b s j)
      = qlin (D := 4096) (K := 2048) (G := 64) rfl rfl (xflat x0) (cur2 x2) (cur2 x6) (cur2 x7) ⟨b.val * 1024 + s.val, row_lt b s⟩ j := by
  rw [val_main_v58_apply]
  refine Eq.trans ?_ (dotFull_eq_dotPacked (D := 4096) (K := 2048) (G := 64) rfl rfl
    (xflat x0 ⟨b.val * 1024 + s.val, row_lt b s⟩) (cur2 x2 j) (cur2 x6 j) (cur2 x7 j))
  refine Finset.sum_congr rfl fun k _ => ?_
  have hl : lidx_main_v58 (ix3 b s j) k = ix3 b s k := by
    funext a
    match a with
    | ⟨0, _⟩ => rfl
    | ⟨1, _⟩ => rfl
    | ⟨2, _⟩ => rfl
  have hr : ridx_main_v58 (ix3 b s j) k = ix2 j k := by
    funext a
    match a with
    | ⟨0, _⟩ => rfl
    | ⟨1, _⟩ => rfl
  rw [hl, hr, Weights.up_weight, x_at x0 b s k]

/-- The hidden activation at `(b, s, j)`: `silu g · u`, with `silu g = g · (1 / (1 + exp (-g))) = g · logistic g`. -/
private theorem hidden_eq (x0 : (⟨S4x1024x4096, .f32⟩ : BufTy).Contents (Elt Ideal)) (x1 x2 : (⟨S11008x2048, .i32⟩ : BufTy).Contents (Elt Ideal))
    (x4 x5 x6 x7 : (⟨S11008x64, .f32⟩ : BufTy).Contents (Elt Ideal)) (b : Fin 4) (s : Fin 1024) (j : Fin 11008) :
    val_main_v60 (F := Ideal) x0 x1 x2 x4 x5 x6 x7 (ix3 b s j)
      = hidden (xflat x0) (cur2 x1) (cur2 x2) (cur2 x4) (cur2 x5) (cur2 x6) (cur2 x7) ⟨b.val * 1024 + s.val, row_lt b s⟩ j := by
  rw [val_main_v60_apply, val_main_v59_apply, val_main_call0_v5_apply, val_main_call0_v4_apply, val_main_call0_cst_0_apply,
    val_main_call0_v3_apply, val_main_call0_v2_apply, val_main_call0_cst_apply, val_main_call0_v1_apply, val_main_call0_v0_apply,
    gate_dot, up_dot]
  unfold Cert.QuantMlp.hidden gated Ideal.logistic
  simp only [Ideal.mulf_def, Ideal.addf_def, Ideal.hostDivf_def, Ideal.hostUnary_exp_def, Ideal.hostNegf_def, Ideal.negf_def,
    Ideal.ofBits_def, ofBits_one]

/-- The reference's result array is `result` of the ten arguments. -/
theorem val_eq_result (x0 : (⟨S4x1024x4096, .f32⟩ : BufTy).Contents (Elt Ideal)) (x1 x2 : (⟨S11008x2048, .i32⟩ : BufTy).Contents (Elt Ideal))
    (x3 : (⟨S4096x5504, .i32⟩ : BufTy).Contents (Elt Ideal)) (x4 x5 x6 x7 : (⟨S11008x64, .f32⟩ : BufTy).Contents (Elt Ideal))
    (x8 x9 : (⟨S4096x172, .f32⟩ : BufTy).Contents (Elt Ideal)) :
    val_main_v61 (F := Ideal) x0 x1 x2 x3 x4 x5 x6 x7 x8 x9 = result x0 x1 x2 x3 x4 x5 x6 x7 x8 x9 := by
  funext i
  obtain ⟨b, s, n, rfl⟩ : ∃ b s n, i = ix3 b s n := ⟨i 0, i 1, i 2, eq_ix3 i⟩
  rw [val_main_v61_apply]
  refine Eq.trans ?_ (dotFull_eq_dotPacked (D := 11008) (K := 5504) (G := 172) rfl rfl
    (hidden (xflat x0) (cur2 x1) (cur2 x2) (cur2 x4) (cur2 x5) (cur2 x6) (cur2 x7) ⟨b.val * 1024 + s.val, row_lt b s⟩)
    (cur2 x3 n) (cur2 x8 n) (cur2 x9 n))
  refine Finset.sum_congr rfl fun k _ => ?_
  have hl : lidx_main_v61 (ix3 b s n) k = ix3 b s k := by
    funext a
    match a with
    | ⟨0, _⟩ => rfl
    | ⟨1, _⟩ => rfl
    | ⟨2, _⟩ => rfl
  have hr : ridx_main_v61 (ix3 b s n) k = ix2 n k := by
    funext a
    match a with
    | ⟨0, _⟩ => rfl
    | ⟨1, _⟩ => rfl
  rw [hl, hr, Weights.down_weight, hidden_eq]

end Cert.ReferenceIdeal.RefValue

end
-- ==== Proof.lean ====
/-
  A gated MLP over group-quantised 4-bit weights: the kernel program and its jnp reference compute one function.

  Both programs dequantise three packed weight matrices, `W (n, j) = (field j of q (n, j / 2) - z (n, j / 64)) * s (n, j / 64)`,
  and compute `h = (g · logistic g) · u` with `g = x · Wgᵀ`, `u = x · Wuᵀ`, then `h · Wdᵀ`. The reference builds each
  `W` whole and contracts over the unpacked columns; the kernel program never interleaves the two 4-bit fields:
  it splits the activations into their even and odd columns once, spreads each per-group scale and zero point to
  the packed columns by a product with a 0/1 matrix, dequantises the upper and lower fields apart, and adds the two
  half-length contractions, in two pipelined kernels with the hidden activations stored between them. Over the extended
  reals the two agree term by term: a product with the 0/1 matrix selects the group's parameter (every other term is a
  product with zero), a sum over `2K` columns is the sum over the even ones plus the sum over the odd ones (addition
  is commutative and associative), `silu` spelled `g · (1 / (1 + exp (-g)))` is `g · logistic g` by definition, and a
  change of float format is the identity. No step distributes or cancels, so the precondition is not used.

  The frames of the two kernel programs are their launch certificates; the reference's is its run with the result
  dropped; the idealisation rewrote nothing. For the value claim the kernel program's run names its result buffer
  (`ResultRun.run`), which is the specification's `result` of the launch memory (`KValue.W9_result`), and the
  reference's run ends at the same function (`RefValue.val_eq_result`) of arguments that agree.
-/
import proofs.«403345_j16587163697454_2_alg».proof.Defs
import proofs.«403345_j16587163697454_2_alg».proof.Proof.Gen.Kernel
import proofs.«403345_j16587163697454_2_alg».proof.Proof.Gen.Kernel.Skeleton
import proofs.«403345_j16587163697454_2_alg».proof.Proof.Gen.Kernel.Launch
import proofs.«403345_j16587163697454_2_alg».proof.Proof.Gen.Kernel.Points
import proofs.«403345_j16587163697454_2_alg».proof.Proof.Gen.Kernel.Frame
import proofs.«403345_j16587163697454_2_alg».proof.Proof.Gen.KernelIdeal
import proofs.«403345_j16587163697454_2_alg».proof.Proof.Gen.KernelIdeal.Skeleton
import proofs.«403345_j16587163697454_2_alg».proof.Proof.Gen.KernelIdeal.Launch
import proofs.«403345_j16587163697454_2_alg».proof.Proof.Gen.KernelIdeal.Points
import proofs.«403345_j16587163697454_2_alg».proof.Proof.Gen.KernelIdeal.Frame
import proofs.«403345_j16587163697454_2_alg».proof.Proof.Gen.ReferenceIdeal
import proofs.«403345_j16587163697454_2_alg».proof.Proof.Gen.ReferenceIdeal.Run
import proofs.«403345_j16587163697454_2_alg».proof.Proof.Gen.ReferenceIdeal.Read
import proofs.«403345_j16587163697454_2_alg».proof.Proof.Gen.Pre_finite_inputs
import proofs.«403345_j16587163697454_2_alg».proof.Proof.Spec
import proofs.«403345_j16587163697454_2_alg».proof.Proof.KRun
import proofs.«403345_j16587163697454_2_alg».proof.Proof.KValue
import proofs.«403345_j16587163697454_2_alg».proof.Proof.RefValue
import Idealize.ShloMosaic.Adequacy
import Idealize.ShloMosaic.Init

noncomputable section

namespace Cert.Proof

open Idealize.ShloMosaic Idealize.ShloMosaic.TcCoe Idealize.SL.Sem Cert.QuantMlp

/-- The two idealised programs, run from memories that agree on the ten arguments, both end with the result buffer at
    `result` of those arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.KValue.W9_result m ρ c), (h c).2⟩)
      (Cert.KernelIdeal.ResultRun.run (F := Ideal) m ρ)
  · refine (θ_run Cert.ReferenceIdeal.defs _ _).mono (fun _ h c => ⟨?_, (h c).2⟩) (Cert.ReferenceIdeal.Value.run (F := Ideal) m' ρ')
    obtain ⟨h0, h1, h2, h3, h4, h5, h6, h7, h8, h9⟩ := hagree c
    rw [(h c).1, Cert.ReferenceIdeal.Read.val_main_v61_eq, Cert.ReferenceIdeal.RefValue.val_eq_result, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
